-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  IdealRules.truncf_extf.Statement Cert.KernelIdeal.S64x256x80 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S4096x256x2 : Shape := ⟨3, ![4096, 256, 2]⟩
abbrev S4096x1x16 : Shape := ⟨3, ![4096, 1, 16]⟩
abbrev S16x50 : Shape := ⟨2, ![16, 50]⟩
abbrev S50 : Shape := ⟨1, ![50]⟩
abbrev S50x200 : Shape := ⟨2, ![50, 200]⟩
abbrev S200 : Shape := ⟨1, ![200]⟩
abbrev S50x240 : Shape := ⟨2, ![50, 240]⟩
abbrev S240 : Shape := ⟨1, ![240]⟩
abbrev S50x50 : Shape := ⟨2, ![50, 50]⟩
abbrev S50x6480 : Shape := ⟨2, ![50, 6480]⟩
abbrev S6480 : Shape := ⟨1, ![6480]⟩
abbrev S50x162 : Shape := ⟨2, ![50, 162]⟩
abbrev S162 : Shape := ⟨1, ![162]⟩

class Facts : Prop where
  reducesTo_S_S_d : S_.ReducesTo [] S_
  h_S_ : 0 < S_.numel
  bcast_S_S4096x256x2 : S_.BroadcastsInDim S4096x256x2 (![] : Fin 0 → Fin S4096x256x2.rank)
  reducesTo_S4096x256x2_S_d0_1_2 : S4096x256x2.ReducesTo [0, 1, 2] S_
  bcast_S_S4096x1x16 : S_.BroadcastsInDim S4096x1x16 (![] : Fin 0 → Fin S4096x1x16.rank)
  reducesTo_S4096x1x16_S_d0_1_2 : S4096x1x16.ReducesTo [0, 1, 2] S_
  bcast_S_S16x50 : S_.BroadcastsInDim S16x50 (![] : Fin 0 → Fin S16x50.rank)
  reducesTo_S16x50_S_d0_1 : S16x50.ReducesTo [0, 1] S_
  bcast_S_S50 : S_.BroadcastsInDim S50 (![] : Fin 0 → Fin S50.rank)
  reducesTo_S50_S_d0 : S50.ReducesTo [0] S_
  bcast_S_S50x200 : S_.BroadcastsInDim S50x200 (![] : Fin 0 → Fin S50x200.rank)
  reducesTo_S50x200_S_d0_1 : S50x200.ReducesTo [0, 1] S_
  bcast_S_S200 : S_.BroadcastsInDim S200 (![] : Fin 0 → Fin S200.rank)
  reducesTo_S200_S_d0 : S200.ReducesTo [0] S_
  bcast_S_S50x240 : S_.BroadcastsInDim S50x240 (![] : Fin 0 → Fin S50x240.rank)
  reducesTo_S50x240_S_d0_1 : S50x240.ReducesTo [0, 1] S_
  bcast_S_S240 : S_.BroadcastsInDim S240 (![] : Fin 0 → Fin S240.rank)
  reducesTo_S240_S_d0 : S240.ReducesTo [0] S_
  bcast_S_S50x50 : S_.BroadcastsInDim S50x50 (![] : Fin 0 → Fin S50x50.rank)
  reducesTo_S50x50_S_d0_1 : S50x50.ReducesTo [0, 1] S_
  bcast_S_S50x6480 : S_.BroadcastsInDim S50x6480 (![] : Fin 0 → Fin S50x6480.rank)
  reducesTo_S50x6480_S_d0_1 : S50x6480.ReducesTo [0, 1] S_
  bcast_S_S6480 : S_.BroadcastsInDim S6480 (![] : Fin 0 → Fin S6480.rank)
  reducesTo_S6480_S_d0 : S6480.ReducesTo [0] S_
  bcast_S_S50x162 : S_.BroadcastsInDim S50x162 (![] : Fin 0 → Fin S50x162.rank)
  reducesTo_S50x162_S_d0_1 : S50x162.ReducesTo [0, 1] S_
  bcast_S_S162 : S_.BroadcastsInDim S162 (![] : Fin 0 → Fin S162.rank)
  reducesTo_S162_S_d0 : S162.ReducesTo [0] S_

variable [Facts]

def fn_part5 {F : FTy → Type} [FloatOps F] (main_arg18 : FVec F S50x162 .f32) (main_arg19 : FVec F S162 .f32) (main_v82 : IVec S_ 1) (main_v83 : FVec F S6480 .f32) (main_v84 : FVec F S6480 .f32) : IVec S_ 1 :=
  let main_v85 : IVec S6480 1 := cmpf .olt main_v83 main_v84
  let main_c_33 : IVec S_ 1 := constantI S_ 1 1#1
  let main_v86 : IVec S_ 1 := (fun x v => Host.reduce IntOp.andi x v reducesTo_S6480_S_d0 h_S_) main_v85 main_c_33
  let main_v87 : IVec S_ 1 := andi main_v82 main_v86
  let main_v88 : FVec F S50x162 .f32 := Host.absf main_arg18
  let main_cst_34 : FVec F S_ .f32 := constant S_ .f32 0x7F800000#32
  let main_v89 : FVec F S50x162 .f32 := broadcastInDim S50x162 ![] bcast_S_S50x162 main_cst_34
  let main_v90 : IVec S50x162 1 := cmpf .olt main_v88 main_v89
  let main_c_35 : IVec S_ 1 := constantI S_ 1 1#1
  let main_v91 : IVec S_ 1 := (fun x v => Host.reduce IntOp.andi x v reducesTo_S50x162_S_d0_1 h_S_) main_v90 main_c_35
  let main_v92 : IVec S_ 1 := andi main_v87 main_v91
  let main_v93 : FVec F S162 .f32 := Host.absf main_arg19
  let main_cst_36 : FVec F S_ .f32 := constant S_ .f32 0x7F800000#32
  let main_v94 : FVec F S162 .f32 := broadcastInDim S162 ![] bcast_S_S162 main_cst_36
  let main_v95 : IVec S162 1 := cmpf .olt main_v93 main_v94
  let main_c_37 : IVec S_ 1 := constantI S_ 1 1#1
  let main_v96 : IVec S_ 1 := (fun x v => Host.reduce IntOp.andi x v reducesTo_S162_S_d0 h_S_) main_v95 main_c_37
  let main_v97 : IVec S_ 1 := andi main_v92 main_v96
  main_v97

def fn_part4 {F : FTy → Type} [FloatOps F] (main_arg14 : FVec F S50x50 .f32) (main_arg15 : FVec F S50 .f32) (main_arg16 : FVec F S50x6480 .f32) (main_arg17 : FVec F S6480 .f32) (main_arg18 : FVec F S50x162 .f32) (main_arg19 : FVec F S162 .f32) (main_v67 : IVec S_ 1) : IVec S_ 1 :=
  let main_v68 : FVec F S50x50 .f32 := Host.absf main_arg14
  let main_cst_26 : FVec F S_ .f32 := constant S_ .f32 0x7F800000#32
  let main_v69 : FVec F S50x50 .f32 := broadcastInDim S50x50 ![] bcast_S_S50x50 main_cst_26
  let main_v70 : IVec S50x50 1 := cmpf .olt main_v68 main_v69
  let main_c_27 : IVec S_ 1 := constantI S_ 1 1#1
  let main_v71 : IVec S_ 1 := (fun x v => Host.reduce IntOp.andi x v reducesTo_S50x50_S_d0_1 h_S_) main_v70 main_c_27
  let main_v72 : IVec S_ 1 := andi main_v67 main_v71
  let main_v73 : FVec F S50 .f32 := Host.absf main_arg15
  let main_cst_28 : FVec F S_ .f32 := constant S_ .f32 0x7F800000#32
  let main_v74 : FVec F S50 .f32 := broadcastInDim S50 ![] bcast_S_S50 main_cst_28
  let main_v75 : IVec S50 1 := cmpf .olt main_v73 main_v74
  let main_c_29 : IVec S_ 1 := constantI S_ 1 1#1
  let main_v76 : IVec S_ 1 := (fun x v => Host.reduce IntOp.andi x v reducesTo_S50_S_d0 h_S_) main_v75 main_c_29
  let main_v77 : IVec S_ 1 := andi main_v72 main_v76
  let main_v78 : FVec F S50x6480 .f32 := Host.absf main_arg16
  let main_cst_30 : FVec F S_ .f32 := constant S_ .f32 0x7F800000#32
  let main_v79 : FVec F S50x6480 .f32 := broadcastInDim S50x6480 ![] bcast_S_S50x6480 main_cst_30
  let main_v80 : IVec S50x6480 1 := cmpf .olt main_v78 main_v79
  let main_c_31 : IVec S_ 1 := constantI S_ 1 1#1
  let main_v81 : IVec S_ 1 := (fun x v => Host.reduce IntOp.andi x v reducesTo_S50x6480_S_d0_1 h_S_) main_v80 main_c_31
  let main_v82 : IVec S_ 1 := andi main_v77 main_v81
  let main_v83 : FVec F S6480 .f32 := Host.absf main_arg17
  let main_cst_32 : FVec F S_ .f32 := constant S_ .f32 0x7F800000#32
  let main_v84 : FVec F S6480 .f32 := broadcastInDim S6480 ![] bcast_S_S6480 main_cst_32
  fn_part5 (F := F) main_arg18 main_arg19 main_v82 main_v83 main_v84

def fn_part3 {F : FTy → Type} [FloatOps F] (main_arg11 : FVec F S50 .f32) (main_arg12 : FVec F S50x6480 .f32) (main_arg13 : FVec F S6480 .f32) (main_arg14 : FVec F S50x50 .f32) (main_arg15 : FVec F S50 .f32) (main_arg16 : FVec F S50x6480 .f32) (main_arg17 : FVec F S6480 .f32) (main_arg18 : FVec F S50x162 .f32) (main_arg19 : FVec F S162 .f32) (main_v47 : IVec S_ 1) (main_v50 : IVec S50x50 1) : IVec S_ 1 :=
  let main_c_19 : IVec S_ 1 := constantI S_ 1 1#1
  let main_v51 : IVec S_ 1 := (fun x v => Host.reduce IntOp.andi x v reducesTo_S50x50_S_d0_1 h_S_) main_v50 main_c_19
  let main_v52 : IVec S_ 1 := andi main_v47 main_v51
  let main_v53 : FVec F S50 .f32 := Host.absf main_arg11
  let main_cst_20 : FVec F S_ .f32 := constant S_ .f32 0x7F800000#32
  let main_v54 : FVec F S50 .f32 := broadcastInDim S50 ![] bcast_S_S50 main_cst_20
  let main_v55 : IVec S50 1 := cmpf .olt main_v53 main_v54
  let main_c_21 : IVec S_ 1 := constantI S_ 1 1#1
  let main_v56 : IVec S_ 1 := (fun x v => Host.reduce IntOp.andi x v reducesTo_S50_S_d0 h_S_) main_v55 main_c_21
  let main_v57 : IVec S_ 1 := andi main_v52 main_v56
  let main_v58 : FVec F S50x6480 .f32 := Host.absf main_arg12
  let main_cst_22 : FVec F S_ .f32 := constant S_ .f32 0x7F800000#32
  let main_v59 : FVec F S50x6480 .f32 := broadcastInDim S50x6480 ![] bcast_S_S50x6480 main_cst_22
  let main_v60 : IVec S50x6480 1 := cmpf .olt main_v58 main_v59
  let main_c_23 : IVec S_ 1 := constantI S_ 1 1#1
  let main_v61 : IVec S_ 1 := (fun x v => Host.reduce IntOp.andi x v reducesTo_S50x6480_S_d0_1 h_S_) main_v60 main_c_23
  let main_v62 : IVec S_ 1 := andi main_v57 main_v61
  let main_v63 : FVec F S6480 .f32 := Host.absf main_arg13
  let main_cst_24 : FVec F S_ .f32 := constant S_ .f32 0x7F800000#32
  let main_v64 : FVec F S6480 .f32 := broadcastInDim S6480 ![] bcast_S_S6480 main_cst_24
  let main_v65 : IVec S6480 1 := cmpf .olt main_v63 main_v64
  let main_c_25 : IVec S_ 1 := constantI S_ 1 1#1
  let main_v66 : IVec S_ 1 := (fun x v => Host.reduce IntOp.andi x v reducesTo_S6480_S_d0 h_S_) main_v65 main_c_25
  let main_v67 : IVec S_ 1 := andi main_v62 main_v66
  fn_part4 (F := F) main_arg14 main_arg15 main_arg16 main_arg17 main_arg18 main_arg19 main_v67

def fn_part2 {F : FTy → Type} [FloatOps F] (main_arg8 : FVec F S50x240 .f32) (main_arg9 : FVec F S240 .f32) (main_arg10 : FVec F S50x50 .f32) (main_arg11 : FVec F S50 .f32) (main_arg12 : FVec F S50x6480 .f32) (main_arg13 : FVec F S6480 .f32) (main_arg14 : FVec F S50x50 .f32) (main_arg15 : FVec F S50 .f32) (main_arg16 : FVec F S50x6480 .f32) (main_arg17 : FVec F S6480 .f32) (main_arg18 : FVec F S50x162 .f32) (main_arg19 : FVec F S162 .f32) (main_v32 : IVec S_ 1) (main_v33 : FVec F S200 .f32) : IVec S_ 1 :=
  let main_cst_12 : FVec F S_ .f32 := constant S_ .f32 0x7F800000#32
  let main_v34 : FVec F S200 .f32 := broadcastInDim S200 ![] bcast_S_S200 main_cst_12
  let main_v35 : IVec S200 1 := cmpf .olt main_v33 main_v34
  let main_c_13 : IVec S_ 1 := constantI S_ 1 1#1
  let main_v36 : IVec S_ 1 := (fun x v => Host.reduce IntOp.andi x v reducesTo_S200_S_d0 h_S_) main_v35 main_c_13
  let main_v37 : IVec S_ 1 := andi main_v32 main_v36
  let main_v38 : FVec F S50x240 .f32 := Host.absf main_arg8
  let main_cst_14 : FVec F S_ .f32 := constant S_ .f32 0x7F800000#32
  let main_v39 : FVec F S50x240 .f32 := broadcastInDim S50x240 ![] bcast_S_S50x240 main_cst_14
  let main_v40 : IVec S50x240 1 := cmpf .olt main_v38 main_v39
  let main_c_15 : IVec S_ 1 := constantI S_ 1 1#1
  let main_v41 : IVec S_ 1 := (fun x v => Host.reduce IntOp.andi x v reducesTo_S50x240_S_d0_1 h_S_) main_v40 main_c_15
  let main_v42 : IVec S_ 1 := andi main_v37 main_v41
  let main_v43 : FVec F S240 .f32 := Host.absf main_arg9
  let main_cst_16 : FVec F S_ .f32 := constant S_ .f32 0x7F800000#32
  let main_v44 : FVec F S240 .f32 := broadcastInDim S240 ![] bcast_S_S240 main_cst_16
  let main_v45 : IVec S240 1 := cmpf .olt main_v43 main_v44
  let main_c_17 : IVec S_ 1 := constantI S_ 1 1#1
  let main_v46 : IVec S_ 1 := (fun x v => Host.reduce IntOp.andi x v reducesTo_S240_S_d0 h_S_) main_v45 main_c_17
  let main_v47 : IVec S_ 1 := andi main_v42 main_v46
  let main_v48 : FVec F S50x50 .f32 := Host.absf main_arg10
  let main_cst_18 : FVec F S_ .f32 := constant S_ .f32 0x7F800000#32
  let main_v49 : FVec F S50x50 .f32 := broadcastInDim S50x50 ![] bcast_S_S50x50 main_cst_18
  let main_v50 : IVec S50x50 1 := cmpf .olt main_v48 main_v49
  fn_part3 (F := F) main_arg11 main_arg12 main_arg13 main_arg14 main_arg15 main_arg16 main_arg17 main_arg18 main_arg19 main_v47 main_v50

def fn_part1 {F : FTy → Type} [FloatOps F] (main_arg4 : FVec F S16x50 .f32) (main_arg5 : FVec F S50 .f32) (main_arg6 : FVec F S50x200 .f32) (main_arg7 : FVec F S200 .f32) (main_arg8 : FVec F S50x240 .f32) (main_arg9 : FVec F S240 .f32) (main_arg10 : FVec F S50x50 .f32) (main_arg11 : FVec F S50 .f32) (main_arg12 : FVec F S50x6480 .f32) (main_arg13 : FVec F S6480 .f32) (main_arg14 : FVec F S50x50 .f32) (main_arg15 : FVec F S50 .f32) (main_arg16 : FVec F S50x6480 .f32) (main_arg17 : FVec F S6480 .f32) (main_arg18 : FVec F S50x162 .f32) (main_arg19 : FVec F S162 .f32) (main_v12 : IVec S_ 1) (main_v15 : IVec S4096x1x16 1) (main_c_5 : IVec S_ 1) : IVec S_ 1 :=
  let main_v16 : IVec S_ 1 := (fun x v => Host.reduce IntOp.andi x v reducesTo_S4096x1x16_S_d0_1_2 h_S_) main_v15 main_c_5
  let main_v17 : IVec S_ 1 := andi main_v12 main_v16
  let main_v18 : FVec F S16x50 .f32 := Host.absf main_arg4
  let main_cst_6 : FVec F S_ .f32 := constant S_ .f32 0x7F800000#32
  let main_v19 : FVec F S16x50 .f32 := broadcastInDim S16x50 ![] bcast_S_S16x50 main_cst_6
  let main_v20 : IVec S16x50 1 := cmpf .olt main_v18 main_v19
  let main_c_7 : IVec S_ 1 := constantI S_ 1 1#1
  let main_v21 : IVec S_ 1 := (fun x v => Host.reduce IntOp.andi x v reducesTo_S16x50_S_d0_1 h_S_) main_v20 main_c_7
  let main_v22 : IVec S_ 1 := andi main_v17 main_v21
  let main_v23 : FVec F S50 .f32 := Host.absf main_arg5
  let main_cst_8 : FVec F S_ .f32 := constant S_ .f32 0x7F800000#32
  let main_v24 : FVec F S50 .f32 := broadcastInDim S50 ![] bcast_S_S50 main_cst_8
  let main_v25 : IVec S50 1 := cmpf .olt main_v23 main_v24
  let main_c_9 : IVec S_ 1 := constantI S_ 1 1#1
  let main_v26 : IVec S_ 1 := (fun x v => Host.reduce IntOp.andi x v reducesTo_S50_S_d0 h_S_) main_v25 main_c_9
  let main_v27 : IVec S_ 1 := andi main_v22 main_v26
  let main_v28 : FVec F S50x200 .f32 := Host.absf main_arg6
  let main_cst_10 : FVec F S_ .f32 := constant S_ .f32 0x7F800000#32
  let main_v29 : FVec F S50x200 .f32 := broadcastInDim S50x200 ![] bcast_S_S50x200 main_cst_10
  let main_v30 : IVec S50x200 1 := cmpf .olt main_v28 main_v29
  let main_c_11 : IVec S_ 1 := constantI S_ 1 1#1
  let main_v31 : IVec S_ 1 := (fun x v => Host.reduce IntOp.andi x v reducesTo_S50x200_S_d0_1 h_S_) main_v30 main_c_11
  let main_v32 : IVec S_ 1 := andi main_v27 main_v31
  let main_v33 : FVec F S200 .f32 := Host.absf main_arg7
  fn_part2 (F := F) main_arg8 main_arg9 main_arg10 main_arg11 main_arg12 main_arg13 main_arg14 main_arg15 main_arg16 main_arg17 main_arg18 main_arg19 main_v32 main_v33

def fn {F : FTy → Type} [FloatOps F] (main_arg0 : FVec F S_ .f32) (main_arg1 : FVec F S4096x256x2 .f32) (main_arg2 : FVec F S4096x1x16 .f32) (main_arg3 : FVec F S4096x1x16 .f32) (main_arg4 : FVec F S16x50 .f32) (main_arg5 : FVec F S50 .f32) (main_arg6 : FVec F S50x200 .f32) (main_arg7 : FVec F S200 .f32) (main_arg8 : FVec F S50x240 .f32) (main_arg9 : FVec F S240 .f32) (main_arg10 : FVec F S50x50 .f32) (main_arg11 : FVec F S50 .f32) (main_arg12 : FVec F S50x6480 .f32) (main_arg13 : FVec F S6480 .f32) (main_arg14 : FVec F S50x50 .f32) (main_arg15 : FVec F S50 .f32) (main_arg16 : FVec F S50x6480 .f32) (main_arg17 : FVec F S6480 .f32) (main_arg18 : FVec F S50x162 .f32) (main_arg19 : FVec F S162 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S4096x256x2 .f32 := Host.absf main_arg1
  let main_cst_0 : FVec F S_ .f32 := constant S_ .f32 0x7F800000#32
  let main_v4 : FVec F S4096x256x2 .f32 := broadcastInDim S4096x256x2 ![] bcast_S_S4096x256x2 main_cst_0
  let main_v5 : IVec S4096x256x2 1 := cmpf .olt main_v3 main_v4
  let main_c_1 : IVec S_ 1 := constantI S_ 1 1#1
  let main_v6 : IVec S_ 1 := (fun x v => Host.reduce IntOp.andi x v reducesTo_S4096x256x2_S_d0_1_2 h_S_) main_v5 main_c_1
  let main_v7 : IVec S_ 1 := andi main_v2 main_v6
  let main_v8 : FVec F S4096x1x16 .f32 := Host.absf main_arg2
  let main_cst_2 : FVec F S_ .f32 := constant S_ .f32 0x7F800000#32
  let main_v9 : FVec F S4096x1x16 .f32 := broadcastInDim S4096x1x16 ![] bcast_S_S4096x1x16 main_cst_2
  let main_v10 : IVec S4096x1x16 1 := cmpf .olt main_v8 main_v9
  let main_c_3 : IVec S_ 1 := constantI S_ 1 1#1
  let main_v11 : IVec S_ 1 := (fun x v => Host.reduce IntOp.andi x v reducesTo_S4096x1x16_S_d0_1_2 h_S_) main_v10 main_c_3
  let main_v12 : IVec S_ 1 := andi main_v7 main_v11
  let main_v13 : FVec F S4096x1x16 .f32 := Host.absf main_arg3
  let main_cst_4 : FVec F S_ .f32 := constant S_ .f32 0x7F800000#32
  let main_v14 : FVec F S4096x1x16 .f32 := broadcastInDim S4096x1x16 ![] bcast_S_S4096x1x16 main_cst_4
  let main_v15 : IVec S4096x1x16 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_arg16 main_arg17 main_arg18 main_arg19 main_v12 main_v15 main_c_5
-- ==== Kernel.lean ====
abbrev S_ : Shape := ⟨0, ![]⟩
abbrev S4096x256x2 : Shape := ⟨3, ![4096, 256, 2]⟩
abbrev S4096x1x16 : Shape := ⟨3, ![4096, 1, 16]⟩
abbrev S16x50 : Shape := ⟨2, ![16, 50]⟩
abbrev S50 : Shape := ⟨1, ![50]⟩
abbrev S50x200 : Shape := ⟨2, ![50, 200]⟩
abbrev S200 : Shape := ⟨1, ![200]⟩
abbrev S50x240 : Shape := ⟨2, ![50, 240]⟩
abbrev S240 : Shape := ⟨1, ![240]⟩
abbrev S50x50 : Shape := ⟨2, ![50, 50]⟩
abbrev S50x6480 : Shape := ⟨2, ![50, 6480]⟩
abbrev S6480 : Shape := ⟨1, ![6480]⟩
abbrev S50x162 : Shape := ⟨2, ![50, 162]⟩
abbrev S162 : Shape := ⟨1, ![162]⟩
abbrev S64x256x2 : Shape := ⟨3, ![64, 256, 2]⟩
abbrev S64x1x16 : Shape := ⟨3, ![64, 1, 16]⟩
abbrev S64x16 : Shape := ⟨2, ![64, 16]⟩
abbrev S64x8 : Shape := ⟨2, ![64, 8]⟩
abbrev S64x8x2 : Shape := ⟨3, ![64, 8, 2]⟩
abbrev S64x8x1 : Shape := ⟨3, ![64, 8, 1]⟩
abbrev S64x50 : Shape := ⟨2, ![64, 50]⟩
abbrev S1x50 : Shape := ⟨2, ![1, 50]⟩
abbrev S64x200 : Shape := ⟨2, ![64, 200]⟩
abbrev S1x200 : Shape := ⟨2, ![1, 200]⟩
abbrev S64x240 : Shape := ⟨2, ![64, 240]⟩
abbrev S1x240 : Shape := ⟨2, ![1, 240]⟩
abbrev S64x6480 : Shape := ⟨2, ![64, 6480]⟩
abbrev S1x6480 : Shape := ⟨2, ![1, 6480]⟩
abbrev S64x162 : Shape := ⟨2, ![64, 162]⟩
abbrev S1x162 : Shape := ⟨2, ![1, 162]⟩
abbrev S64x160 : Shape := ⟨2, ![64, 160]⟩
abbrev S64x2x80 : Shape := ⟨3, ![64, 2, 80]⟩
abbrev S64x80 : Shape := ⟨2, ![64, 80]⟩
abbrev S64x1x80 : Shape := ⟨3, ![64, 1, 80]⟩
abbrev S64x6400 : Shape := ⟨2, ![64, 6400]⟩
abbrev S64x80x80 : Shape := ⟨3, ![64, 80, 80]⟩
abbrev S64x80x2 : Shape := ⟨3, ![64, 80, 2]⟩
abbrev S64x2 : Shape := ⟨2, ![64, 2]⟩
abbrev S64x1x2 : Shape := ⟨3, ![64, 1, 2]⟩
abbrev S64x256x1 : Shape := ⟨3, ![64, 256, 1]⟩
abbrev S64x256x80 : Shape := ⟨3, ![64, 256, 80]⟩
abbrev S64x80x1 : Shape := ⟨3, ![64, 80, 1]⟩
abbrev S64x256 : Shape := ⟨2, ![64, 256]⟩

abbrev nBuf : Space → Nat
  | .hbm => 32
  | .vmem => 26
  | .smem => 0
  | _ => 0

abbrev bufTy : (tb : Table) → Fin (tcTables nBuf tb) → BufTy
  | .hbm, ⟨0, _⟩ => ⟨S_, .f32⟩
  | .hbm, ⟨1, _⟩ => ⟨S4096x256x2, .f32⟩
  | .hbm, ⟨2, _⟩ => ⟨S4096x1x16, .f32⟩
  | .hbm, ⟨3, _⟩ => ⟨S4096x1x16, .f32⟩
  | .hbm, ⟨4, _⟩ => ⟨S16x50, .f32⟩
  | .hbm, ⟨5, _⟩ => ⟨S50, .f32⟩
  | .hbm, ⟨6, _⟩ => ⟨S50x200, .f32⟩
  | .hbm, ⟨7, _⟩ => ⟨S200, .f32⟩
  | .hbm, ⟨8, _⟩ => ⟨S50x240, .f32⟩
  | .hbm, ⟨9, _⟩ => ⟨S240, .f32⟩
  | .hbm, ⟨10, _⟩ => ⟨S50x50, .f32⟩
  | .hbm, ⟨11, _⟩ => ⟨S50, .f32⟩
  | .hbm, ⟨12, _⟩ => ⟨S50x6480, .f32⟩
  | .hbm, ⟨13, _⟩ => ⟨S6480, .f32⟩
  | .hbm, ⟨14, _⟩ => ⟨S50x50, .f32⟩
  | .hbm, ⟨15, _⟩ => ⟨S50, .f32⟩
  | .hbm, ⟨16, _⟩ => ⟨S50x6480, .f32⟩
  | .hbm, ⟨17, _⟩ => ⟨S6480, .f32⟩
  | .hbm, ⟨18, _⟩ => ⟨S50x162, .f32⟩
  | .hbm, ⟨19, _⟩ => ⟨S162, .f32⟩
  | .hbm, ⟨20, _⟩ => ⟨S16x50, .bf16⟩
  | .hbm, ⟨21, _⟩ => ⟨S50x200, .bf16⟩
  | .hbm, ⟨22, _⟩ => ⟨S50x240, .bf16⟩
  | .hbm, ⟨23, _⟩ => ⟨S50x50, .bf16⟩
  | .hbm, ⟨24, _⟩ => ⟨S50x6480, .bf16⟩
  | .hbm, ⟨25, _⟩ => ⟨S50x50, .bf16⟩
  | .hbm, ⟨26, _⟩ => ⟨S50x6480, .bf16⟩
  | .hbm, ⟨27, _⟩ => ⟨S50x162, .bf16⟩
  | .hbm, ⟨28, _⟩ => ⟨S4096x256x2, .f32⟩
  | .hbm, ⟨29, _⟩ => ⟨S4096x1x16, .f32⟩
  | .hbm, ⟨30, _⟩ => ⟨S_, .f32⟩
  | .hbm, ⟨31, _⟩ => ⟨S4096x1x16, .f32⟩
  | .local _ .vmem, ⟨0, _⟩ => ⟨S64x256x2, .f32⟩
  | .local _ .vmem, ⟨1, _⟩ => ⟨S64x256x2, .f32⟩
  | .local _ .vmem, ⟨2, _⟩ => ⟨S64x1x16, .f32⟩
  | .local _ .vmem, ⟨3, _⟩ => ⟨S64x1x16, .f32⟩
  | .local _ .vmem, ⟨4, _⟩ => ⟨S64x1x16, .f32⟩
  | .local _ .vmem, ⟨5, _⟩ => ⟨S64x1x16, .f32⟩
  | .local _ .vmem, ⟨6, _⟩ => ⟨S16x50, .bf16⟩
  | .local _ .vmem, ⟨7, _⟩ => ⟨S50, .f32⟩
  | .local _ .vmem, ⟨8, _⟩ => ⟨S50x200, .bf16⟩
  | .local _ .vmem, ⟨9, _⟩ => ⟨S200, .f32⟩
  | .local _ .vmem, ⟨10, _⟩ => ⟨S50x240, .bf16⟩
  | .local _ .vmem, ⟨11, _⟩ => ⟨S240, .f32⟩
  | .local _ .vmem, ⟨12, _⟩ => ⟨S50x50, .bf16⟩
  | .local _ .vmem, ⟨13, _⟩ => ⟨S50, .f32⟩
  | .local _ .vmem, ⟨14, _⟩ => ⟨S50x6480, .bf16⟩
  | .local _ .vmem, ⟨15, _⟩ => ⟨S6480, .f32⟩
  | .local _ .vmem, ⟨16, _⟩ => ⟨S50x50, .bf16⟩
  | .local _ .vmem, ⟨17, _⟩ => ⟨S50, .f32⟩
  | .local _ .vmem, ⟨18, _⟩ => ⟨S50x6480, .bf16⟩
  | .local _ .vmem, ⟨19, _⟩ => ⟨S6480, .f32⟩
  | .local _ .vmem, ⟨20, _⟩ => ⟨S50x162, .bf16⟩
  | .local _ .vmem, ⟨21, _⟩ => ⟨S162, .f32⟩
  | .local _ .vmem, ⟨22, _⟩ => ⟨S64x256x2, .f32⟩
  | .local _ .vmem, ⟨23, _⟩ => ⟨S64x256x2, .f32⟩
  | .local _ .vmem, ⟨24, _⟩ => ⟨S64x1x16, .f32⟩
  | .local _ .vmem, ⟨25, _⟩ => ⟨S64x1x16, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev main_cst : Ref sig .tc := ⟨.hbm, 30, rfl⟩
abbrev main_v9 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem19_1 : DmaSem sig := 23
abbrev cc0_sem20_0 : DmaSem sig := 24
abbrev cc0_sem20_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x50 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x200 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x240 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S240 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S50x50 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S50 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S50x6480 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6480 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S50x50 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S50 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S50x6480 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S6480 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S50x162 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S162 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S64x256x2 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1x16 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

class Facts₀ : Prop where
  bitsLt_bf16_f32 : FTy.bits .bf16 < FTy.bits .f32
  inb_S64x1x16_S64x1x16_0_0_0 : ∀ a, (![0, 0, 0] : Fin 3 → Nat) a + S64x1x16.size a ≤ S64x1x16.size a
  h_S64x1x16 : 0 < S64x1x16.numel
  shapeCasts_S64x1x16_S64x16 : S64x1x16.ShapeCasts S64x16
  slices_S64x16_o0_0_S64x8 : S64x16.Slices ![0, 0] S64x8
  slices_S64x16_o0_8_S64x8 : S64x16.Slices ![0, 8] S64x8
  shapeCasts_S64x16_S64x8x2 : S64x16.ShapeCasts S64x8x2
  slices_S64x8x2_o0_0_0_S64x8x1 : S64x8x2.Slices ![0, 0, 0] S64x8x1
  shapeCasts_S64x8x1_S64x8 : S64x8x1.ShapeCasts S64x8
  slices_S64x8x2_o0_0_1_S64x8x1 : S64x8x2.Slices ![0, 0, 1] S64x8x1
  shapeCasts_S64x8_S64x8x1 : S64x8.ShapeCasts S64x8x1
  concatenates_S64x8x1_S64x8x1_S64x8x2_d2 : Shape.Concatenates [S64x8x1, S64x8x1] S64x8x2 2
  shapeCasts_S64x8x2_S64x16 : S64x8x2.ShapeCasts S64x16
  shapeCasts_S64x16_S64x1x16 : S64x16.ShapeCasts S64x1x16
  inb_S16x50_S16x50_0_0 : ∀ a, (![0, 0] : Fin 2 → Nat) a + S16x50.size a ≤ S16x50.size a
  h_S16x50 : 0 < S16x50.numel
  shapeCasts_S16x50_S16x50 : S16x50.ShapeCasts S16x50
  inb_S50_S50_0 : ∀ a, (![0] : Fin 1 → Nat) a + S50.size a ≤ S50.size a
  h_S50 : 0 < S50.numel
  shapeCasts_S50_S1x50 : S50.ShapeCasts S1x50
  broadcasts_S1x50_S64x50 : S1x50.Broadcasts S64x50
  inb_S50x200_S50x200_0_0 : ∀ a, (![0, 0] : Fin 2 → Nat) a + S50x200.size a ≤ S50x200.size a
  h_S50x200 : 0 < S50x200.numel
  shapeCasts_S50x200_S50x200 : S50x200.ShapeCasts S50x200
  inb_S200_S200_0 : ∀ a, (![0] : Fin 1 → Nat) a + S200.size a ≤ S200.size a
  h_S200 : 0 < S200.numel
  shapeCasts_S200_S1x200 : S200.ShapeCasts S1x200
  broadcasts_S1x200_S64x200 : S1x200.Broadcasts S64x200
  slices_S64x200_o0_0_S64x50 : S64x200.Slices ![0, 0] S64x50
  inb_S50x240_S50x240_0_0 : ∀ a, (![0, 0] : Fin 2 → Nat) a + S50x240.size a ≤ S50x240.size a
  h_S50x240 : 0 < S50x240.numel
  shapeCasts_S50x240_S50x240 : S50x240.ShapeCasts S50x240
  inb_S240_S240_0 : ∀ a, (![0] : Fin 1 → Nat) a + S240.size a ≤ S240.size a
  h_S240 : 0 < S240.numel
  shapeCasts_S240_S1x240 : S240.ShapeCasts S1x240
  broadcasts_S1x240_S64x240 : S1x240.Broadcasts S64x240
  slices_S64x200_o0_50_S64x50 : S64x200.Slices ![0, 50] S64x50
  inb_S50x50_S50x50_0_0 : ∀ a, (![0, 0] : Fin 2 → Nat) a + S50x50.size a ≤ S50x50.size a
  h_S50x50 : 0 < S50x50.numel
  shapeCasts_S50x50_S50x50 : S50x50.ShapeCasts S50x50
  inb_S50x6480_S50x6480_0_0 : ∀ a, (![0, 0] : Fin 2 → Nat) a + S50x6480.size a ≤ S50x6480.size a
  h_S50x6480 : 0 < S50x6480.numel
  shapeCasts_S50x6480_S50x6480 : S50x6480.ShapeCasts S50x6480
  inb_S6480_S6480_0 : ∀ a, (![0] : Fin 1 → Nat) a + S6480.size a ≤ S6480.size a
  h_S6480 : 0 < S6480.numel
  shapeCasts_S6480_S1x6480 : S6480.ShapeCasts S1x6480
  broadcasts_S1x6480_S64x6480 : S1x6480.Broadcasts S64x6480
  slices_S64x200_o0_100_S64x50 : S64x200.Slices ![0, 100] S64x50
  slices_S64x200_o0_150_S64x50 : S64x200.Slices ![0, 150] S64x50
  inb_S50x162_S50x162_0_0 : ∀ a, (![0, 0] : Fin 2 → Nat) a + S50x162.size a ≤ S50x162.size a
  h_S50x162 : 0 < S50x162.numel
  shapeCasts_S50x162_S50x162 : S50x162.ShapeCasts S50x162
  inb_S162_S162_0 : ∀ a, (![0] : Fin 1 → Nat) a + S162.size a ≤ S162.size a
  h_S162 : 0 < S162.numel
  shapeCasts_S162_S1x162 : S162.ShapeCasts S1x162
  broadcasts_S1x162_S64x162 : S1x162.Broadcasts S64x162
  slices_S64x240_o0_0_S64x160 : S64x240.Slices ![0, 0] S64x160
  shapeCasts_S64x160_S64x2x80 : S64x160.ShapeCasts S64x2x80
  slices_S64x240_o0_160_S64x80 : S64x240.Slices ![0, 160] S64x80
  shapeCasts_S64x80_S64x1x80 : S64x80.ShapeCasts S64x1x80
  slices_S64x6480_o0_0_S64x6400 : S64x6480.Slices ![0, 0] S64x6400
  shapeCasts_S64x6400_S64x80x80 : S64x6400.ShapeCasts S64x80x80
  slices_S64x6480_o0_6400_S64x80 : S64x6480.Slices ![0, 6400] S64x80
  slices_S64x162_o0_0_S64x160 : S64x162.Slices ![0, 0] S64x160
  shapeCasts_S64x160_S64x80x2 : S64x160.ShapeCasts S64x80x2
  slices_S64x162_o0_160_S64x2 : S64x162.Slices ![0, 160] S64x2
  shapeCasts_S64x2_S64x1x2 : S64x2.ShapeCasts S64x1x2
  inb_S64x256x2_S64x256x2_0_0_0 : ∀ a, (![0, 0, 0] : Fin 3 → Nat) a + S64x256x2.size a ≤ S64x256x2.size a
  h_S64x256x2 : 0 < S64x256x2.numel
  slices_S64x256x2_o0_0_0_S64x256x1 : S64x256x2.Slices ![0, 0, 0] S64x256x1
  slices_S64x256x2_o0_0_1_S64x256x1 : S64x256x2.Slices ![0, 0, 1] S64x256x1
  slices_S64x2x80_o0_0_0_S64x1x80 : S64x2x80.Slices ![0, 0, 0] S64x1x80
  concatenates_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x1x80_S64x256x80_d1 : Shape.Concatenates (S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: S64x1x80 :: []) S64x256x80 1
  slices_S64x2x80_o0_1_0_S64x1x80 : S64x2x80.Slices ![0, 1, 0] S64x1x80
  broadcasts_S64x256x1_S64x256x80 : S64x256x1.Broadcasts S64x256x80
  slices_S64x80x2_o0_0_0_S64x80x1 : S64x80x2.Slices ![0, 0, 0] S64x80x1
  shapeCasts_S64x80x1_S64x80 : S64x80x1.ShapeCasts S64x80
  slices_S64x80x2_o0_0_1_S64x80x1 : S64x80x2.Slices ![0, 0, 1] S64x80x1
  reduces_S64x256x80_S64x256 : S64x256x80.Reduces [2] S64x256
  shapeCasts_S64x256_S64x256x1 : S64x256.ShapeCasts S64x256x1
  concatenates_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x1x2_S64x256x2_d1 : Shape.Concatenates (S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: S64x1x2 :: []) S64x256x2 1
  concatenates_S64x256x1_S64x256x1_S64x256x2_d2 : Shape.Concatenates [S64x256x1, S64x256x1] S64x256x2 2
  bcast_S_S4096x1x16 : S_.BroadcastsInDim S4096x1x16 (![] : Fin 0 → Fin S4096x1x16.rank)
  dot_S64x16_S16x50_S64x50_1_0_0_1_n_n_wf : DotDims.WF S64x16 S16x50 S64x50 [1] [0] [0] [1] [] []
  dot_S64x50_S50x200_S64x200_1_0_0_1_n_n_wf : DotDims.WF S64x50 S50x200 S64x200 [1] [0] [0] [1] [] []
  dot_S64x50_S50x240_S64x240_1_0_0_1_n_n_wf : DotDims.WF S64x50 S50x240 S64x240 [1] [0] [0] [1] [] []
  dot_S64x50_S50x50_S64x50_1_0_0_1_n_n_wf : DotDims.WF S64x50 S50x50 S64x50 [1] [0] [0] [1] [] []
  dot_S64x50_S50x6480_S64x6480_1_0_0_1_n_n_wf : DotDims.WF S64x50 S50x6480 S64x6480 [1] [0] [0] [1] [] []
  dot_S64x50_S50x162_S64x162_1_0_0_1_n_n_wf : DotDims.WF S64x50 S50x162 S64x162 [1] [0] [0] [1] [] []
  dot_S64x256x80_S64x80x80_S64x256x80_2_1_1_2_0_0_wf : DotDims.WF S64x256x80 S64x80x80 S64x256x80 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x2.size a ≤ S4096x256x2.size a
  hwx0_0 : ∀ i : grid0.Coords, EltTy.bits .f32 = 32 ∨ (Rect.block (s := S4096x256x2) S64x256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1x16.size a ≤ S4096x1x16.size a
  hwx0_1 : ∀ i : grid0.Coords, EltTy.bits .f32 = 32 ∨ (Rect.block (s := S4096x1x16) S64x1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1x16.size a ≤ S4096x1x16.size a
  hwx0_2 : ∀ i : grid0.Coords, EltTy.bits .f32 = 32 ∨ (Rect.block (s := S4096x1x16) S64x1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x50.size a ≤ S16x50.size a
  hwx0_3 : ∀ i : grid0.Coords, EltTy.bits .bf16 = 32 ∨ (Rect.block (s := S16x50) S16x50.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50.size a ≤ S50.size a
  hwx0_4 : ∀ i : grid0.Coords, EltTy.bits .f32 = 32 ∨ (Rect.block (s := S50) S50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S50x200.size a ≤ S50x200.size a
  hwx0_5 : ∀ i : grid0.Coords, EltTy.bits .bf16 = 32 ∨ (Rect.block (s := S50x200) S50x200.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200.size a ≤ S200.size a
  hwx0_6 : ∀ i : grid0.Coords, EltTy.bits .f32 = 32 ∨ (Rect.block (s := S200) S200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x240.size a ≤ S50x240.size a
  hwx0_7 : ∀ i : grid0.Coords, EltTy.bits .bf16 = 32 ∨ (Rect.block (s := S50x240) S50x240.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S240.size a ≤ S240.size a
  hwx0_8 : ∀ i : grid0.Coords, EltTy.bits .f32 = 32 ∨ (Rect.block (s := S240) S240.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S50x50.size a ≤ S50x50.size a
  hwx0_9 : ∀ i : grid0.Coords, EltTy.bits .bf16 = 32 ∨ (Rect.block (s := S50x50) S50x50.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S50.size a ≤ S50.size a
  hwx0_10 : ∀ i : grid0.Coords, EltTy.bits .f32 = 32 ∨ (Rect.block (s := S50) S50.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S50x6480.size a ≤ S50x6480.size a
  hwx0_11 : ∀ i : grid0.Coords, EltTy.bits .bf16 = 32 ∨ (Rect.block (s := S50x6480) S50x6480.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6480.size a ≤ S6480.size a
  hwx0_12 : ∀ i : grid0.Coords, EltTy.bits .f32 = 32 ∨ (Rect.block (s := S6480) S6480.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S50x50.size a ≤ S50x50.size a
  hwx0_13 : ∀ i : grid0.Coords, EltTy.bits .bf16 = 32 ∨ (Rect.block (s := S50x50) S50x50.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S50.size a ≤ S50.size a
  hwx0_14 : ∀ i : grid0.Coords, EltTy.bits .f32 = 32 ∨ (Rect.block (s := S50) S50.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S50x6480.size a ≤ S50x6480.size a
  hwx0_15 : ∀ i : grid0.Coords, EltTy.bits .bf16 = 32 ∨ (Rect.block (s := S50x6480) S50x6480.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S6480.size a ≤ S6480.size a
  hwx0_16 : ∀ i : grid0.Coords, EltTy.bits .f32 = 32 ∨ (Rect.block (s := S6480) S6480.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S50x162.size a ≤ S50x162.size a
  hwx0_17 : ∀ i : grid0.Coords, EltTy.bits .bf16 = 32 ∨ (Rect.block (s := S50x162) S50x162.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S162.size a ≤ S162.size a
  hwx0_18 : ∀ i : grid0.Coords, EltTy.bits .f32 = 32 ∨ (Rect.block (s := S162) S162.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S64x256x2.size a ≤ S4096x256x2.size a
  hwx0_19 : ∀ i : grid0.Coords, EltTy.bits .f32 = 32 ∨ (Rect.block (s := S4096x256x2) S64x256x2.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S64x1x16.size a ≤ S4096x1x16.size a
  hwx0_20 : ∀ i : grid0.Coords, EltTy.bits .f32 = 32 ∨ (Rect.block (s := S4096x1x16) S64x1x16.size (cc0_transform_20 i) (hinb0_20 i)).WholeWords (EltTy.packing .f32)

variable [Facts₀]

def dot_S64x16_S16x50_S64x50_1_0_0_1_n_n : DotDims S64x16 S16x50 S64x50 where
  lhsContracting := [1]
  rhsContracting := [0]
  lhsNonContracting := [0]
  rhsNonContracting := [1]
  lhsBatch := []
  rhsBatch := []
  wf := dot_S64x16_S16x50_S64x50_1_0_0_1_n_n_wf
def dot_S64x50_S50x200_S64x200_1_0_0_1_n_n : DotDims S64x50 S50x200 S64x200 where
  lhsContracting := [1]
  rhsContracting := [0]
  lhsNonContracting := [0]
  rhsNonContracting := [1]
  lhsBatch := []
  rhsBatch := []
  wf := dot_S64x50_S50x200_S64x200_1_0_0_1_n_n_wf
def dot_S64x50_S50x240_S64x240_1_0_0_1_n_n : DotDims S64x50 S50x240 S64x240 where
  lhsContracting := [1]
  rhsContracting := [0]
  lhsNonContracting := [0]
  rhsNonContracting := [1]
  lhsBatch := []
  rhsBatch := []
  wf := dot_S64x50_S50x240_S64x240_1_0_0_1_n_n_wf
def dot_S64x50_S50x50_S64x50_1_0_0_1_n_n : DotDims S64x50 S50x50 S64x50 where
  lhsContracting := [1]
  rhsContracting := [0]
  lhsNonContracting := [0]
  rhsNonContracting := [1]
  lhsBatch := []
  rhsBatch := []
  wf := dot_S64x50_S50x50_S64x50_1_0_0_1_n_n_wf
def dot_S64x50_S50x6480_S64x6480_1_0_0_1_n_n : DotDims S64x50 S50x6480 S64x6480 where
  lhsContracting := [1]
  rhsContracting := [0]
  lhsNonContracting := [0]
  rhsNonContracting := [1]
  lhsBatch := []
  rhsBatch := []
  wf := dot_S64x50_S50x6480_S64x6480_1_0_0_1_n_n_wf
def dot_S64x50_S50x162_S64x162_1_0_0_1_n_n : DotDims S64x50 S50x162 S64x162 where
  lhsContracting := [1]
  rhsContracting := [0]
  lhsNonContracting := [0]
  rhsNonContracting := [1]
  lhsBatch := []
  rhsBatch := []
  wf := dot_S64x50_S50x162_S64x162_1_0_0_1_n_n_wf
def dot_S64x256x80_S64x80x80_S64x256x80_2_1_1_2_0_0 : DotDims S64x256x80 S64x80x80 S64x256x80 where
  lhsContracting := [2]
  rhsContracting := [1]
  lhsNonContracting := [1]
  rhsNonContracting := [2]
  lhsBatch := [0]
  rhsBatch := [0]
  wf := dot_S64x256x80_S64x80x80_S64x256x80_2_1_1_2_0_0_wf

abbrev win0_0 : Pipeline.Window sig grid0 :=
  Pipeline.Window.ofSpec (Memref.whole main_arg1) S64x256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x1x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x1x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S16x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S50x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S50x240.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S240.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S50x50.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S50.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4) S50x6480.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S6480.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S50x50.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S50.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v6) S50x6480.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg17) S6480.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7) S50x162.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg19) S162.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v8_0) S64x256x2.size cc0_transform_19 reads0_19 true false 2 stage0_19 sem0_19
    hrank0 hreads0_19 hinb0_19 nbuf0_19 (Memref.isWhole_whole _) hwx0_19 hstage0_19

abbrev win0_20 : Pipeline.Window sig grid0 :=
  Pipeline.Window.ofSpec (Memref.whole main_v8_1) S64x1x16.size cc0_transform_20 reads0_20 true false 2 stage0_20 sem0_20
    hrank0 hreads0_20 hinb0_20 nbuf0_20 (Memref.isWhole_whole _) hwx0_20 hstage0_20

abbrev win0 : Fin 21 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | ⟨_ + 21, h⟩ => absurd h (Nat.not_lt.2 (Nat.le_add_left _ _))
abbrev spec0 : Fin 21 → Pipeline.WinSpec sig grid0.rank := fun w => (win0 w).toWinSpec

class Facts : Prop extends Facts₀ where

variable [Facts]
-- ==== ReferenceIdeal.lean ====
abbrev S_ : Shape := ⟨0, ![]⟩
abbrev S4096x256x2 : Shape := ⟨3, ![4096, 256, 2]⟩
abbrev S4096x1x16 : Shape := ⟨3, ![4096, 1, 16]⟩
abbrev S16x50 : Shape := ⟨2, ![16, 50]⟩
abbrev S50 : Shape := ⟨1, ![50]⟩
abbrev S50x200 : Shape := ⟨2, ![50, 200]⟩
abbrev S200 : Shape := ⟨1, ![200]⟩
abbrev S50x240 : Shape := ⟨2, ![50, 240]⟩
abbrev S240 : Shape := ⟨1, ![240]⟩
abbrev S50x50 : Shape := ⟨2, ![50, 50]⟩
abbrev S50x6480 : Shape := ⟨2, ![50, 6480]⟩
abbrev S6480 : Shape := ⟨1, ![6480]⟩
abbrev S50x162 : Shape := ⟨2, ![50, 162]⟩
abbrev S162 : Shape := ⟨1, ![162]⟩
abbrev S4096x1x8 : Shape := ⟨3, ![4096, 1, 8]⟩
abbrev S4096x1x8x2 : Shape := ⟨4, ![4096, 1, 8, 2]⟩
abbrev S4096x1x8x1 : Shape := ⟨4, ![4096, 1, 8, 1]⟩
abbrev S4096x16 : Shape := ⟨2, ![4096, 16]⟩
abbrev S4096x50 : Shape := ⟨2, ![4096, 50]⟩
abbrev S1x50 : Shape := ⟨2, ![1, 50]⟩
abbrev S4096x200 : Shape := ⟨2, ![4096, 200]⟩
abbrev S1x200 : Shape := ⟨2, ![1, 200]⟩
abbrev S4096x240 : Shape := ⟨2, ![4096, 240]⟩
abbrev S1x240 : Shape := ⟨2, ![1, 240]⟩
abbrev S4096x6480 : Shape := ⟨2, ![4096, 6480]⟩
abbrev S1x6480 : Shape := ⟨2, ![1, 6480]⟩
abbrev S4096x162 : Shape := ⟨2, ![4096, 162]⟩
abbrev S1x162 : Shape := ⟨2, ![1, 162]⟩
abbrev S4096x13362 : Shape := ⟨2, ![4096, 13362]⟩
abbrev S4096x160 : Shape := ⟨2, ![4096, 160]⟩
abbrev S4096x2x80 : Shape := ⟨3, ![4096, 2, 80]⟩
abbrev S4096x80 : Shape := ⟨2, ![4096, 80]⟩
abbrev S4096x1x80 : Shape := ⟨3, ![4096, 1, 80]⟩
abbrev S4096x6400 : Shape := ⟨2, ![4096, 6400]⟩
abbrev S4096x80x80 : Shape := ⟨3, ![4096, 80, 80]⟩
abbrev S4096x80x2 : Shape := ⟨3, ![4096, 80, 2]⟩
abbrev S4096x2 : Shape := ⟨2, ![4096, 2]⟩
abbrev S4096x1x2 : Shape := ⟨3, ![4096, 1, 2]⟩
abbrev S4096x256x80 : Shape := ⟨3, ![4096, 256, 80]⟩

abbrev nBuf : Space → Nat
  | .hbm => 159
  | .vmem => 0
  | .smem => 0
  | _ => 0

abbrev hbmTy0_0 (i : Nat) : BufTy := match i % 128 with
  | 0 => ⟨S_, .f32⟩
  | 1 => ⟨S4096x256x2, .f32⟩
  | 2 => ⟨S4096x1x16, .f32⟩
  | 3 => ⟨S4096x1x16, .f32⟩
  | 4 => ⟨S16x50, .f32⟩
  | 5 => ⟨S50, .f32⟩
  | 6 => ⟨S50x200, .f32⟩
  | 7 => ⟨S200, .f32⟩
  | 8 => ⟨S50x240, .f32⟩
  | 9 => ⟨S240, .f32⟩
  | 10 => ⟨S50x50, .f32⟩
  | 11 => ⟨S50, .f32⟩
  | 12 => ⟨S50x6480, .f32⟩
  | 13 => ⟨S6480, .f32⟩
  | 14 => ⟨S50x50, .f32⟩
  | 15 => ⟨S50, .f32⟩
  | 16 => ⟨S50x6480, .f32⟩
  | 17 => ⟨S6480, .f32⟩
  | 18 => ⟨S50x162, .f32⟩
  | 19 => ⟨S162, .f32⟩
  | 20 => ⟨S4096x1x8, .f32⟩
  | 21 => ⟨S4096x1x8, .f32⟩
  | 22 => ⟨S4096x1x8x2, .f32⟩
  | 23 => ⟨S4096x1x8x1, .f32⟩
  | 24 => ⟨S4096x1x8, .f32⟩
  | 25 => ⟨S4096x1x8x1, .f32⟩
  | 26 => ⟨S4096x1x8, .f32⟩
  | 27 => ⟨S4096x1x8, .f32⟩
  | 28 => ⟨S4096x1x8, .f32⟩
  | 29 => ⟨S4096x1x8, .f32⟩
  | 30 => ⟨S4096x1x8, .f32⟩
  | 31 => ⟨S4096x1x8, .f32⟩
  | 32 => ⟨S4096x1x8, .f32⟩
  | 33 => ⟨S4096x1x8x1, .f32⟩
  | 34 => ⟨S4096x1x8x1, .f32⟩
  | 35 => ⟨S4096x1x8x2, .f32⟩
  | 36 => ⟨S4096x1x16, .f32⟩
  | 37 => ⟨S4096x16, .f32⟩
  | 38 => ⟨S4096x50, .f32⟩
  | 39 => ⟨S1x50, .f32⟩
  | 40 => ⟨S4096x50, .f32⟩
  | 41 => ⟨S4096x50, .f32⟩
  | 42 => ⟨S4096x50, .f32⟩
  | 43 => ⟨S4096x50, .f32⟩
  | 44 => ⟨S_, .f32⟩
  | 45 => ⟨S4096x50, .f32⟩
  | 46 => ⟨S4096x50, .f32⟩
  | 47 => ⟨S_, .f32⟩
  | 48 => ⟨S4096x50, .f32⟩
  | 49 => ⟨S4096x50, .f32⟩
  | 50 => ⟨S4096x50, .f32⟩
  | 51 => ⟨S4096x200, .f32⟩
  | 52 => ⟨S1x200, .f32⟩
  | 53 => ⟨S4096x200, .f32⟩
  | 54 => ⟨S4096x200, .f32⟩
  | 55 => ⟨S4096x50, .f32⟩
  | 56 => ⟨S4096x240, .f32⟩
  | 57 => ⟨S1x240, .f32⟩
  | 58 => ⟨S4096x240, .f32⟩
  | 59 => ⟨S4096x240, .f32⟩
  | 60 => ⟨S4096x240, .f32⟩
  | 61 => ⟨S4096x240, .f32⟩
  | 62 => ⟨S_, .f32⟩
  | 63 => ⟨S4096x240, .f32⟩
  | 64 => ⟨S4096x240, .f32⟩
  | 65 => ⟨S_, .f32⟩
  | 66 => ⟨S4096x240, .f32⟩
  | 67 => ⟨S4096x240, .f32⟩
  | 68 => ⟨S4096x240, .f32⟩
  | 69 => ⟨S4096x50, .f32⟩
  | 70 => ⟨S4096x50, .f32⟩
  | 71 => ⟨S1x50, .f32⟩
  | 72 => ⟨S4096x50, .f32⟩
  | 73 => ⟨S4096x50, .f32⟩
  | 74 => ⟨S4096x50, .f32⟩
  | 75 => ⟨S4096x50, .f32⟩
  | 76 => ⟨S_, .f32⟩
  | 77 => ⟨S4096x50, .f32⟩
  | 78 => ⟨S4096x50, .f32⟩
  | 79 => ⟨S_, .f32⟩
  | 80 => ⟨S4096x50, .f32⟩
  | 81 => ⟨S4096x50, .f32⟩
  | 82 => ⟨S4096x50, .f32⟩
  | 83 => ⟨S4096x6480, .f32⟩
  | 84 => ⟨S1x6480, .f32⟩
  | 85 => ⟨S4096x6480, .f32⟩
  | 86 => ⟨S4096x6480, .f32⟩
  | 87 => ⟨S4096x50, .f32⟩
  | 88 => ⟨S4096x50, .f32⟩
  | 89 => ⟨S1x50, .f32⟩
  | 90 => ⟨S4096x50, .f32⟩
  | 91 => ⟨S4096x50, .f32⟩
  | 92 => ⟨S4096x50, .f32⟩
  | 93 => ⟨S4096x50, .f32⟩
  | 94 => ⟨S_, .f32⟩
  | 95 => ⟨S4096x50, .f32⟩
  | 96 => ⟨S4096x50, .f32⟩
  | 97 => ⟨S_, .f32⟩
  | 98 => ⟨S4096x50, .f32⟩
  | 99 => ⟨S4096x50, .f32⟩
  | 100 => ⟨S4096x50, .f32⟩
  | 101 => ⟨S4096x6480, .f32⟩
  | 102 => ⟨S1x6480, .f32⟩
  | 103 => ⟨S4096x6480, .f32⟩
  | 104 => ⟨S4096x6480, .f32⟩
  | 105 => ⟨S4096x50, .f32⟩
  | 106 => ⟨S4096x162, .f32⟩
  | 107 => ⟨S1x162, .f32⟩
  | 108 => ⟨S4096x162, .f32⟩
  | 109 => ⟨S4096x162, .f32⟩
  | 110 => ⟨S4096x162, .f32⟩
  | 111 => ⟨S4096x162, .f32⟩
  | 112 => ⟨S_, .f32⟩
  | 113 => ⟨S4096x162, .f32⟩
  | 114 => ⟨S4096x162, .f32⟩
  | 115 => ⟨S_, .f32⟩
  | 116 => ⟨S4096x162, .f32⟩
  | 117 => ⟨S4096x162, .f32⟩
  | 118 => ⟨S4096x162, .f32⟩
  | 119 => ⟨S4096x13362, .f32⟩
  | 120 => ⟨S4096x160, .f32⟩
  | 121 => ⟨S4096x2x80, .f32⟩
  | 122 => ⟨S4096x80, .f32⟩
  | 123 => ⟨S4096x1x80, .f32⟩
  | 124 => ⟨S4096x6400, .f32⟩
  | 125 => ⟨S4096x80x80, .f32⟩
  | 126 => ⟨S4096x80, .f32⟩
  | 127 => ⟨S4096x1x80, .f32⟩
  | _ => ⟨S_, .f32⟩

abbrev hbmTy0_1 (i : Nat) : BufTy := match i % 128 with
  | 0 => ⟨S4096x6400, .f32⟩
  | 1 => ⟨S4096x80x80, .f32⟩
  | 2 => ⟨S4096x80, .f32⟩
  | 3 => ⟨S4096x1x80, .f32⟩
  | 4 => ⟨S4096x160, .f32⟩
  | 5 => ⟨S4096x80x2, .f32⟩
  | 6 => ⟨S4096x2, .f32⟩
  | 7 => ⟨S4096x1x2, .f32⟩
  | 8 => ⟨S4096x256x80, .f32⟩
  | 9 => ⟨S4096x256x80, .f32⟩
  | 10 => ⟨S4096x256x80, .f32⟩
  | 11 => ⟨S_, .f32⟩
  | 12 => ⟨S4096x256x80, .f32⟩
  | 13 => ⟨S4096x256x80, .f32⟩
  | 14 => ⟨S4096x256x80, .f32⟩
  | 15 => ⟨S4096x256x80, .f32⟩
  | 16 => ⟨S4096x256x80, .f32⟩
  | 17 => ⟨S_, .f32⟩
  | 18 => ⟨S4096x256x80, .f32⟩
  | 19 => ⟨S4096x256x80, .f32⟩
  | 20 => ⟨S4096x256x80, .f32⟩
  | 21 => ⟨S4096x256x80, .f32⟩
  | 22 => ⟨S4096x256x80, .f32⟩
  | 23 => ⟨S_, .f32⟩
  | 24 => ⟨S4096x256x80, .f32⟩
  | 25 => ⟨S4096x256x80, .f32⟩
  | 26 => ⟨S4096x256x2, .f32⟩
  | 27 => ⟨S4096x256x2, .f32⟩
  | 28 => ⟨S4096x256x2, .f32⟩
  | 29 => ⟨S_, .f32⟩
  | 30 => ⟨S4096x1x16, .f32⟩
  | _ => ⟨S_, .f32⟩

abbrev hbmTy (i : Nat) : BufTy := match i / 128 with
  | 0 => hbmTy0_0 i
  | 1 => hbmTy0_1 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_call3_v0 : Ref sig .tc := ⟨.hbm, 92, rfl⟩
abbrev main_call3_v1 : Ref sig .tc := ⟨.hbm, 93, rfl⟩
abbrev main_call3_cst : Ref sig .tc := ⟨.hbm, 94, rfl⟩
abbrev main_call3_v2 : Ref sig .tc := ⟨.hbm, 95, rfl⟩
abbrev main_call3_v3 : Ref sig .tc := ⟨.hbm, 96, rfl⟩
abbrev main_call3_cst_0 : Ref sig .tc := ⟨.hbm, 97, rfl⟩
abbrev main_call3_v4 : Ref sig .tc := ⟨.hbm, 98, rfl⟩
abbrev main_call3_v5 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_call4_v0 : Ref sig .tc := ⟨.hbm, 110, rfl⟩
abbrev main_call4_v1 : Ref sig .tc := ⟨.hbm, 111, rfl⟩
abbrev main_call4_cst : Ref sig .tc := ⟨.hbm, 112, rfl⟩
abbrev main_call4_v2 : Ref sig .tc := ⟨.hbm, 113, rfl⟩
abbrev main_call4_v3 : Ref sig .tc := ⟨.hbm, 114, rfl⟩
abbrev main_call4_cst_0 : Ref sig .tc := ⟨.hbm, 115, rfl⟩
abbrev main_call4_v4 : Ref sig .tc := ⟨.hbm, 116, rfl⟩
abbrev main_call4_v5 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_call5_cst : Ref sig .tc := ⟨.hbm, 139, rfl⟩
abbrev main_call5_v0 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_call6_cst : Ref sig .tc := ⟨.hbm, 145, rfl⟩
abbrev main_call6_v0 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_call7_cst : Ref sig .tc := ⟨.hbm, 151, rfl⟩
abbrev main_call7_v0 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst : Ref sig .tc := ⟨.hbm, 157, rfl⟩
abbrev main_v91 : Ref sig .tc := ⟨.hbm, 158, rfl⟩

abbrev nD : Nat := 1
abbrev τ : Topo := Topo.v7x

variable {F : FTy → Type} [FloatOps F]

class Facts₀ : Prop where
  slices_S4096x1x16_S4096x1x8_0_0_0 : S4096x1x16.Slices ![0, 0, 0] S4096x1x8
  slices_S4096x1x16_S4096x1x8_0_0_8 : S4096x1x16.Slices ![0, 0, 8] S4096x1x8
  shapeCasts_S4096x1x16_S4096x1x8x2 : S4096x1x16.ShapeCasts S4096x1x8x2
  slices_S4096x1x8x2_S4096x1x8x1_0_0_0_0 : S4096x1x8x2.Slices ![0, 0, 0, 0] S4096x1x8x1
  shapeCasts_S4096x1x8x1_S4096x1x8 : S4096x1x8x1.ShapeCasts S4096x1x8
  slices_S4096x1x8x2_S4096x1x8x1_0_0_0_1 : S4096x1x8x2.Slices ![0, 0, 0, 1] S4096x1x8x1
  bcast_S4096x1x8_S4096x1x8x1_0_1_2 : S4096x1x8.BroadcastsInDim S4096x1x8x1 (![0, 1, 2] : Fin 3 → Fin S4096x1x8x1.rank)
  concatenates_S4096x1x8x1_S4096x1x8x1_S4096x1x8x2_d3 : Shape.Concatenates [S4096x1x8x1, S4096x1x8x1] S4096x1x8x2 3
  shapeCasts_S4096x1x8x2_S4096x1x16 : S4096x1x8x2.ShapeCasts S4096x1x16
  shapeCasts_S4096x1x16_S4096x16 : S4096x1x16.ShapeCasts S4096x16
  bcast_S50_S1x50_1 : S50.BroadcastsInDim S1x50 (![1] : Fin 1 → Fin S1x50.rank)
  bcast_S1x50_S4096x50_0_1 : S1x50.BroadcastsInDim S4096x50 (![0, 1] : Fin 2 → Fin S4096x50.rank)
  bcast_S_S4096x50 : S_.BroadcastsInDim S4096x50 (![] : Fin 0 → Fin S4096x50.rank)
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  slices_S4096x200_S4096x50_0_0 : S4096x200.Slices ![0, 0] S4096x50
  bcast_S240_S1x240_1 : S240.BroadcastsInDim S1x240 (![1] : Fin 1 → Fin S1x240.rank)
  bcast_S1x240_S4096x240_0_1 : S1x240.BroadcastsInDim S4096x240 (![0, 1] : Fin 2 → Fin S4096x240.rank)
  bcast_S_S4096x240 : S_.BroadcastsInDim S4096x240 (![] : Fin 0 → Fin S4096x240.rank)
  slices_S4096x200_S4096x50_0_50 : S4096x200.Slices ![0, 50] S4096x50
  bcast_S6480_S1x6480_1 : S6480.BroadcastsInDim S1x6480 (![1] : Fin 1 → Fin S1x6480.rank)
  bcast_S1x6480_S4096x6480_0_1 : S1x6480.BroadcastsInDim S4096x6480 (![0, 1] : Fin 2 → Fin S4096x6480.rank)
  slices_S4096x200_S4096x50_0_100 : S4096x200.Slices ![0, 100] S4096x50
  slices_S4096x200_S4096x50_0_150 : S4096x200.Slices ![0, 150] S4096x50
  bcast_S162_S1x162_1 : S162.BroadcastsInDim S1x162 (![1] : Fin 1 → Fin S1x162.rank)
  bcast_S1x162_S4096x162_0_1 : S1x162.BroadcastsInDim S4096x162 (![0, 1] : Fin 2 → Fin S4096x162.rank)
  bcast_S_S4096x162 : S_.BroadcastsInDim S4096x162 (![] : Fin 0 → Fin S4096x162.rank)
  concatenates_S4096x240_S4096x6480_S4096x6480_S4096x162_S4096x13362_d1 : Shape.Concatenates [S4096x240, S4096x6480, S4096x6480, S4096x162] S4096x13362 1
  slices_S4096x13362_S4096x160_0_0 : S4096x13362.Slices ![0, 0] S4096x160
  shapeCasts_S4096x160_S4096x2x80 : S4096x160.ShapeCasts S4096x2x80
  slices_S4096x13362_S4096x80_0_160 : S4096x13362.Slices ![0, 160] S4096x80
  shapeCasts_S4096x80_S4096x1x80 : S4096x80.ShapeCasts S4096x1x80
  slices_S4096x13362_S4096x6400_0_240 : S4096x13362.Slices ![0, 240] S4096x6400
  shapeCasts_S4096x6400_S4096x80x80 : S4096x6400.ShapeCasts S4096x80x80
  slices_S4096x13362_S4096x80_0_6640 : S4096x13362.Slices ![0, 6640] S4096x80
  slices_S4096x13362_S4096x6400_0_6720 : S4096x13362.Slices ![0, 6720] S4096x6400
  slices_S4096x13362_S4096x80_0_13120 : S4096x13362.Slices ![0, 13120] S4096x80
  slices_S4096x13362_S4096x160_0_13200 : S4096x13362.Slices ![0, 13200] S4096x160
  shapeCasts_S4096x160_S4096x80x2 : S4096x160.ShapeCasts S4096x80x2
  slices_S4096x13362_S4096x2_0_13360 : S4096x13362.Slices ![0, 13360] S4096x2
  shapeCasts_S4096x2_S4096x1x2 : S4096x2.ShapeCasts S4096x1x2
  bcast_S4096x1x80_S4096x256x80_0_1_2 : S4096x1x80.BroadcastsInDim S4096x256x80 (![0, 1, 2] : Fin 3 → Fin S4096x256x80.rank)
  bcast_S_S4096x256x80 : S_.BroadcastsInDim S4096x256x80 (![] : Fin 0 → Fin S4096x256x80.rank)
  bcast_S4096x1x2_S4096x256x2_0_1_2 : S4096x1x2.BroadcastsInDim S4096x256x2 (![0, 1, 2] : Fin 3 → Fin S4096x256x2.rank)
  bcast_S_S4096x1x16 : S_.BroadcastsInDim S4096x1x16 (![] : Fin 0 → Fin S4096x1x16.rank)
  dot_S4096x16_S16x50_S4096x50_1_0_0_1_n_n_wf : DotDims.WF S4096x16 S16x50 S4096x50 [1] [0] [0] [1] [] []
  dot_S4096x50_S50x200_S4096x200_1_0_0_1_n_n_wf : DotDims.WF S4096x50 S50x200 S4096x200 [1] [0] [0] [1] [] []
  dot_S4096x50_S50x240_S4096x240_1_0_0_1_n_n_wf : DotDims.WF S4096x50 S50x240 S4096x240 [1] [0] [0] [1] [] []
  dot_S4096x50_S50x50_S4096x50_1_0_0_1_n_n_wf : DotDims.WF S4096x50 S50x50 S4096x50 [1] [0] [0] [1] [] []
  dot_S4096x50_S50x6480_S4096x6480_1_0_0_1_n_n_wf : DotDims.WF S4096x50 S50x6480 S4096x6480 [1] [0] [0] [1] [] []
  dot_S4096x50_S50x162_S4096x162_1_0_0_1_n_n_wf : DotDims.WF S4096x50 S50x162 S4096x162 [1] [0] [0] [1] [] []
  dot_S4096x256x2_S4096x2x80_S4096x256x80_2_1_1_2_0_0_wf : DotDims.WF S4096x256x2 S4096x2x80 S4096x256x80 [2] [1] [1] [2] [0] [0]
  dot_S4096x256x80_S4096x80x80_S4096x256x80_2_1_1_2_0_0_wf : DotDims.WF S4096x256x80 S4096x80x80 S4096x256x80 [2] [1] [1] [2] [0] [0]
  dot_S4096x256x80_S4096x80x2_S4096x256x2_2_1_1_2_0_0_wf : DotDims.WF S4096x256x80 S4096x80x2 S4096x256x2 [2] [1] [1] [2] [0] [0]

variable [Facts₀]

def dot_S4096x16_S16x50_S4096x50_1_0_0_1_n_n : DotDims S4096x16 S16x50 S4096x50 where
  lhsContracting := [1]
  rhsContracting := [0]
  lhsNonContracting := [0]
  rhsNonContracting := [1]
  lhsBatch := []
  rhsBatch := []
  wf := dot_S4096x16_S16x50_S4096x50_1_0_0_1_n_n_wf
def dot_S4096x50_S50x200_S4096x200_1_0_0_1_n_n : DotDims S4096x50 S50x200 S4096x200 where
  lhsContracting := [1]
  rhsContracting := [0]
  lhsNonContracting := [0]
  rhsNonContracting := [1]
  lhsBatch := []
  rhsBatch := []
  wf := dot_S4096x50_S50x200_S4096x200_1_0_0_1_n_n_wf
def dot_S4096x50_S50x240_S4096x240_1_0_0_1_n_n : DotDims S4096x50 S50x240 S4096x240 where
  lhsContracting := [1]
  rhsContracting := [0]
  lhsNonContracting := [0]
  rhsNonContracting := [1]
  lhsBatch := []
  rhsBatch := []
  wf := dot_S4096x50_S50x240_S4096x240_1_0_0_1_n_n_wf
def dot_S4096x50_S50x50_S4096x50_1_0_0_1_n_n : DotDims S4096x50 S50x50 S4096x50 where
  lhsContracting := [1]
  rhsContracting := [0]
  lhsNonContracting := [0]
  rhsNonContracting := [1]
  lhsBatch := []
  rhsBatch := []
  wf := dot_S4096x50_S50x50_S4096x50_1_0_0_1_n_n_wf
def dot_S4096x50_S50x6480_S4096x6480_1_0_0_1_n_n : DotDims S4096x50 S50x6480 S4096x6480 where
  lhsContracting := [1]
  rhsContracting := [0]
  lhsNonContracting := [0]
  rhsNonContracting := [1]
  lhsBatch := []
  rhsBatch := []
  wf := dot_S4096x50_S50x6480_S4096x6480_1_0_0_1_n_n_wf
def dot_S4096x50_S50x162_S4096x162_1_0_0_1_n_n : DotDims S4096x50 S50x162 S4096x162 where
  lhsContracting := [1]
  rhsContracting := [0]
  lhsNonContracting := [0]
  rhsNonContracting := [1]
  lhsBatch := []
  rhsBatch := []
  wf := dot_S4096x50_S50x162_S4096x162_1_0_0_1_n_n_wf
def dot_S4096x256x2_S4096x2x80_S4096x256x80_2_1_1_2_0_0 : DotDims S4096x256x2 S4096x2x80 S4096x256x80 where
  lhsContracting := [2]
  rhsContracting := [1]
  lhsNonContracting := [1]
  rhsNonContracting := [2]
  lhsBatch := [0]
  rhsBatch := [0]
  wf := dot_S4096x256x2_S4096x2x80_S4096x256x80_2_1_1_2_0_0_wf
def dot_S4096x256x80_S4096x80x80_S4096x256x80_2_1_1_2_0_0 : DotDims S4096x256x80 S4096x80x80 S4096x256x80 where
  lhsContracting := [2]
  rhsContracting := [1]
  lhsNonContracting := [1]
  rhsNonContracting := [2]
  lhsBatch := [0]
  rhsBatch := [0]
  wf := dot_S4096x256x80_S4096x80x80_S4096x256x80_2_1_1_2_0_0_wf
def dot_S4096x256x80_S4096x80x2_S4096x256x2_2_1_1_2_0_0 : DotDims S4096x256x80 S4096x80x2 S4096x256x2 where
  lhsContracting := [2]
  rhsContracting := [1]
  lhsNonContracting := [1]
  rhsNonContracting := [2]
  lhsBatch := [0]
  rhsBatch := [0]
  wf := dot_S4096x256x80_S4096x80x2_S4096x256x2_2_1_1_2_0_0_wf

class Facts : Prop extends Facts₀ where

variable [Facts]
-- ==== Proof.Spec.lean ====
/-
  The mathematics both programs compute, per batch row, on the extended reals.

  A row carries a vector `w` of 16 numbers, a vector `a` of 16 numbers and 256 points `y` of 2 numbers.
  A small network with shared weights (the hypernetwork) maps `w` to a code of 200 numbers, and four heads map the
  four quarters of the code to the parameters θ0 (240 numbers), θ1, θ2 (6480 each) and θ5 (162) of a second,
  per-row network: θ0 = a 2×80 matrix then 80 biases, θ1 and θ2 = an 80×80 matrix then 80 biases, θ5 = an 80×2
  matrix then 2 biases, all row-major. Every point of the row then goes through that four-layer network
  (rectified between layers). Independently, `w` read as 8 complex numbers (even entries real parts, odd entries
  imaginary parts) is multiplied by the conjugate of the 8 complex numbers `a` holds as 8 real parts then 8
  imaginary parts.

  `silu x = x · σ(x)` with `σ x = 1 / (1 + e^(-x))` the logistic function (`Ideal.logistic`).
-/
import Idealize.ShloMosaic.PureOps.Ideal
import Idealize.ShloMosaic.Lib.ValueIdx

noncomputable section

namespace Cert.HyperMlp

open Idealize.ShloMosaic

/-- `x · σ(x)`. -/
def silu (x : EReal) : EReal := x * Ideal.logistic x

/-- `max x 0`. -/
def relu (x : EReal) : EReal := max x 0

/-- An affine map: output `j` is `(∑ k, x k · W k j) + b j`. -/
def aff {K N : Nat} (W : Fin K → Fin N → EReal) (b : Fin N → EReal) (x : Fin K → EReal) (j : Fin N) : EReal :=
  (∑ k : Fin K, x k * W k j) + b j

/-- Fifty consecutive entries of the code, from `off`. -/
def seg (c : Fin 200 → EReal) (off : Nat) (h : off + 50 ≤ 200) : Fin 50 → EReal :=
  fun k => c ⟨off + k.val, by have := k.isLt; omega⟩

/-- An array of shape [K, N] read as a matrix. -/
def mat {K N : Nat} (x : (⟨2, ![K, N]⟩ : Shape).Idx → EReal) : Fin K → Fin N → EReal := fun k j => x (ValueIdx.ix2 k j)

/-- An array of shape [N] read as a vector. -/
def vec {N : Nat} (x : (⟨1, ![N]⟩ : Shape).Idx → EReal) : Fin N → EReal := fun j => x (ValueIdx.ix1 j)

/-- The code of a row: `silu (w · W1 + b1) · W2 + b2`. -/
def enc (W1 : Fin 16 → Fin 50 → EReal) (b1 : Fin 50 → EReal) (W2 : Fin 50 → Fin 200 → EReal) (b2 : Fin 200 → EReal)
    (w : Fin 16 → EReal) : Fin 200 → EReal :=
  aff W2 b2 (fun k => silu (aff W1 b1 w k))

/-- A one-layer head on the quarter of the code that starts at `off`: `silu (c[off:off+50] · W + b)`. -/
def head1 {N : Nat} (W : Fin 50 → Fin N → EReal) (b : Fin N → EReal) (c : Fin 200 → EReal) (off : Nat) (h : off + 50 ≤ 200) :
    Fin N → EReal :=
  fun j => silu (aff W b (seg c off h) j)

/-- A two-layer head on the quarter of the code that starts at `off`: `silu (c[off:off+50] · W1 + b1) · W2 + b2`. -/
def head2 {N : Nat} (W1 : Fin 50 → Fin 50 → EReal) (b1 : Fin 50 → EReal) (W2 : Fin 50 → Fin N → EReal) (b2 : Fin N → EReal)
    (c : Fin 200 → EReal) (off : Nat) (h : off + 50 ≤ 200) : Fin N → EReal :=
  aff W2 b2 (fun k => silu (aff W1 b1 (seg c off h) k))

/-- First layer of the per-row network: θ0's first 160 entries are a 2×80 matrix, its last 80 the biases. -/
def layerIn (θ0 : Fin 240 → EReal) (y : Fin 2 → EReal) : Fin 80 → EReal :=
  fun h => relu ((∑ d : Fin 2, y d * θ0 ⟨d.val * 80 + h.val, by have := d.isLt; have := h.isLt; omega⟩)
    + θ0 ⟨160 + h.val, by have := h.isLt; omega⟩)

/-- A hidden layer: θ's first 6400 entries are an 80×80 matrix, its last 80 the biases. -/
def layerHid (θ : Fin 6480 → EReal) (x : Fin 80 → EReal) : Fin 80 → EReal :=
  fun k => relu ((∑ h : Fin 80, x h * θ ⟨h.val * 80 + k.val, by have := h.isLt; have := k.isLt; omega⟩)
    + θ ⟨6400 + k.val, by have := k.isLt; omega⟩)

/-- Last layer: θ5's first 160 entries are an 80×2 matrix, its last 2 the biases; not rectified. -/
def layerOut (θ5 : Fin 162 → EReal) (x : Fin 80 → EReal) : Fin 2 → EReal :=
  fun o => (∑ h : Fin 80, x h * θ5 ⟨h.val * 2 + o.val, by have := h.isLt; have := o.isLt; omega⟩)
    + θ5 ⟨160 + o.val, by have := o.isLt; omega⟩

/-- The per-row network on one point. -/
def mlp (θ0 : Fin 240 → EReal) (θ1 θ2 : Fin 6480 → EReal) (θ5 : Fin 162 → EReal) (y : Fin 2 → EReal) : Fin 2 → EReal :=
  layerOut θ5 (layerHid θ2 (layerHid θ1 (layerIn θ0 y)))

/-- The hypernetwork's shared weights. -/
structure Weights where
  encW1 : Fin 16 → Fin 50 → EReal
  encb1 : Fin 50 → EReal
  encW2 : Fin 50 → Fin 200 → EReal
  encb2 : Fin 200 → EReal
  e0W : Fin 50 → Fin 240 → EReal
  e0b : Fin 240 → EReal
  e1W1 : Fin 50 → Fin 50 → EReal
  e1b1 : Fin 50 → EReal
  e1W2 : Fin 50 → Fin 6480 → EReal
  e1b2 : Fin 6480 → EReal
  e2W1 : Fin 50 → Fin 50 → EReal
  e2b1 : Fin 50 → EReal
  e2W2 : Fin 50 → Fin 6480 → EReal
  e2b2 : Fin 6480 → EReal
  e5W : Fin 50 → Fin 162 → EReal
  e5b : Fin 162 → EReal

/-- The code of a row under the weights `P`. -/
def code (P : Weights) (w : Fin 16 → EReal) : Fin 200 → EReal := enc P.encW1 P.encb1 P.encW2 P.encb2 w

/-- The first result at one point of one row: the per-row network, its parameters the four heads of the row's code. -/
def dy (P : Weights) (w : Fin 16 → EReal) (y : Fin 2 → EReal) : Fin 2 → EReal :=
  mlp (head1 P.e0W P.e0b (code P w) 0 (by omega)) (head2 P.e1W1 P.e1b1 P.e1W2 P.e1b2 (code P w) 50 (by omega))
    (head2 P.e2W1 P.e2b1 P.e2W2 P.e2b2 (code P w) 100 (by omega)) (head1 P.e5W P.e5b (code P w) 150 (by omega)) y

/-- Real part of `(w₂ᵢ + i·w₂ᵢ₊₁) · conj (aᵢ + i·a₈₊ᵢ)`. -/
def rotRe (w a : Fin 16 → EReal) (i : Fin 8) : EReal :=
  w ⟨2 * i.val, by have := i.isLt; omega⟩ * a ⟨i.val, by have := i.isLt; omega⟩
    + w ⟨2 * i.val + 1, by have := i.isLt; omega⟩ * a ⟨8 + i.val, by have := i.isLt; omega⟩

/-- Imaginary part of the same product. -/
def rotIm (w a : Fin 16 → EReal) (i : Fin 8) : EReal :=
  w ⟨2 * i.val + 1, by have := i.isLt; omega⟩ * a ⟨i.val, by have := i.isLt; omega⟩
    - w ⟨2 * i.val, by have := i.isLt; omega⟩ * a ⟨8 + i.val, by have := i.isLt; omega⟩

/-- The second result of one row: real and imaginary parts interleaved. -/
def dw (w a : Fin 16 → EReal) (j : Fin 16) : EReal :=
  if j.val % 2 = 0 then rotRe w a ⟨j.val / 2, by have := j.isLt; omega⟩ else rotIm w a ⟨j.val / 2, by have := j.isLt; omega⟩

end Cert.HyperMlp

end
-- ==== Proof.SpecArr.lean ====
/-
  The two results as whole arrays: row `b`, point `n`, coordinate `o` of the first is `dy` of the weights, row `b` of
  `w` and point `n` of row `b` of `y`; row `b`, entry `j` of the second is `dw` of row `b` of `w` and `a`.
-/
import proofs.«419183_j88055419503310_4_alg».proof.Proof.Spec

noncomputable section

namespace Cert.HyperMlp

open Idealize.ShloMosaic Idealize.ShloMosaic.ValueIdx

/-- The shape of `y` and of the first result. -/
abbrev SY : Shape := ⟨3, ![4096, 256, 2]⟩
/-- The shape of `w`, `a` and of the second result. -/
abbrev SW : Shape := ⟨3, ![4096, 1, 16]⟩

/-- The hypernetwork's weights from the sixteen weight arrays. -/
def wts (a4 : (⟨2, ![16, 50]⟩ : Shape).Idx → EReal) (a5 : (⟨1, ![50]⟩ : Shape).Idx → EReal)
    (a6 : (⟨2, ![50, 200]⟩ : Shape).Idx → EReal) (a7 : (⟨1, ![200]⟩ : Shape).Idx → EReal)
    (a8 : (⟨2, ![50, 240]⟩ : Shape).Idx → EReal) (a9 : (⟨1, ![240]⟩ : Shape).Idx → EReal)
    (a10 : (⟨2, ![50, 50]⟩ : Shape).Idx → EReal) (a11 : (⟨1, ![50]⟩ : Shape).Idx → EReal)
    (a12 : (⟨2, ![50, 6480]⟩ : Shape).Idx → EReal) (a13 : (⟨1, ![6480]⟩ : Shape).Idx → EReal)
    (a14 : (⟨2, ![50, 50]⟩ : Shape).Idx → EReal) (a15 : (⟨1, ![50]⟩ : Shape).Idx → EReal)
    (a16 : (⟨2, ![50, 6480]⟩ : Shape).Idx → EReal) (a17 : (⟨1, ![6480]⟩ : Shape).Idx → EReal)
    (a18 : (⟨2, ![50, 162]⟩ : Shape).Idx → EReal) (a19 : (⟨1, ![162]⟩ : Shape).Idx → EReal) : Weights where
  encW1 := mat a4
  encb1 := vec a5
  encW2 := mat a6
  encb2 := vec a7
  e0W := mat a8
  e0b := vec a9
  e1W1 := mat a10
  e1b1 := vec a11
  e1W2 := mat a12
  e1b2 := vec a13
  e2W1 := mat a14
  e2b1 := vec a15
  e2W2 := mat a16
  e2b2 := vec a17
  e5W := mat a18
  e5b := vec a19

/-- Entry `(b, n, o)` of the first result. -/
def dyAt (P : Weights) (w : SW.Idx → EReal) (y : SY.Idx → EReal) (b : Fin 4096) (n : Fin 256) (o : Fin 2) : EReal :=
  dy P (fun k => w (ix3 b (0 : Fin 1) k)) (fun d => y (ix3 b n d)) o

/-- The first result. -/
def dyArr (P : Weights) (w : SW.Idx → EReal) (y : SY.Idx → EReal) : SY.Idx → EReal :=
  fun i => dyAt P w y (i 0) (i 1) (i 2)

/-- Entry `(b, 0, j)` of the second result. -/
def dwAt (w a : SW.Idx → EReal) (b : Fin 4096) (j : Fin 16) : EReal :=
  dw (fun k => w (ix3 b (0 : Fin 1) k)) (fun k => a (ix3 b (0 : Fin 1) k)) j

/-- The second result. -/
def dwArr (w a : SW.Idx → EReal) : SW.Idx → EReal := fun i => dwAt w a (i 0) (i 2)

theorem dyArr_ix3 (P : Weights) (w : SW.Idx → EReal) (y : SY.Idx → EReal) (b : Fin 4096) (n : Fin 256) (o : Fin 2) :
    dyArr P w y (ix3 b n o) = dyAt P w y b n o := rfl

theorem dwArr_ix3 (w a : SW.Idx → EReal) (b : Fin 4096) (j : Fin 16) :
    dwArr w a (ix3 b (0 : Fin 1) j) = dwAt w a b j := rfl

end Cert.HyperMlp

end
-- ==== Proof.KBlocks.lean ====
/-
  From blocks to arrays. The grid has 64 points; point t stages rows 64 t … 64 t + 63 of `y`, `w` and `a`, the whole of
  every weight array, and writes back rows 64 t … 64 t + 63 of the two results. So the block a point writes back is the
  block of the whole-array functions `dyArr` / `dwArr` of the arguments, the 64 blocks tile each result, and after the
  run each result array is that function of the arguments. The weight arrays the kernel stages are the arguments
  converted to a narrower float format on the host, which changes nothing on the extended reals.
-/
import proofs.«419183_j88055419503310_4_alg».proof.Proof.Gen.KernelIdeal.Frame
import proofs.«419183_j88055419503310_4_alg».proof.Proof.SpecArr
import Idealize.ShloMosaic.Lib.Pipeline.Value
import Idealize.ShloMosaic.Lib.StableHlo.Run
import Idealize.ShloMosaic.Lib.Tactic

set_option maxRecDepth 16384

noncomputable section

namespace Cert.KernelIdeal.Bridge

open Cert.KernelIdeal Cert.KernelIdeal.Gen Cert.HyperMlp Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The printed index maps, decided over the 64 grid points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx19 : ∀ t : Fin cfg0.N, win0_19.index t (0 : Fin 3) = t.val ∧ win0_19.index t (1 : Fin 3) = 0 ∧ win0_19.index t (2 : Fin 3) = 0 :=
  (by decide +kernel : ∀ t : Fin grid0.N, _)
theorem idx20 : ∀ t : Fin cfg0.N, win0_20.index t (0 : Fin 3) = t.val ∧ win0_20.index t (1 : Fin 3) = 0 ∧ win0_20.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx6 : ∀ t : Fin cfg0.N, win0_6.index t (0 : Fin 1) = 0 :=
  (by decide +kernel : ∀ t : Fin grid0.N, _)
theorem idx8 : ∀ t : Fin cfg0.N, win0_8.index t (0 : Fin 1) = 0 :=
  (by decide +kernel : ∀ t : Fin grid0.N, _)
theorem idx10 : ∀ t : Fin cfg0.N, win0_10.index t (0 : Fin 1) = 0 :=
  (by decide +kernel : ∀ t : Fin grid0.N, _)
theorem idx12 : ∀ t : Fin cfg0.N, win0_12.index t (0 : Fin 1) = 0 :=
  (by decide +kernel : ∀ t : Fin grid0.N, _)
theorem idx14 : ∀ t : Fin cfg0.N, win0_14.index t (0 : Fin 1) = 0 :=
  (by decide +kernel : ∀ t : Fin grid0.N, _)
theorem idx16 : ∀ t : Fin cfg0.N, win0_16.index t (0 : Fin 1) = 0 :=
  (by decide +kernel : ∀ t : Fin grid0.N, _)
theorem idx18 : ∀ t : Fin cfg0.N, win0_18.index t (0 : Fin 1) = 0 :=
  (by decide +kernel : ∀ t : Fin grid0.N, _)

theorem t_lt (t : Fin cfg0.N) : t.val < 64 := Nat.lt_of_lt_of_eq t.isLt N_0

/-! ## The arguments as launched -/

/-- `y` as launched. -/
abbrev argY (c : Dev nD) : FVec Ideal S4096x256x2 .f32 := m ((c : Thread nD τ).loc main_arg1)
/-- `w` as launched. -/
abbrev argW (c : Dev nD) : FVec Ideal S4096x1x16 .f32 := m ((c : Thread nD τ).loc main_arg2)
/-- `a` as launched. -/
abbrev argA (c : Dev nD) : FVec Ideal S4096x1x16 .f32 := m ((c : Thread nD τ).loc main_arg3)

/-- The hypernetwork's weights as launched. -/
def argP (c : Dev nD) : Weights :=
  wts (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18))
    (m ((c : Thread nD τ).loc main_arg19))

/-! ## The row-blocked input windows: point t stages rows 64 t … 64 t + 63 -/

/-- Point t's block of `y`. -/
theorem blkY_apply (c : Dev nD) (t : Fin cfg0.N) (p : Fin 64) (n : Fin 256) (d : Fin 2) (b : Fin 4096)
    (hb : b.val = 64 * t.val + p.val) :
    (iblk m c 0 t : FVec Ideal S64x256x2 .f32) (ix3 p n d) = argY m c (ix3 b n d) := by
  obtain ⟨e0, e1, e2⟩ := idx0 t
  unfold iblk
  rw [View.read_apply]
  refine (congrFun (V_main_arg1 m c) _).trans ?_
  show m ((c : Thread nD τ).loc main_arg1) _ = m ((c : Thread nD τ).loc main_arg1) _
  congr 1
  funext a
  apply Fin.ext
  match a with
  | ⟨0, _⟩ => show win0_0.index t 0 * 64 + 1 * p.val = b.val; omega
  | ⟨1, _⟩ => show win0_0.index t 1 * 256 + 1 * n.val = n.val; omega
  | ⟨2, _⟩ => show win0_0.index t 2 * 2 + 1 * d.val = d.val; omega

/-- Point t's block of `w`. -/
theorem blkW_apply (c : Dev nD) (t : Fin cfg0.N) (p : Fin 64) (k : Fin 16) (b : Fin 4096)
    (hb : b.val = 64 * t.val + p.val) :
    (iblk m c 1 t : FVec Ideal S64x1x16 .f32) (ix3 p (0 : Fin 1) k) = argW m c (ix3 b (0 : Fin 1) k) := by
  obtain ⟨e0, e1, e2⟩ := idx1 t
  unfold iblk
  rw [View.read_apply]
  refine (congrFun (V_main_arg2 m c) _).trans ?_
  show m ((c : Thread nD τ).loc main_arg2) _ = m ((c : Thread nD τ).loc main_arg2) _
  congr 1
  funext a
  apply Fin.ext
  match a with
  | ⟨0, _⟩ => show win0_1.index t 0 * 64 + 1 * p.val = b.val; omega
  | ⟨1, _⟩ => show win0_1.index t 1 * 1 + 1 * 0 = 0; omega
  | ⟨2, _⟩ => show win0_1.index t 2 * 16 + 1 * k.val = k.val; omega

/-- Point t's block of `a`. -/
theorem blkA_apply (c : Dev nD) (t : Fin cfg0.N) (p : Fin 64) (k : Fin 16) (b : Fin 4096)
    (hb : b.val = 64 * t.val + p.val) :
    (iblk m c 2 t : FVec Ideal S64x1x16 .f32) (ix3 p (0 : Fin 1) k) = argA m c (ix3 b (0 : Fin 1) k) := by
  obtain ⟨e0, e1, e2⟩ := idx2 t
  unfold iblk
  rw [View.read_apply]
  refine (congrFun (V_main_arg3 m c) _).trans ?_
  show m ((c : Thread nD τ).loc main_arg3) _ = m ((c : Thread nD τ).loc main_arg3) _
  congr 1
  funext a
  apply Fin.ext
  match a with
  | ⟨0, _⟩ => show win0_2.index t 0 * 64 + 1 * p.val = b.val; omega
  | ⟨1, _⟩ => show win0_2.index t 1 * 1 + 1 * 0 = 0; omega
  | ⟨2, _⟩ => show win0_2.index t 2 * 16 + 1 * k.val = k.val; omega

/-! ## The weight windows: every point stages the whole array

  A weight matrix is staged from its host conversion to a narrower float format, which is the identity on the
  extended reals; a bias vector is staged from the argument itself. -/

/-- The array window 3 stages is argument `main_arg4`. -/
theorem V_v0 (c : Dev nD) : (V m c main_v0 : FVec Ideal S16x50 .bf16) = (m ((c : Thread nD τ).loc main_arg4) : FVec Ideal S16x50 .f32) := by
  show StableHlo.after hostOps0 (fun b => m (c, b)) (Proc.devRef .tc main_v0) = _
  after_results
  rfl

/-- Window 3's block at every point is the whole of `main_arg4`. -/
theorem blk3_eq (c : Dev nD) (t : Fin cfg0.N) :
    (iblk m c 3 t : FVec Ideal S16x50 .bf16) = (m ((c : Thread nD τ).loc main_arg4) : FVec Ideal S16x50 .f32) := by
  obtain ⟨e0, e1⟩ := idx3 t
  refine Eq.trans ?_ (V_v0 m c)
  funext y
  unfold iblk
  rw [View.read_apply]
  show V m c main_v0 _ = V m c main_v0 y
  congr 1
  funext a
  apply Fin.ext
  match a with
  | ⟨0, _⟩ => show win0_3.index t 0 * 16 + 1 * (y 0).val = (y 0).val; omega
  | ⟨1, _⟩ => show win0_3.index t 1 * 50 + 1 * (y 1).val = (y 1).val; omega

/-- The array window 5 stages is argument `main_arg6`. -/
theorem V_v1 (c : Dev nD) : (V m c main_v1 : FVec Ideal S50x200 .bf16) = (m ((c : Thread nD τ).loc main_arg6) : FVec Ideal S50x200 .f32) := by
  show StableHlo.after hostOps0 (fun b => m (c, b)) (Proc.devRef .tc main_v1) = _
  after_results
  rfl

/-- Window 5's block at every point is the whole of `main_arg6`. -/
theorem blk5_eq (c : Dev nD) (t : Fin cfg0.N) :
    (iblk m c 5 t : FVec Ideal S50x200 .bf16) = (m ((c : Thread nD τ).loc main_arg6) : FVec Ideal S50x200 .f32) := by
  obtain ⟨e0, e1⟩ := idx5 t
  refine Eq.trans ?_ (V_v1 m c)
  funext y
  unfold iblk
  rw [View.read_apply]
  show V m c main_v1 _ = V m c main_v1 y
  congr 1
  funext a
  apply Fin.ext
  match a with
  | ⟨0, _⟩ => show win0_5.index t 0 * 50 + 1 * (y 0).val = (y 0).val; omega
  | ⟨1, _⟩ => show win0_5.index t 1 * 200 + 1 * (y 1).val = (y 1).val; omega

/-- The array window 7 stages is argument `main_arg8`. -/
theorem V_v2 (c : Dev nD) : (V m c main_v2 : FVec Ideal S50x240 .bf16) = (m ((c : Thread nD τ).loc main_arg8) : FVec Ideal S50x240 .f32) := by
  show StableHlo.after hostOps0 (fun b => m (c, b)) (Proc.devRef .tc main_v2) = _
  after_results
  rfl

/-- Window 7's block at every point is the whole of `main_arg8`. -/
theorem blk7_eq (c : Dev nD) (t : Fin cfg0.N) :
    (iblk m c 7 t : FVec Ideal S50x240 .bf16) = (m ((c : Thread nD τ).loc main_arg8) : FVec Ideal S50x240 .f32) := by
  obtain ⟨e0, e1⟩ := idx7 t
  refine Eq.trans ?_ (V_v2 m c)
  funext y
  unfold iblk
  rw [View.read_apply]
  show V m c main_v2 _ = V m c main_v2 y
  congr 1
  funext a
  apply Fin.ext
  match a with
  | ⟨0, _⟩ => show win0_7.index t 0 * 50 + 1 * (y 0).val = (y 0).val; omega
  | ⟨1, _⟩ => show win0_7.index t 1 * 240 + 1 * (y 1).val = (y 1).val; omega

/-- The array window 9 stages is argument `main_arg10`. -/
theorem V_v3 (c : Dev nD) : (V m c main_v3 : FVec Ideal S50x50 .bf16) = (m ((c : Thread nD τ).loc main_arg10) : FVec Ideal S50x50 .f32) := by
  show StableHlo.after hostOps0 (fun b => m (c, b)) (Proc.devRef .tc main_v3) = _
  after_results
  rfl

/-- Window 9's block at every point is the whole of `main_arg10`. -/
theorem blk9_eq (c : Dev nD) (t : Fin cfg0.N) :
    (iblk m c 9 t : FVec Ideal S50x50 .bf16) = (m ((c : Thread nD τ).loc main_arg10) : FVec Ideal S50x50 .f32) := by
  obtain ⟨e0, e1⟩ := idx9 t
  refine Eq.trans ?_ (V_v3 m c)
  funext y
  unfold iblk
  rw [View.read_apply]
  show V m c main_v3 _ = V m c main_v3 y
  congr 1
  funext a
  apply Fin.ext
  match a with
  | ⟨0, _⟩ => show win0_9.index t 0 * 50 + 1 * (y 0).val = (y 0).val; omega
  | ⟨1, _⟩ => show win0_9.index t 1 * 50 + 1 * (y 1).val = (y 1).val; omega

/-- The array window 11 stages is argument `main_arg12`. -/
theorem V_v4 (c : Dev nD) : (V m c main_v4 : FVec Ideal S50x6480 .bf16) = (m ((c : Thread nD τ).loc main_arg12) : FVec Ideal S50x6480 .f32) := by
  show StableHlo.after hostOps0 (fun b => m (c, b)) (Proc.devRef .tc main_v4) = _
  after_results
  rfl

/-- Window 11's block at every point is the whole of `main_arg12`. -/
theorem blk11_eq (c : Dev nD) (t : Fin cfg0.N) :
    (iblk m c 11 t : FVec Ideal S50x6480 .bf16) = (m ((c : Thread nD τ).loc main_arg12) : FVec Ideal S50x6480 .f32) := by
  obtain ⟨e0, e1⟩ := idx11 t
  refine Eq.trans ?_ (V_v4 m c)
  funext y
  unfold iblk
  rw [View.read_apply]
  show V m c main_v4 _ = V m c main_v4 y
  congr 1
  funext a
  apply Fin.ext
  match a with
  | ⟨0, _⟩ => show win0_11.index t 0 * 50 + 1 * (y 0).val = (y 0).val; omega
  | ⟨1, _⟩ => show win0_11.index t 1 * 6480 + 1 * (y 1).val = (y 1).val; omega

/-- The array window 13 stages is argument `main_arg14`. -/
theorem V_v5 (c : Dev nD) : (V m c main_v5 : FVec Ideal S50x50 .bf16) = (m ((c : Thread nD τ).loc main_arg14) : FVec Ideal S50x50 .f32) := by
  show StableHlo.after hostOps0 (fun b => m (c, b)) (Proc.devRef .tc main_v5) = _
  after_results
  rfl

/-- Window 13's block at every point is the whole of `main_arg14`. -/
theorem blk13_eq (c : Dev nD) (t : Fin cfg0.N) :
    (iblk m c 13 t : FVec Ideal S50x50 .bf16) = (m ((c : Thread nD τ).loc main_arg14) : FVec Ideal S50x50 .f32) := by
  obtain ⟨e0, e1⟩ := idx13 t
  refine Eq.trans ?_ (V_v5 m c)
  funext y
  unfold iblk
  rw [View.read_apply]
  show V m c main_v5 _ = V m c main_v5 y
  congr 1
  funext a
  apply Fin.ext
  match a with
  | ⟨0, _⟩ => show win0_13.index t 0 * 50 + 1 * (y 0).val = (y 0).val; omega
  | ⟨1, _⟩ => show win0_13.index t 1 * 50 + 1 * (y 1).val = (y 1).val; omega

/-- The array window 15 stages is argument `main_arg16`. -/
theorem V_v6 (c : Dev nD) : (V m c main_v6 : FVec Ideal S50x6480 .bf16) = (m ((c : Thread nD τ).loc main_arg16) : FVec Ideal S50x6480 .f32) := by
  show StableHlo.after hostOps0 (fun b => m (c, b)) (Proc.devRef .tc main_v6) = _
  after_results
  rfl

/-- Window 15's block at every point is the whole of `main_arg16`. -/
theorem blk15_eq (c : Dev nD) (t : Fin cfg0.N) :
    (iblk m c 15 t : FVec Ideal S50x6480 .bf16) = (m ((c : Thread nD τ).loc main_arg16) : FVec Ideal S50x6480 .f32) := by
  obtain ⟨e0, e1⟩ := idx15 t
  refine Eq.trans ?_ (V_v6 m c)
  funext y
  unfold iblk
  rw [View.read_apply]
  show V m c main_v6 _ = V m c main_v6 y
  congr 1
  funext a
  apply Fin.ext
  match a with
  | ⟨0, _⟩ => show win0_15.index t 0 * 50 + 1 * (y 0).val = (y 0).val; omega
  | ⟨1, _⟩ => show win0_15.index t 1 * 6480 + 1 * (y 1).val = (y 1).val; omega

/-- The array window 17 stages is argument `main_arg18`. -/
theorem V_v7 (c : Dev nD) : (V m c main_v7 : FVec Ideal S50x162 .bf16) = (m ((c : Thread nD τ).loc main_arg18) : FVec Ideal S50x162 .f32) := by
  show StableHlo.after hostOps0 (fun b => m (c, b)) (Proc.devRef .tc main_v7) = _
  after_results
  rfl

/-- Window 17's block at every point is the whole of `main_arg18`. -/
theorem blk17_eq (c : Dev nD) (t : Fin cfg0.N) :
    (iblk m c 17 t : FVec Ideal S50x162 .bf16) = (m ((c : Thread nD τ).loc main_arg18) : FVec Ideal S50x162 .f32) := by
  obtain ⟨e0, e1⟩ := idx17 t
  refine Eq.trans ?_ (V_v7 m c)
  funext y
  unfold iblk
  rw [View.read_apply]
  show V m c main_v7 _ = V m c main_v7 y
  congr 1
  funext a
  apply Fin.ext
  match a with
  | ⟨0, _⟩ => show win0_17.index t 0 * 50 + 1 * (y 0).val = (y 0).val; omega
  | ⟨1, _⟩ => show win0_17.index t 1 * 162 + 1 * (y 1).val = (y 1).val; omega

/-- Window 4's block at every point is the whole of `main_arg5`. -/
theorem blk4_eq (c : Dev nD) (t : Fin cfg0.N) :
    (iblk m c 4 t : FVec Ideal S50 .f32) = (m ((c : Thread nD τ).loc main_arg5) : FVec Ideal S50 .f32) := by
  have e0 := idx4 t
  refine Eq.trans ?_ (V_main_arg5 m c)
  funext y
  unfold iblk
  rw [View.read_apply]
  show V m c main_arg5 _ = V m c main_arg5 y
  congr 1
  funext a
  apply Fin.ext
  match a with
  | ⟨0, _⟩ => show win0_4.index t 0 * 50 + 1 * (y 0).val = (y 0).val; omega

/-- Window 6's block at every point is the whole of `main_arg7`. -/
theorem blk6_eq (c : Dev nD) (t : Fin cfg0.N) :
    (iblk m c 6 t : FVec Ideal S200 .f32) = (m ((c : Thread nD τ).loc main_arg7) : FVec Ideal S200 .f32) := by
  have e0 := idx6 t
  refine Eq.trans ?_ (V_main_arg7 m c)
  funext y
  unfold iblk
  rw [View.read_apply]
  show V m c main_arg7 _ = V m c main_arg7 y
  congr 1
  funext a
  apply Fin.ext
  match a with
  | ⟨0, _⟩ => show win0_6.index t 0 * 200 + 1 * (y 0).val = (y 0).val; omega

/-- Window 8's block at every point is the whole of `main_arg9`. -/
theorem blk8_eq (c : Dev nD) (t : Fin cfg0.N) :
    (iblk m c 8 t : FVec Ideal S240 .f32) = (m ((c : Thread nD τ).loc main_arg9) : FVec Ideal S240 .f32) := by
  have e0 := idx8 t
  refine Eq.trans ?_ (V_main_arg9 m c)
  funext y
  unfold iblk
  rw [View.read_apply]
  show V m c main_arg9 _ = V m c main_arg9 y
  congr 1
  funext a
  apply Fin.ext
  match a with
  | ⟨0, _⟩ => show win0_8.index t 0 * 240 + 1 * (y 0).val = (y 0).val; omega

/-- Window 10's block at every point is the whole of `main_arg11`. -/
theorem blk10_eq (c : Dev nD) (t : Fin cfg0.N) :
    (iblk m c 10 t : FVec Ideal S50 .f32) = (m ((c : Thread nD τ).loc main_arg11) : FVec Ideal S50 .f32) := by
  have e0 := idx10 t
  refine Eq.trans ?_ (V_main_arg11 m c)
  funext y
  unfold iblk
  rw [View.read_apply]
  show V m c main_arg11 _ = V m c main_arg11 y
  congr 1
  funext a
  apply Fin.ext
  match a with
  | ⟨0, _⟩ => show win0_10.index t 0 * 50 + 1 * (y 0).val = (y 0).val; omega

/-- Window 12's block at every point is the whole of `main_arg13`. -/
theorem blk12_eq (c : Dev nD) (t : Fin cfg0.N) :
    (iblk m c 12 t : FVec Ideal S6480 .f32) = (m ((c : Thread nD τ).loc main_arg13) : FVec Ideal S6480 .f32) := by
  have e0 := idx12 t
  refine Eq.trans ?_ (V_main_arg13 m c)
  funext y
  unfold iblk
  rw [View.read_apply]
  show V m c main_arg13 _ = V m c main_arg13 y
  congr 1
  funext a
  apply Fin.ext
  match a with
  | ⟨0, _⟩ => show win0_12.index t 0 * 6480 + 1 * (y 0).val = (y 0).val; omega

/-- Window 14's block at every point is the whole of `main_arg15`. -/
theorem blk14_eq (c : Dev nD) (t : Fin cfg0.N) :
    (iblk m c 14 t : FVec Ideal S50 .f32) = (m ((c : Thread nD τ).loc main_arg15) : FVec Ideal S50 .f32) := by
  have e0 := idx14 t
  refine Eq.trans ?_ (V_main_arg15 m c)
  funext y
  unfold iblk
  rw [View.read_apply]
  show V m c main_arg15 _ = V m c main_arg15 y
  congr 1
  funext a
  apply Fin.ext
  match a with
  | ⟨0, _⟩ => show win0_14.index t 0 * 50 + 1 * (y 0).val = (y 0).val; omega

/-- Window 16's block at every point is the whole of `main_arg17`. -/
theorem blk16_eq (c : Dev nD) (t : Fin cfg0.N) :
    (iblk m c 16 t : FVec Ideal S6480 .f32) = (m ((c : Thread nD τ).loc main_arg17) : FVec Ideal S6480 .f32) := by
  have e0 := idx16 t
  refine Eq.trans ?_ (V_main_arg17 m c)
  funext y
  unfold iblk
  rw [View.read_apply]
  show V m c main_arg17 _ = V m c main_arg17 y
  congr 1
  funext a
  apply Fin.ext
  match a with
  | ⟨0, _⟩ => show win0_16.index t 0 * 6480 + 1 * (y 0).val = (y 0).val; omega

/-- Window 18's block at every point is the whole of `main_arg19`. -/
theorem blk18_eq (c : Dev nD) (t : Fin cfg0.N) :
    (iblk m c 18 t : FVec Ideal S162 .f32) = (m ((c : Thread nD τ).loc main_arg19) : FVec Ideal S162 .f32) := by
  have e0 := idx18 t
  refine Eq.trans ?_ (V_main_arg19 m c)
  funext y
  unfold iblk
  rw [View.read_apply]
  show V m c main_arg19 _ = V m c main_arg19 y
  congr 1
  funext a
  apply Fin.ext
  match a with
  | ⟨0, _⟩ => show win0_18.index t 0 * 162 + 1 * (y 0).val = (y 0).val; omega

/-! ## The output windows: point t writes back rows 64 t … 64 t + 63; the 64 blocks tile each result -/

/-- Where entry `(p, n, o)` of point t's block of the first result lies in the array. -/
theorem emb19 (t : Fin cfg0.N) (p : Fin 64) (n : Fin 256) (o : Fin 2) (b : Fin 4096) (hb : b.val = 64 * t.val + p.val) :
    ((cfg0.win 19).blk t).view.emb (ix3 p n o) = (ix3 b n o : S4096x256x2.Idx) := by
  obtain ⟨e0, e1, e2⟩ := idx19 t
  funext a
  apply Fin.ext
  match a with
  | ⟨0, _⟩ => show win0_19.index t 0 * 64 + 1 * p.val = b.val; omega
  | ⟨1, _⟩ => show win0_19.index t 1 * 256 + 1 * n.val = n.val; omega
  | ⟨2, _⟩ => show win0_19.index t 2 * 2 + 1 * o.val = o.val; omega

/-- Where entry `(p, 0, j)` of point t's block of the second result lies in the array. -/
theorem emb20 (t : Fin cfg0.N) (p : Fin 64) (j : Fin 16) (b : Fin 4096) (hb : b.val = 64 * t.val + p.val) :
    ((cfg0.win 20).blk t).view.emb (ix3 p (0 : Fin 1) j) = (ix3 b (0 : Fin 1) j : S4096x1x16.Idx) := by
  obtain ⟨e0, e1, e2⟩ := idx20 t
  funext a
  apply Fin.ext
  match a with
  | ⟨0, _⟩ => show win0_20.index t 0 * 64 + 1 * p.val = b.val; omega
  | ⟨1, _⟩ => show win0_20.index t 1 * 1 + 1 * 0 = 0; omega
  | ⟨2, _⟩ => show win0_20.index t 2 * 16 + 1 * j.val = j.val; omega

/-- An index of the first result is in point t's block iff each coordinate is in the block's range. -/
theorem mem_blk19 (t : Fin cfg0.N) (i : S4096x256x2.Idx) :
    i ∈ ((cfg0.win 19).blk t).view.set ↔ ∀ a : Fin 3, win0_19.index t a * S64x256x2.size a ≤ (i a).val ∧ (i a).val < win0_19.index t a * S64x256x2.size a + S64x256x2.size a := by
  show i ∈ ((View.whole main_v8_0).slice (win0_19.rect t)).set ↔ _
  rw [View.set_slice_whole, Rect.mem_set_unit]
  exact Iff.rfl

/-- The same for the second result. -/
theorem mem_blk20 (t : Fin cfg0.N) (i : S4096x1x16.Idx) :
    i ∈ ((cfg0.win 20).blk t).view.set ↔ ∀ a : Fin 3, win0_20.index t a * S64x1x16.size a ≤ (i a).val ∧ (i a).val < win0_20.index t a * S64x1x16.size a + S64x1x16.size a := by
  show i ∈ ((View.whole main_v8_1).slice (win0_20.rect t)).set ↔ _
  rw [View.set_slice_whole, Rect.mem_set_unit]
  exact Iff.rfl

/-- Row `r` of the first result is in the block of point `r / 64`. -/
theorem cover19 (i : S4096x256x2.Idx) :
    ∃ t : Fin cfg0.N, (cfg0.win 19).flush t = true ∧ i ∈ ((cfg0.win 19).blk t).view.set := by
  have h0 : (i 0).val < 4096 := (i 0).isLt
  have h1 : (i 1).val < 256 := (i 1).isLt
  have h2 : (i 2).val < 2 := (i 2).isLt
  have hN : cfg0.N = 64 := N_0
  let t : Fin cfg0.N := ⟨(i 0).val / 64, by omega⟩
  obtain ⟨e0, e1, e2⟩ := idx19 t
  have et : t.val = (i 0).val / 64 := rfl
  refine ⟨t, flush0_19 t, ?_⟩
  rw [mem_blk19]
  intro a
  match a with
  | ⟨0, _⟩ => show win0_19.index t 0 * 64 ≤ (i 0).val ∧ (i 0).val < win0_19.index t 0 * 64 + 64; omega
  | ⟨1, _⟩ => show win0_19.index t 1 * 256 ≤ (i 1).val ∧ (i 1).val < win0_19.index t 1 * 256 + 256; omega
  | ⟨2, _⟩ => show win0_19.index t 2 * 2 ≤ (i 2).val ∧ (i 2).val < win0_19.index t 2 * 2 + 2; omega

/-- Row `r` of the second result is in the block of point `r / 64`. -/
theorem cover20 (i : S4096x1x16.Idx) :
    ∃ t : Fin cfg0.N, (cfg0.win 20).flush t = true ∧ i ∈ ((cfg0.win 20).blk t).view.set := by
  have h0 : (i 0).val < 4096 := (i 0).isLt
  have h1 : (i 1).val < 1 := (i 1).isLt
  have h2 : (i 2).val < 16 := (i 2).isLt
  have hN : cfg0.N = 64 := N_0
  let t : Fin cfg0.N := ⟨(i 0).val / 64, by omega⟩
  obtain ⟨e0, e1, e2⟩ := idx20 t
  have et : t.val = (i 0).val / 64 := rfl
  refine ⟨t, flush0_20 t, ?_⟩
  rw [mem_blk20]
  intro a
  match a with
  | ⟨0, _⟩ => show win0_20.index t 0 * 64 ≤ (i 0).val ∧ (i 0).val < win0_20.index t 0 * 64 + 64; omega
  | ⟨1, _⟩ => show win0_20.index t 1 * 1 ≤ (i 1).val ∧ (i 1).val < win0_20.index t 1 * 1 + 1; omega
  | ⟨2, _⟩ => show win0_20.index t 2 * 16 ≤ (i 2).val ∧ (i 2).val < win0_20.index t 2 * 16 + 16; omega

end Cert.KernelIdeal.Bridge

end
-- ==== Proof.KEnc.lean ====
/-
  The kernel's encoder at one row of a block: the code it computes for block row `p` is the specification's
  `enc` of the row's `w`.
-/
import proofs.«419183_j88055419503310_4_alg».proof.Proof.Gen.KernelIdeal.Skeleton
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.HyperMlp Idealize.ShloMosaic Idealize.ShloMosaic.ValueIdx

/-! ## A plain matrix product read at an entry -/

/-- The dimension numbers of a plain product `[M, K] · [K, N]`: the left operand contracts its columns, the right its rows. -/
def plainDims {M K N : Nat} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The left operand's row is the result's row. -/
theorem plainDims_lhs_0 {M K N : Nat} (wf : DotDims.WF ⟨2, ![M, K]⟩ ⟨2, ![K, N]⟩ ⟨2, ![M, N]⟩ [1] [0] [0] [1] [] [])
    (i : (⟨2, ![M, N]⟩ : Shape).Idx) (q : (plainDims wf).contr.Idx) :
    ((plainDims wf).lhsIdx i q 0).val = (i 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl

/-- The left operand's column is the contracted coordinate. -/
theorem plainDims_lhs_1 {M K N : Nat} (wf : DotDims.WF ⟨2, ![M, K]⟩ ⟨2, ![K, N]⟩ ⟨2, ![M, N]⟩ [1] [0] [0] [1] [] [])
    (i : (⟨2, ![M, N]⟩ : Shape).Idx) (q : (plainDims wf).contr.Idx) :
    ((plainDims wf).lhsIdx i q 1).val = (q ⟨0, Nat.one_pos⟩).val :=
  (plainDims wf).lhsIdx_val_of_single rfl i q

/-- The right operand's row is the contracted coordinate. -/
theorem plainDims_rhs_0 {M K N : Nat} (wf : DotDims.WF ⟨2, ![M, K]⟩ ⟨2, ![K, N]⟩ ⟨2, ![M, N]⟩ [1] [0] [0] [1] [] [])
    (i : (⟨2, ![M, N]⟩ : Shape).Idx) (q : (plainDims wf).contr.Idx) :
    ((plainDims wf).rhsIdx i q 0).val = (q ⟨0, Nat.one_pos⟩).val :=
  (plainDims wf).rhsIdx_val_of_single rfl i q

/-- The right operand's column is the result's column. -/
theorem plainDims_rhs_1 {M K N : Nat} (wf : DotDims.WF ⟨2, ![M, K]⟩ ⟨2, ![K, N]⟩ ⟨2, ![M, N]⟩ [1] [0] [0] [1] [] [])
    (i : (⟨2, ![M, N]⟩ : Shape).Idx) (q : (plainDims wf).contr.Idx) :
    ((plainDims wf).rhsIdx i q 1).val = (i 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- A plain product into the zero accumulator, at entry `(p, j)`: `∑ k, a (p, k) · b (k, j)`. -/
theorem matmul_plain_apply {M K N : Nat} {φ₁ φ₂ : FTy}
    (wf : DotDims.WF ⟨2, ![M, K]⟩ ⟨2, ![K, N]⟩ ⟨2, ![M, N]⟩ [1] [0] [0] [1] [] []) (prec : Option ContractPrecision)
    (a : FVec Ideal ⟨2, ![M, K]⟩ φ₁) (b : FVec Ideal ⟨2, ![K, N]⟩ φ₂) (p : Fin M) (j : Fin N) :
    FloatOps.matmul (plainDims wf) prec a b (constant (F := Ideal) ⟨2, ![M, N]⟩ .f32 0x00000000#32) (ix2 p j)
      = ∑ k : Fin K, a (ix2 p k) * b (ix2 k j) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p j) ((contrEquiv1 (plainDims wf) K rfl rfl).symm k) = ix2 p k :=
    funext fun a => Fin.ext (by
      match a with
      | ⟨0, _⟩ => exact plainDims_lhs_0 wf _ _
      | ⟨1, _⟩ => exact (plainDims_lhs_1 wf _ _).trans hk)
  have er : (plainDims wf).rhsIdx (ix2 p j) ((contrEquiv1 (plainDims wf) K rfl rfl).symm k) = ix2 k j :=
    funext fun a => Fin.ext (by
      match a with
      | ⟨0, _⟩ => exact (plainDims_rhs_0 wf _ _).trans hk
      | ⟨1, _⟩ => exact plainDims_rhs_1 wf _ _)
  rw [el, er]

/-! ## One affine layer, and `x · σ(x)`, read at an entry -/

/-- A bias vector laid out as one row and repeated down `M` rows reads, at `(p, j)`, the vector at `j`. -/
theorem biasRow_apply {M N : Nat} (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (j : Fin N) :
    broadcastTo ⟨2, ![M, N]⟩ (shapeCast ⟨2, ![1, N]⟩ b h1) h2 (ix2 p j) = b (ix1 j) :=
  (broadcastTo_1b_ab_apply _ h2 p j).trans (shapeCast_a_1a_apply b h1 0 j)

/-- The product of a block `x` with a weight matrix `W` into the zero accumulator, plus the bias row of `b`: at
    `(p, j)` it is the affine map `(∑ k, x (p, k) · W (k, j)) + b j` of row `p` of `x`. -/
theorem affine_apply {M K N : Nat} {φ : FTy}
    (wf : DotDims.WF ⟨2, ![M, K]⟩ ⟨2, ![K, N]⟩ ⟨2, ![M, N]⟩ [1] [0] [0] [1] [] [])
    (x : FVec Ideal ⟨2, ![M, K]⟩ φ) (W : FVec Ideal ⟨2, ![K, N]⟩ .bf16) (b : FVec Ideal ⟨1, ![N]⟩ .f32)
    (hW : (⟨2, ![K, N]⟩ : Shape).ShapeCasts ⟨2, ![K, N]⟩) (h1 : (⟨1, ![N]⟩ : Shape).ShapeCasts ⟨2, ![1, N]⟩)
    (h2 : (⟨2, ![1, N]⟩ : Shape).Broadcasts ⟨2, ![M, N]⟩) (p : Fin M) (j : Fin N) :
    addf (FloatOps.matmul (plainDims wf) none x (shapeCast ⟨2, ![K, N]⟩ W hW)
          (constant (F := Ideal) ⟨2, ![M, N]⟩ .f32 0x00000000#32))
        (broadcastTo ⟨2, ![M, N]⟩ (shapeCast ⟨2, ![1, N]⟩ b h1) h2) (ix2 p j)
      = aff (mat W) (vec b) (fun k => x (ix2 p k)) j := by
  rw [shapeCast_self W hW]
  exact congrArg₂ (· + ·) (matmul_plain_apply wf none x W p j) (biasRow_apply b h1 h2 p j)

/-- `x · σ(x)` taken entrywise is `silu` of the entry. -/
theorem silu_apply {s : Shape} (x : FVec Ideal s .f32) (i : s.Idx) : mulf x (logistic x) i = silu (x i) := rfl

/-! ## The encoder's payloads -/

/-- The `w` block with its unit axis dropped reads, at `(p, i)`, the block at `(p, 0, i)`. -/
theorem pay2_apply (v0 : FVec Ideal S64x1x16 .f32) (p : Fin 64) (i : Fin 16) :
    k0_pay2 (F := Ideal) v0 (ix2 p i) = v0 (ix3 p (0 : Fin 1) i) := by
  unfold k0_pay2
  exact shapeCast_apply v0 _ (ix2 p i) (ix3 p (0 : Fin 1) i) (by
    rw [Shape.rowMajor_val_three, Shape.rowMajor_val_two]
    show (p.val * 1 + 0) * 16 + i.val = p.val * 16 + i.val
    omega)

/-- The second product of the encoder at `(p, j)`: the hidden row `silu (w · W1 + b1)` of row `p` against column `j` of `W2`. -/
theorem pay4_apply (v0 : FVec Ideal S64x1x16 .f32) (v25 : FVec Ideal S16x50 .bf16) (v28 : FVec Ideal S50 .f32)
    (v35 : FVec Ideal S50x200 .bf16) (p : Fin 64) (j : Fin 200) :
    k0_pay4 (F := Ideal) v0 v25 v28 v35 (ix2 p j)
      = ∑ k : Fin 50, silu (aff (mat v25) (vec v28) (fun i => v0 (ix3 p (0 : Fin 1) i)) k) * v35 (ix2 k j) := by
  unfold k0_pay4
  refine (matmul_plain_apply _ none _ _ p j).trans ?_
  refine Finset.sum_congr rfl fun k _ => ?_
  refine congrArg₂ (· * ·) ?_ (congrFun (shapeCast_self v35 _) (ix2 k j))
  refine (silu_apply _ (ix2 p k)).trans (congrArg silu ?_)
  refine (affine_apply _ _ v25 v28 _ _ _ p k).trans ?_
  exact congrArg (fun w => aff (mat v25) (vec v28) w k) (funext fun i => pay2_apply v0 p i)

/-- The encoder's second bias, repeated down the rows, reads the bias at the column. -/
theorem pay5_apply (v38 : FVec Ideal S200 .f32) (p : Fin 64) (j : Fin 200) :
    k0_pay5 (F := Ideal) v38 (ix2 p j) = v38 (ix1 j) := by
  unfold k0_pay5
  exact biasRow_apply v38 _ _ p j

/-- Entry `(p, j)` of the kernel's code block (the second matrix product plus its bias): `enc` of row `p` of the
    `w` block, with the block's weight arrays read as matrices and vectors. -/
theorem enc_apply (v0 : FVec Ideal S64x1x16 .f32) (v25 : FVec Ideal S16x50 .bf16) (v28 : FVec Ideal S50 .f32)
    (v35 : FVec Ideal S50x200 .bf16) (v38 : FVec Ideal S200 .f32) (p : Fin 64) (j : Fin 200) :
    k0_pay6 (F := Ideal) (k0_pay4 (F := Ideal) v0 v25 v28 v35) (k0_pay5 (F := Ideal) v38) (ix2 p j)
      = enc (mat v25) (vec v28) (mat v35) (vec v38) (fun k => v0 (ix3 p (0 : Fin 1) k)) j := by
  unfold k0_pay6
  show k0_pay4 (F := Ideal) v0 v25 v28 v35 (ix2 p j) + k0_pay5 (F := Ideal) v38 (ix2 p j) = _
  rw [pay4_apply, pay5_apply]
  rfl

end Cert.KernelIdeal.Bridge

end
-- ==== Proof.KHeadsOne.lean ====
/-
  The kernel's two one-layer heads (θ0, θ5) at one row of a block: each is the specification's head of the row's code, on the quarter
  of the code the kernel slices for it.
-/
import proofs.«419183_j88055419503310_4_alg».proof.Proof.Gen.KernelIdeal.Skeleton
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.HyperMlp Idealize.ShloMosaic Idealize.ShloMosaic.ValueIdx

/-! ## A plain matrix product, one affine layer and `x · σ(x)` read at an entry -/

/-- The dimension numbers of a plain product `[M, K] · [K, N]`: the left operand contracts its columns, the right its rows. -/
private def plainDims {M K N : Nat} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The left operand's row is the result's row. -/
private theorem plainDims_lhs_0 {M K N : Nat} (wf : DotDims.WF ⟨2, ![M, K]⟩ ⟨2, ![K, N]⟩ ⟨2, ![M, N]⟩ [1] [0] [0] [1] [] [])
    (i : (⟨2, ![M, N]⟩ : Shape).Idx) (q : (plainDims wf).contr.Idx) :
    ((plainDims wf).lhsIdx i q 0).val = (i 0).val := by
  unfold DotDims.lhsIdx
  rw [dif_neg (show ¬(0 : Fin (⟨2, ![M, K]⟩ : Shape).rank) ∈ (plainDims wf).lhsBatch from List.not_mem_nil),
    dif_pos (show (0 : Fin (⟨2, ![M, K]⟩ : Shape).rank) ∈ (plainDims wf).lhsNonContracting from List.mem_singleton.mpr rfl)]
  rfl

/-- The left operand's column is the contracted coordinate. -/
private theorem plainDims_lhs_1 {M K N : Nat} (wf : DotDims.WF ⟨2, ![M, K]⟩ ⟨2, ![K, N]⟩ ⟨2, ![M, N]⟩ [1] [0] [0] [1] [] [])
    (i : (⟨2, ![M, N]⟩ : Shape).Idx) (q : (plainDims wf).contr.Idx) :
    ((plainDims wf).lhsIdx i q 1).val = (q ⟨0, Nat.one_pos⟩).val :=
  (plainDims wf).lhsIdx_val_of_single rfl i q

/-- The right operand's row is the contracted coordinate. -/
private theorem plainDims_rhs_0 {M K N : Nat} (wf : DotDims.WF ⟨2, ![M, K]⟩ ⟨2, ![K, N]⟩ ⟨2, ![M, N]⟩ [1] [0] [0] [1] [] [])
    (i : (⟨2, ![M, N]⟩ : Shape).Idx) (q : (plainDims wf).contr.Idx) :
    ((plainDims wf).rhsIdx i q 0).val = (q ⟨0, Nat.one_pos⟩).val :=
  (plainDims wf).rhsIdx_val_of_single rfl i q

/-- The right operand's column is the result's column. -/
private theorem plainDims_rhs_1 {M K N : Nat} (wf : DotDims.WF ⟨2, ![M, K]⟩ ⟨2, ![K, N]⟩ ⟨2, ![M, N]⟩ [1] [0] [0] [1] [] [])
    (i : (⟨2, ![M, N]⟩ : Shape).Idx) (q : (plainDims wf).contr.Idx) :
    ((plainDims wf).rhsIdx i q 1).val = (i 1).val := by
  unfold DotDims.rhsIdx
  rw [dif_neg (show ¬(1 : Fin (⟨2, ![K, N]⟩ : Shape).rank) ∈ (plainDims wf).rhsBatch from List.not_mem_nil),
    dif_pos (show (1 : Fin (⟨2, ![K, N]⟩ : Shape).rank) ∈ (plainDims wf).rhsNonContracting from List.mem_singleton.mpr rfl)]
  rfl

/-- A plain product into the zero accumulator, at entry `(p, j)`: `∑ k, a (p, k) · b (k, j)`. -/
private theorem matmul_plain_apply {M K N : Nat} {φ₁ φ₂ : FTy}
    (wf : DotDims.WF ⟨2, ![M, K]⟩ ⟨2, ![K, N]⟩ ⟨2, ![M, N]⟩ [1] [0] [0] [1] [] []) (prec : Option ContractPrecision)
    (a : FVec Ideal ⟨2, ![M, K]⟩ φ₁) (b : FVec Ideal ⟨2, ![K, N]⟩ φ₂) (p : Fin M) (j : Fin N) :
    FloatOps.matmul (plainDims wf) prec a b (constant (F := Ideal) ⟨2, ![M, N]⟩ .f32 0x00000000#32) (ix2 p j)
      = ∑ k : Fin K, a (ix2 p k) * b (ix2 k j) := by
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p j) ((contrEquiv1 (plainDims wf) K rfl rfl).symm k) = ix2 p k :=
    funext fun a => Fin.ext (by
      match a with
      | ⟨0, _⟩ => exact plainDims_lhs_0 wf _ _
      | ⟨1, _⟩ => exact (plainDims_lhs_1 wf _ _).trans hk)
  have er : (plainDims wf).rhsIdx (ix2 p j) ((contrEquiv1 (plainDims wf) K rfl rfl).symm k) = ix2 k j :=
    funext fun a => Fin.ext (by
      match a with
      | ⟨0, _⟩ => exact (plainDims_rhs_0 wf _ _).trans hk
      | ⟨1, _⟩ => exact plainDims_rhs_1 wf _ _)
  rw [el, er]

/-! ## One affine layer, and `x · σ(x)`, read at an entry -/

/-- A bias vector laid out as one row and repeated down `M` rows reads, at `(p, j)`, the vector at `j`. -/
private theorem biasRow_apply {M N : Nat} (b : FVec Ideal ⟨1, ![N]⟩ .f32) (h1 : (⟨1, ![N]⟩ : Shape).ShapeCasts ⟨2, ![1, N]⟩)
    (h2 : (⟨2, ![1, N]⟩ : Shape).Broadcasts ⟨2, ![M, N]⟩) (p : Fin M) (j : Fin N) :
    broadcastTo ⟨2, ![M, N]⟩ (shapeCast ⟨2, ![1, N]⟩ b h1) h2 (ix2 p j) = b (ix1 j) :=
  (broadcastTo_1b_ab_apply _ h2 p j).trans (shapeCast_a_1a_apply b h1 0 j)

/-- The product of a block `x` with a weight matrix `W` into the zero accumulator, plus the bias row of `b`: at
    `(p, j)` it is the affine map `(∑ k, x (p, k) · W (k, j)) + b j` of row `p` of `x`. -/
private theorem affine_apply {M K N : Nat} {φ : FTy}
    (wf : DotDims.WF ⟨2, ![M, K]⟩ ⟨2, ![K, N]⟩ ⟨2, ![M, N]⟩ [1] [0] [0] [1] [] [])
    (x : FVec Ideal ⟨2, ![M, K]⟩ φ) (W : FVec Ideal ⟨2, ![K, N]⟩ .bf16) (b : FVec Ideal ⟨1, ![N]⟩ .f32)
    (hW : (⟨2, ![K, N]⟩ : Shape).ShapeCasts ⟨2, ![K, N]⟩) (h1 : (⟨1, ![N]⟩ : Shape).ShapeCasts ⟨2, ![1, N]⟩)
    (h2 : (⟨2, ![1, N]⟩ : Shape).Broadcasts ⟨2, ![M, N]⟩) (p : Fin M) (j : Fin N) :
    addf (FloatOps.matmul (plainDims wf) none x (shapeCast ⟨2, ![K, N]⟩ W hW)
          (constant (F := Ideal) ⟨2, ![M, N]⟩ .f32 0x00000000#32))
        (broadcastTo ⟨2, ![M, N]⟩ (shapeCast ⟨2, ![1, N]⟩ b h1) h2) (ix2 p j)
      = aff (mat W) (vec b) (fun k => x (ix2 p k)) j := by
  rw [shapeCast_self W hW]
  exact congrArg₂ (· + ·) (matmul_plain_apply wf none x W p j) (biasRow_apply b h1 h2 p j)

/-- `x · σ(x)` taken entrywise is `silu` of the entry. -/
private theorem silu_apply {s : Shape} (x : FVec Ideal s .f32) (i : s.Idx) : mulf x (logistic x) i = silu (x i) := rfl

/-- θ0's block: the one-layer head on the code's first quarter. -/
theorem th0_apply (v37 v40 : FVec Ideal S64x200 .f32) (v44 : FVec Ideal S50x240 .bf16) (v47 : FVec Ideal S240 .f32)
    (p : Fin 64) (j : Fin 240) :
    k0_pay7 (F := Ideal) v37 v40 v44 v47 (ix2 p j)
      = head1 (mat v44) (vec v47) (fun k => k0_pay6 (F := Ideal) v37 v40 (ix2 p k)) 0 (by omega) j := by
  unfold k0_pay7
  refine (silu_apply _ (ix2 p j)).trans (congrArg silu ?_)
  refine (affine_apply _ _ v44 v47 _ _ _ p j).trans ?_
  exact congrArg (fun w => aff (mat v44) (vec v47) w j)
    (funext fun k => slice2_axis1_apply 0 (k0_pay6 (F := Ideal) v37 v40) _ p k ⟨0 + k.val, by have := k.isLt; omega⟩ rfl)

/-- θ5's block: the one-layer head on the code's last quarter. -/
theorem th5_apply (v42 : FVec Ideal S64x200 .bf16) (v90 : FVec Ideal S50x162 .bf16) (v93 : FVec Ideal S162 .f32)
    (p : Fin 64) (j : Fin 162) :
    k0_pay11 (F := Ideal) v42 v90 v93 (ix2 p j)
      = head1 (mat v90) (vec v93) (fun k => v42 (ix2 p k)) 150 (by omega) j := by
  unfold k0_pay11
  refine (silu_apply _ (ix2 p j)).trans (congrArg silu ?_)
  refine (affine_apply _ _ v90 v93 _ _ _ p j).trans ?_
  exact congrArg (fun w => aff (mat v90) (vec v93) w j)
    (funext fun k => slice2_axis1_apply 150 v42 _ p k ⟨150 + k.val, by have := k.isLt; omega⟩ rfl)

end Cert.KernelIdeal.Bridge

end
-- ==== Proof.KHeadsTwo.lean ====
/-
  The kernel's two two-layer heads (θ1, θ2) at one row of a block: each is the specification's head of the row's code, on the quarter
  of the code the kernel slices for it.
-/
import proofs.«419183_j88055419503310_4_alg».proof.Proof.Gen.KernelIdeal.Skeleton
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.HyperMlp Idealize.ShloMosaic Idealize.ShloMosaic.ValueIdx

/-- The left operand's row coordinate at an output index is the output's row. -/
theorem headsTwo_mmHid_lhs_0 (i : S64x50.Idx) (q : dot_S64x50_S50x50_S64x50_1_0_0_1_n_n.contr.Idx) :
    (dot_S64x50_S50x50_S64x50_1_0_0_1_n_n.lhsIdx i q 0).val = (i 0).val := by
  unfold DotDims.lhsIdx
  rw [dif_neg (show ¬(0 : Fin S64x50.rank) ∈ dot_S64x50_S50x50_S64x50_1_0_0_1_n_n.lhsBatch by decide), dif_pos (show (0 : Fin S64x50.rank) ∈ dot_S64x50_S50x50_S64x50_1_0_0_1_n_n.lhsNonContracting by decide)]
  rfl
/-- The left operand's column coordinate is the contraction index. -/
theorem headsTwo_mmHid_lhs_1 (i : S64x50.Idx) (q : dot_S64x50_S50x50_S64x50_1_0_0_1_n_n.contr.Idx) :
    (dot_S64x50_S50x50_S64x50_1_0_0_1_n_n.lhsIdx i q 1).val = (q ⟨0, by decide⟩).val :=
  dot_S64x50_S50x50_S64x50_1_0_0_1_n_n.lhsIdx_val_of_single rfl i q
/-- The right operand's row coordinate is the contraction index. -/
theorem headsTwo_mmHid_rhs_0 (i : S64x50.Idx) (q : dot_S64x50_S50x50_S64x50_1_0_0_1_n_n.contr.Idx) :
    (dot_S64x50_S50x50_S64x50_1_0_0_1_n_n.rhsIdx i q 0).val = (q ⟨0, by decide⟩).val :=
  dot_S64x50_S50x50_S64x50_1_0_0_1_n_n.rhsIdx_val_of_single rfl i q
/-- The right operand's column coordinate at an output index is the output's column. -/
theorem headsTwo_mmHid_rhs_1 (i : S64x50.Idx) (q : dot_S64x50_S50x50_S64x50_1_0_0_1_n_n.contr.Idx) :
    (dot_S64x50_S50x50_S64x50_1_0_0_1_n_n.rhsIdx i q 1).val = (i 1).val := by
  unfold DotDims.rhsIdx
  rw [dif_neg (show ¬(1 : Fin S50x50.rank) ∈ dot_S64x50_S50x50_S64x50_1_0_0_1_n_n.rhsBatch by decide), dif_pos (show (1 : Fin S50x50.rank) ∈ dot_S64x50_S50x50_S64x50_1_0_0_1_n_n.rhsNonContracting by decide)]
  rfl

/-- A product of a 64×50 block with a 50×50 matrix, accumulated from zero, read at row `p` and column `j`:
    the sum over the fifty contracted entries. -/
theorem headsTwo_mmHid_apply (lhs : FVec Ideal S64x50 .bf16) (rhs : FVec Ideal S50x50 .bf16) (p : Fin 64) (j : Fin 50) :
    matmul dot_S64x50_S50x50_S64x50_1_0_0_1_n_n none lhs rhs (constant (F := Ideal) S64x50 .f32 0x00000000#32) (ix2 p j)
      = ∑ k : Fin 50, lhs (ix2 p k) * rhs (ix2 k j) := by
  simp only [matmul]
  rw [Ideal.matmul_constant_zero_apply, ← Equiv.sum_comp (ValueIdx.contrEquiv1 dot_S64x50_S50x50_S64x50_1_0_0_1_n_n 50 rfl rfl).symm]
  refine Finset.sum_congr rfl fun k _ => ?_
  have hk := ValueIdx.contrEquiv1_symm_val dot_S64x50_S50x50_S64x50_1_0_0_1_n_n 50 rfl rfl k
  have el : dot_S64x50_S50x50_S64x50_1_0_0_1_n_n.lhsIdx (ix2 p j) ((ValueIdx.contrEquiv1 dot_S64x50_S50x50_S64x50_1_0_0_1_n_n 50 rfl rfl).symm k) = ix2 p k := funext fun a => Fin.ext (by
    match a with
    | ⟨0, _⟩ => exact headsTwo_mmHid_lhs_0 _ _
    | ⟨1, _⟩ => exact (headsTwo_mmHid_lhs_1 _ _).trans hk)
  have er : dot_S64x50_S50x50_S64x50_1_0_0_1_n_n.rhsIdx (ix2 p j) ((ValueIdx.contrEquiv1 dot_S64x50_S50x50_S64x50_1_0_0_1_n_n 50 rfl rfl).symm k) = ix2 k j := funext fun a => Fin.ext (by
    match a with
    | ⟨0, _⟩ => exact (headsTwo_mmHid_rhs_0 _ _).trans hk
    | ⟨1, _⟩ => exact headsTwo_mmHid_rhs_1 _ _)
  rw [el, er]

/-- The left operand's row coordinate at an output index is the output's row. -/
theorem headsTwo_mmOut_lhs_0 (i : S64x6480.Idx) (q : dot_S64x50_S50x6480_S64x6480_1_0_0_1_n_n.contr.Idx) :
    (dot_S64x50_S50x6480_S64x6480_1_0_0_1_n_n.lhsIdx i q 0).val = (i 0).val := by
  unfold DotDims.lhsIdx
  rw [dif_neg (show ¬(0 : Fin S64x50.rank) ∈ dot_S64x50_S50x6480_S64x6480_1_0_0_1_n_n.lhsBatch by decide), dif_pos (show (0 : Fin S64x50.rank) ∈ dot_S64x50_S50x6480_S64x6480_1_0_0_1_n_n.lhsNonContracting by decide)]
  rfl
/-- The left operand's column coordinate is the contraction index. -/
theorem headsTwo_mmOut_lhs_1 (i : S64x6480.Idx) (q : dot_S64x50_S50x6480_S64x6480_1_0_0_1_n_n.contr.Idx) :
    (dot_S64x50_S50x6480_S64x6480_1_0_0_1_n_n.lhsIdx i q 1).val = (q ⟨0, by decide⟩).val :=
  dot_S64x50_S50x6480_S64x6480_1_0_0_1_n_n.lhsIdx_val_of_single rfl i q
/-- The right operand's row coordinate is the contraction index. -/
theorem headsTwo_mmOut_rhs_0 (i : S64x6480.Idx) (q : dot_S64x50_S50x6480_S64x6480_1_0_0_1_n_n.contr.Idx) :
    (dot_S64x50_S50x6480_S64x6480_1_0_0_1_n_n.rhsIdx i q 0).val = (q ⟨0, by decide⟩).val :=
  dot_S64x50_S50x6480_S64x6480_1_0_0_1_n_n.rhsIdx_val_of_single rfl i q
/-- The right operand's column coordinate at an output index is the output's column. -/
theorem headsTwo_mmOut_rhs_1 (i : S64x6480.Idx) (q : dot_S64x50_S50x6480_S64x6480_1_0_0_1_n_n.contr.Idx) :
    (dot_S64x50_S50x6480_S64x6480_1_0_0_1_n_n.rhsIdx i q 1).val = (i 1).val := by
  unfold DotDims.rhsIdx
  rw [dif_neg (show ¬(1 : Fin S50x6480.rank) ∈ dot_S64x50_S50x6480_S64x6480_1_0_0_1_n_n.rhsBatch by decide), dif_pos (show (1 : Fin S50x6480.rank) ∈ dot_S64x50_S50x6480_S64x6480_1_0_0_1_n_n.rhsNonContracting by decide)]
  rfl

/-- A product of a 64×50 block with a 50×6480 matrix, accumulated from zero, read at row `p` and column `j`:
    the sum over the fifty contracted entries. -/
theorem headsTwo_mmOut_apply (lhs : FVec Ideal S64x50 .bf16) (rhs : FVec Ideal S50x6480 .bf16) (p : Fin 64) (j : Fin 6480) :
    matmul dot_S64x50_S50x6480_S64x6480_1_0_0_1_n_n none lhs rhs (constant (F := Ideal) S64x6480 .f32 0x00000000#32) (ix2 p j)
      = ∑ k : Fin 50, lhs (ix2 p k) * rhs (ix2 k j) := by
  simp only [matmul]
  rw [Ideal.matmul_constant_zero_apply, ← Equiv.sum_comp (ValueIdx.contrEquiv1 dot_S64x50_S50x6480_S64x6480_1_0_0_1_n_n 50 rfl rfl).symm]
  refine Finset.sum_congr rfl fun k _ => ?_
  have hk := ValueIdx.contrEquiv1_symm_val dot_S64x50_S50x6480_S64x6480_1_0_0_1_n_n 50 rfl rfl k
  have el : dot_S64x50_S50x6480_S64x6480_1_0_0_1_n_n.lhsIdx (ix2 p j) ((ValueIdx.contrEquiv1 dot_S64x50_S50x6480_S64x6480_1_0_0_1_n_n 50 rfl rfl).symm k) = ix2 p k := funext fun a => Fin.ext (by
    match a with
    | ⟨0, _⟩ => exact headsTwo_mmOut_lhs_0 _ _
    | ⟨1, _⟩ => exact (headsTwo_mmOut_lhs_1 _ _).trans hk)
  have er : dot_S64x50_S50x6480_S64x6480_1_0_0_1_n_n.rhsIdx (ix2 p j) ((ValueIdx.contrEquiv1 dot_S64x50_S50x6480_S64x6480_1_0_0_1_n_n 50 rfl rfl).symm k) = ix2 k j := funext fun a => Fin.ext (by
    match a with
    | ⟨0, _⟩ => exact (headsTwo_mmOut_rhs_0 _ _).trans hk
    | ⟨1, _⟩ => exact headsTwo_mmOut_rhs_1 _ _)
  rw [el, er]

/-- The hidden layer before its activation, at row `p` and unit `k`: the affine map of the fifty code entries from
    column `off` of that row. -/
theorem headsTwo_pre_apply (c : FVec Ideal S64x200 .bf16) (off : Nat) (hoff : off + 50 ≤ 200)
    (hs : S64x200.Slices ![0, off] S64x50) (W : FVec Ideal S50x50 .bf16) (b : FVec Ideal S50 .f32)
    (hW : S50x50.ShapeCasts S50x50) (hb1 : S50.ShapeCasts S1x50) (hb2 : S1x50.Broadcasts S64x50) (p : Fin 64) (k : Fin 50) :
    addf (matmul dot_S64x50_S50x50_S64x50_1_0_0_1_n_n none (extractStridedSlice S64x50 ![0, off] c hs) (shapeCast S50x50 W hW)
        (constant (F := Ideal) S64x50 .f32 0x00000000#32)) (broadcastTo S64x50 (shapeCast S1x50 b hb1) hb2) (ix2 p k)
      = aff (mat W) (vec b) (seg (fun x => c (ix2 p x)) off hoff) k := by
  refine (addf_apply _ _ _).trans ?_
  refine congrArg₂ (· + ·) ?_ ?_
  · refine (headsTwo_mmHid_apply _ _ p k).trans ?_
    refine Finset.sum_congr rfl fun m _ => ?_
    refine congrArg₂ (· * ·) ?_ ?_
    · exact slice2_axis1_eq off c hs p m
    · exact congrFun (shapeCast_self W hW) (ix2 m k)
  · refine (broadcastTo_1b_ab_apply _ hb2 p k).trans ?_
    exact shapeCast_a_1a_apply b hb1 0 k

/-- The hidden layer at row `p` and unit `k`: `x · σ(x)` of the affine map above. -/
theorem headsTwo_hidden_apply (c : FVec Ideal S64x200 .bf16) (off : Nat) (hoff : off + 50 ≤ 200)
    (hs : S64x200.Slices ![0, off] S64x50) (W : FVec Ideal S50x50 .bf16) (b : FVec Ideal S50 .f32)
    (hW : S50x50.ShapeCasts S50x50) (hb1 : S50.ShapeCasts S1x50) (hb2 : S1x50.Broadcasts S64x50)
    (x : FVec Ideal S64x50 .f32)
    (hx : x = addf (matmul dot_S64x50_S50x50_S64x50_1_0_0_1_n_n none (extractStridedSlice S64x50 ![0, off] c hs) (shapeCast S50x50 W hW)
        (constant (F := Ideal) S64x50 .f32 0x00000000#32)) (broadcastTo S64x50 (shapeCast S1x50 b hb1) hb2))
    (p : Fin 64) (k : Fin 50) :
    (truncf .bf16 (mulf x (logistic x)) bitsLt_bf16_f32 : FVec Ideal S64x50 .bf16) (ix2 p k)
      = silu (aff (mat W) (vec b) (seg (fun x => c (ix2 p x)) off hoff) k) := by
  subst hx
  exact congrArg silu (headsTwo_pre_apply c off hoff hs W b hW hb1 hb2 p k)

/-- The output layer at row `p` and column `j`: the affine map of the row's fifty hidden units. -/
theorem headsTwo_out_apply (h : FVec Ideal S64x50 .bf16) (W : FVec Ideal S50x6480 .bf16) (b : FVec Ideal S6480 .f32)
    (hW : S50x6480.ShapeCasts S50x6480) (hb1 : S6480.ShapeCasts S1x6480) (hb2 : S1x6480.Broadcasts S64x6480)
    (p : Fin 64) (j : Fin 6480) :
    addf (matmul dot_S64x50_S50x6480_S64x6480_1_0_0_1_n_n none h (shapeCast S50x6480 W hW) (constant (F := Ideal) S64x6480 .f32 0x00000000#32))
        (broadcastTo S64x6480 (shapeCast S1x6480 b hb1) hb2) (ix2 p j)
      = aff (mat W) (vec b) (fun k => h (ix2 p k)) j := by
  refine (addf_apply _ _ _).trans ?_
  refine congrArg₂ (· + ·) ?_ ?_
  · refine (headsTwo_mmOut_apply _ _ p j).trans ?_
    refine Finset.sum_congr rfl fun m _ => ?_
    exact congrArg (h (ix2 p m) * ·) (congrFun (shapeCast_self W hW) (ix2 m j))
  · refine (broadcastTo_1b_ab_apply _ hb2 p j).trans ?_
    exact shapeCast_a_1a_apply b hb1 0 j

/-- θ1's block: the two-layer head on the code's second quarter. -/
theorem th1_apply (v37 v40 : FVec Ideal S64x200 .f32) (v54 : FVec Ideal S50x50 .bf16) (v57 : FVec Ideal S50 .f32)
    (v64 : FVec Ideal S50x6480 .bf16) (v67 : FVec Ideal S6480 .f32) (p : Fin 64) (j : Fin 6480) :
    k0_pay8 (F := Ideal) v37 v40 v54 v57 v64 v67 (ix2 p j)
      = head2 (mat v54) (vec v57) (mat v64) (vec v67) (fun k => k0_pay6 (F := Ideal) v37 v40 (ix2 p k)) 50 (by omega) j := by
  unfold k0_pay8
  refine (headsTwo_out_apply _ v64 v67 _ _ _ p j).trans ?_
  refine congrArg (fun f => aff (mat v64) (vec v67) f j) (funext fun k => ?_)
  exact headsTwo_hidden_apply (k0_pay6 (F := Ideal) v37 v40) 50 (by omega) _ v54 v57 _ _ _ _ rfl p k

/-- θ2's block: the two-layer head on the code's third quarter (its hidden layer and its output layer are two
    payloads of the printed body). -/
theorem th2_apply (v37 v40 : FVec Ideal S64x200 .f32) (v72 : FVec Ideal S50x50 .bf16) (v75 : FVec Ideal S50 .f32)
    (v82 : FVec Ideal S50x6480 .bf16) (v85 : FVec Ideal S6480 .f32) (p : Fin 64) (j : Fin 6480) :
    k0_pay10 (F := Ideal) (k0_pay9 (F := Ideal) v37 v40 v72 v75) v82 v85 (ix2 p j)
      = head2 (mat v72) (vec v75) (mat v82) (vec v85) (fun k => k0_pay6 (F := Ideal) v37 v40 (ix2 p k)) 100 (by omega) j := by
  unfold k0_pay10
  refine (headsTwo_out_apply _ v82 v85 _ _ _ p j).trans ?_
  refine congrArg (fun f => aff (mat v82) (vec v85) f j) (funext fun k => ?_)
  unfold k0_pay9
  exact headsTwo_hidden_apply (k0_pay6 (F := Ideal) v37 v40) 100 (by omega) _ v72 v75 _ _ _ _ rfl p k

end Cert.KernelIdeal.Bridge

end
-- ==== Proof.KParams.lean ====
/-
  How the kernel cuts a row's parameter vectors into the per-row network's matrices and biases: each is a slice of
  columns followed by a row-major reshape, so entry `(h, k)` of a matrix is entry `h · width + k` of the vector and
  bias `k` is the entry that many places after the matrix.
-/
import proofs.«419183_j88055419503310_4_alg».proof.Proof.Gen.KernelIdeal.Skeleton
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.HyperMlp Idealize.ShloMosaic Idealize.ShloMosaic.ValueIdx

/-- A slice of columns `c … c + w - 1` of an `[m, n]` array reads, at `(p, q)`, the array at `(p, c + q)`. -/
private theorem sliceCols_apply {α : Type} {m n w : Nat} (c : Nat) (x : (⟨2, ![m, n]⟩ : Shape).Idx → α)
    (hs : (⟨2, ![m, n]⟩ : Shape).Slices ![0, c] ⟨2, ![m, w]⟩) (p : Fin m) (q : Fin w) (hlt : c + q.val < n) :
    extractStridedSlice ⟨2, ![m, w]⟩ ![0, c] x hs (ix2 p q) = x (ix2 p ⟨c + q.val, hlt⟩) :=
  extractStridedSlice_apply _ x hs _ _ fun a => match a with
    | ⟨0, _⟩ => by show p.val = 0 + p.val; omega
    | ⟨1, _⟩ => by show c + q.val = c + q.val; rfl

/-- An `[m, a · b]` array reshaped row-major to `[m, a, b]` reads, at `(p, h, k)`, the array at `(p, h · b + k)`. -/
private theorem shapeCast_split_apply {α : Type} {m n a b : Nat} (x : (⟨2, ![m, n]⟩ : Shape).Idx → α)
    (hc : (⟨2, ![m, n]⟩ : Shape).ShapeCasts ⟨3, ![m, a, b]⟩) (hn : n = a * b) (p : Fin m) (h : Fin a) (k : Fin b)
    (hlt : h.val * b + k.val < n) :
    shapeCast ⟨3, ![m, a, b]⟩ x hc (ix3 p h k) = x (ix2 p ⟨h.val * b + k.val, hlt⟩) :=
  shapeCast_apply x hc _ _ (by
    rw [Shape.rowMajor_val_two, Shape.rowMajor_val_three]
    show p.val * n + (h.val * b + k.val) = (p.val * a + h.val) * b + k.val
    rw [hn, Nat.add_mul, Nat.mul_assoc, Nat.add_assoc])

/-- Layer 2's matrix, entry `(h, k)`: θ1's entry `80 h + k`. -/
theorem pay12_apply (v70 : FVec Ideal S64x6480 .f32) (p : Fin 64) (h k : Fin 80) :
    k0_pay12 (F := Ideal) v70 (ix3 p h k) = v70 (ix2 p ⟨h.val * 80 + k.val, by have := h.isLt; have := k.isLt; omega⟩) := by
  have hh := h.isLt
  have hk := k.isLt
  unfold k0_pay12
  refine (truncf_apply (φ := .f32) (ψ := .bf16) _ Facts₀.bitsLt_bf16_f32 _).trans ?_
  refine (shapeCast_split_apply _ _ rfl p h k (by omega)).trans ?_
  refine (sliceCols_apply 0 v70 _ p ⟨h.val * 80 + k.val, by omega⟩ (by show 0 + (h.val * 80 + k.val) < 6480; omega)).trans ?_
  exact congrArg v70 (congrArg (ix2 p) (Fin.ext (by show 0 + (h.val * 80 + k.val) = h.val * 80 + k.val; omega)))

/-- Layer 2's bias `k`: θ1's entry `6400 + k`. -/
theorem pay13_apply (v70 : FVec Ideal S64x6480 .f32) (p : Fin 64) (k : Fin 80) :
    k0_pay13 (F := Ideal) v70 (ix3 p (0 : Fin 1) k) = v70 (ix2 p ⟨6400 + k.val, by have := k.isLt; omega⟩) := by
  have hk := k.isLt
  have h0 : ((0 : Fin 1) : Nat) = 0 := rfl
  unfold k0_pay13
  refine (shapeCast_split_apply _ _ rfl p (0 : Fin 1) k (by omega)).trans ?_
  refine (sliceCols_apply 6400 v70 _ p ⟨(0 : Fin 1).val * 80 + k.val, by omega⟩
    (by show 6400 + ((0 : Fin 1).val * 80 + k.val) < 6480; omega)).trans ?_
  exact congrArg v70 (congrArg (ix2 p) (Fin.ext (by show 6400 + ((0 : Fin 1).val * 80 + k.val) = 6400 + k.val; omega)))

/-- Layer 3's matrix, entry `(h, k)`: θ2's entry `80 h + k`. -/
theorem pay14_apply (v81 : FVec Ideal S64x50 .bf16) (v82 : FVec Ideal S50x6480 .bf16) (v85 : FVec Ideal S6480 .f32)
    (p : Fin 64) (h k : Fin 80) :
    k0_pay14 (F := Ideal) v81 v82 v85 (ix3 p h k)
      = k0_pay10 (F := Ideal) v81 v82 v85 (ix2 p ⟨h.val * 80 + k.val, by have := h.isLt; have := k.isLt; omega⟩) := by
  have hh := h.isLt
  have hk := k.isLt
  unfold k0_pay14
  refine (truncf_apply (φ := .f32) (ψ := .bf16) _ Facts₀.bitsLt_bf16_f32 _).trans ?_
  refine (shapeCast_split_apply _ _ rfl p h k (by omega)).trans ?_
  refine (sliceCols_apply 0 (k0_pay10 (F := Ideal) v81 v82 v85) _ p ⟨h.val * 80 + k.val, by omega⟩
    (by show 0 + (h.val * 80 + k.val) < 6480; omega)).trans ?_
  exact congrArg (k0_pay10 (F := Ideal) v81 v82 v85)
    (congrArg (ix2 p) (Fin.ext (by show 0 + (h.val * 80 + k.val) = h.val * 80 + k.val; omega)))

/-- Layer 3's bias `k`: θ2's entry `6400 + k`. -/
theorem pay15_apply (v81 : FVec Ideal S64x50 .bf16) (v82 : FVec Ideal S50x6480 .bf16) (v85 : FVec Ideal S6480 .f32)
    (p : Fin 64) (k : Fin 80) :
    k0_pay15 (F := Ideal) v81 v82 v85 (ix3 p (0 : Fin 1) k)
      = k0_pay10 (F := Ideal) v81 v82 v85 (ix2 p ⟨6400 + k.val, by have := k.isLt; omega⟩) := by
  have hk := k.isLt
  have h0 : ((0 : Fin 1) : Nat) = 0 := rfl
  unfold k0_pay15
  refine (shapeCast_split_apply _ _ rfl p (0 : Fin 1) k (by omega)).trans ?_
  refine (sliceCols_apply 6400 (k0_pay10 (F := Ideal) v81 v82 v85) _ p ⟨(0 : Fin 1).val * 80 + k.val, by omega⟩
    (by show 6400 + ((0 : Fin 1).val * 80 + k.val) < 6480; omega)).trans ?_
  exact congrArg (k0_pay10 (F := Ideal) v81 v82 v85)
    (congrArg (ix2 p) (Fin.ext (by show 6400 + ((0 : Fin 1).val * 80 + k.val) = 6400 + k.val; omega)))

/-- The last layer's matrix, entry `(h, o)`: θ5's entry `2 h + o`. -/
theorem pay16_apply (v42 : FVec Ideal S64x200 .bf16) (v90 : FVec Ideal S50x162 .bf16) (v93 : FVec Ideal S162 .f32)
    (p : Fin 64) (h : Fin 80) (o : Fin 2) :
    k0_pay16 (F := Ideal) v42 v90 v93 (ix3 p h o)
      = k0_pay11 (F := Ideal) v42 v90 v93 (ix2 p ⟨h.val * 2 + o.val, by have := h.isLt; have := o.isLt; omega⟩) := by
  have hh := h.isLt
  have ho := o.isLt
  unfold k0_pay16
  refine (shapeCast_split_apply _ _ rfl p h o (by omega)).trans ?_
  refine (sliceCols_apply 0 (k0_pay11 (F := Ideal) v42 v90 v93) _ p ⟨h.val * 2 + o.val, by omega⟩
    (by show 0 + (h.val * 2 + o.val) < 162; omega)).trans ?_
  exact congrArg (k0_pay11 (F := Ideal) v42 v90 v93)
    (congrArg (ix2 p) (Fin.ext (by show 0 + (h.val * 2 + o.val) = h.val * 2 + o.val; omega)))

/-- The last layer's bias `o`: θ5's entry `160 + o`. -/
theorem pay17_apply (v42 : FVec Ideal S64x200 .bf16) (v90 : FVec Ideal S50x162 .bf16) (v93 : FVec Ideal S162 .f32)
    (p : Fin 64) (o : Fin 2) :
    k0_pay17 (F := Ideal) v42 v90 v93 (ix3 p (0 : Fin 1) o)
      = k0_pay11 (F := Ideal) v42 v90 v93 (ix2 p ⟨160 + o.val, by have := o.isLt; omega⟩) := by
  have ho := o.isLt
  have h0 : ((0 : Fin 1) : Nat) = 0 := rfl
  unfold k0_pay17
  refine (shapeCast_split_apply _ _ rfl p (0 : Fin 1) o (by omega)).trans ?_
  refine (sliceCols_apply 160 (k0_pay11 (F := Ideal) v42 v90 v93) _ p ⟨(0 : Fin 1).val * 2 + o.val, by omega⟩
    (by show 160 + ((0 : Fin 1).val * 2 + o.val) < 162; omega)).trans ?_
  exact congrArg (k0_pay11 (F := Ideal) v42 v90 v93)
    (congrArg (ix2 p) (Fin.ext (by show 160 + ((0 : Fin 1).val * 2 + o.val) = 160 + o.val; omega)))

end Cert.KernelIdeal.Bridge

end
-- ==== Proof.KLayerIn.lean ====
/-
  The kernel's first layer at one point of one block row. The kernel spells the contraction over the point's two
  coordinates as two products and a sum, and repeats each row of the 2×80 matrix and the bias along the 256 points by
  laying 256 copies side by side; read at one point, a copy is the row itself.
-/
import proofs.«419183_j88055419503310_4_alg».proof.Proof.Gen.KernelIdeal.Skeleton
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.HyperMlp Idealize.ShloMosaic Idealize.ShloMosaic.ValueIdx

/-- The list of 256 copies of one piece, written out, is the 256-fold repetition of the piece. -/
theorem tile256_eq {α : Type} (v : S64x1x80.Idx → α) :
    (⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: [] : List ((s : Shape) × (s.Idx → α))) = List.replicate 256 ⟨S64x1x80, v⟩ := rfl

/-- A concatenation depends on its list of pieces only. -/
theorem concatenate_congr_list {α : Type} {t : Shape} (a : Fin t.rank) (xs ys : List ((s : Shape) × (s.Idx → α))) (e : xs = ys)
    (hx : Shape.Concatenates (xs.map (·.1)) t a) (hy : Shape.Concatenates (ys.map (·.1)) t a) :
    concatenate t a xs hx = concatenate t a ys hy := by
  subst e; rfl

/-- 256 copies of a [64, 1, 80] piece laid along axis 1, read at (p, n, h): the piece at (p, 0, h), whichever copy
    the point n falls in. -/
theorem tile256_apply {α : Type} (v : S64x1x80.Idx → α)
    (hc : Shape.Concatenates ((⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: [] : List ((s : Shape) × (s.Idx → α))).map (·.1)) S64x256x80 1)
    (p : Fin 64) (n : Fin 256) (h : Fin 80) :
    concatenate S64x256x80 1 (⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: ⟨S64x1x80, v⟩ :: []) hc (ix3 p n h) = v (ix3 p (0 : Fin 1) h) := by
  have e := tile256_eq v
  have hc' : Shape.Concatenates ((List.replicate 256 (⟨S64x1x80, v⟩ : (s : Shape) × (s.Idx → α))).map (·.1)) S64x256x80 1 := e ▸ hc
  refine (congrFun (concatenate_congr_list 1 _ _ e hc hc') _).trans ?_
  refine concatenate_replicate_apply (t := S64x256x80) (s₁ := S64x1x80) 1 256 v hc' rfl (ix3 p n h) (ix3 p (0 : Fin 1) h) ?_ ?_
  · show (0 : Nat) = n.val % 1
    omega
  · intro b
    match b with
    | ⟨0, _⟩ => exact fun _ => rfl
    | ⟨1, _⟩ => exact fun hb => absurd rfl hb
    | ⟨2, _⟩ => exact fun _ => rfl

/-- Row o of the 2×80 matrix held in the first 160 entries of a row of the θ0 block: entry (p, ·, h) of the slice at row
    o of the [64, 2, 80] reshaping is entry o·80 + h of row p. -/
theorem row_apply (v52 : FVec Ideal S64x240 .f32) (o : Nat) (ho : o < 2)
    (h1 : S64x240.Slices ![0, 0] S64x160) (h2 : S64x160.ShapeCasts S64x2x80) (h3 : S64x2x80.Slices ![0, o, 0] S64x1x80)
    (p : Fin 64) (u : Fin 1) (h : Fin 80) :
    extractStridedSlice S64x1x80 ![0, o, 0] (shapeCast S64x2x80 (extractStridedSlice S64x160 ![0, 0] v52 h1) h2) h3 (ix3 p u h)
      = v52 (ix2 p ⟨o * 80 + h.val, by omega⟩) := by
  refine (extractStridedSlice_apply _ _ h3 _ (ix3 p (⟨o, ho⟩ : Fin 2) h) ?_).trans ?_
  · intro a
    match a with
    | ⟨0, _⟩ => show p.val = 0 + p.val; omega
    | ⟨1, _⟩ => show o = o + u.val; omega
    | ⟨2, _⟩ => show h.val = 0 + h.val; omega
  refine (shapeCast_apply _ h2 _ (ix2 p (⟨o * 80 + h.val, by omega⟩ : Fin 160)) ?_).trans ?_
  · rw [Shape.rowMajor_val_two, Shape.rowMajor_val_three]
    show p.val * 160 + (o * 80 + h.val) = (p.val * 2 + o) * 80 + h.val
    omega
  refine extractStridedSlice_apply _ _ h1 _ _ ?_
  intro a
  match a with
  | ⟨0, _⟩ => show p.val = 0 + p.val; omega
  | ⟨1, _⟩ => show o * 80 + h.val = 0 + (o * 80 + h.val); omega

/-- The bias row held in the last 80 entries of a row of the θ0 block: entry (p, ·, h) of the [64, 1, 80] reshaping of
    the slice from column 160 is entry 160 + h of row p. -/
theorem bias_apply (v52 : FVec Ideal S64x240 .f32)
    (h1 : S64x240.Slices ![0, 160] S64x80) (h2 : S64x80.ShapeCasts S64x1x80)
    (p : Fin 64) (u : Fin 1) (h : Fin 80) :
    shapeCast S64x1x80 (extractStridedSlice S64x80 ![0, 160] v52 h1) h2 (ix3 p u h)
      = v52 (ix2 p ⟨160 + h.val, by omega⟩) := by
  refine (shapeCast_apply _ h2 _ (ix2 p h) ?_).trans ?_
  · rw [Shape.rowMajor_val_two, Shape.rowMajor_val_three]
    show p.val * 80 + h.val = (p.val * 1 + u.val) * 80 + h.val
    omega
  refine extractStridedSlice_apply _ _ h1 _ _ ?_
  intro a
  match a with
  | ⟨0, _⟩ => show p.val = 0 + p.val; omega
  | ⟨1, _⟩ => show 160 + h.val = 160 + h.val; rfl

/-- Coordinate o of the points, repeated along the last axis: entry (p, n, h) of the broadcast of the slice at
    coordinate o is coordinate o of point n of row p. -/
theorem coord_apply (v117 : FVec Ideal S64x256x2 .f32) (o : Nat) (ho : o < 2)
    (h1 : S64x256x2.Slices ![0, 0, o] S64x256x1) (h2 : S64x256x1.Broadcasts S64x256x80)
    (p : Fin 64) (n : Fin 256) (h : Fin 80) :
    broadcastTo S64x256x80 (extractStridedSlice S64x256x1 ![0, 0, o] v117 h1) h2 (ix3 p n h)
      = v117 (ix3 p n (⟨o, ho⟩ : Fin 2)) := by
  refine (broadcastTo_apply _ h2 _ (ix3 p n (0 : Fin 1)) ?_).trans ?_
  · intro a
    match a with
    | ⟨0, _⟩ => rfl
    | ⟨1, _⟩ => rfl
    | ⟨2, _⟩ => rfl
  refine extractStridedSlice_apply _ _ h1 _ _ ?_
  intro a
  match a with
  | ⟨0, _⟩ => show p.val = 0 + p.val; omega
  | ⟨1, _⟩ => show n.val = 0 + n.val; omega
  | ⟨2, _⟩ => show o = o + 0; rfl

/-- The f32 zero pattern, as a scalar at the ideal values, is the extended real 0. -/
theorem scalar_zero_f32 : (Scalar.ofBits (F := Ideal) .f32 0x00000000#32 : Ideal .f32) = 0 :=
  Ideal.ofBits_zero_f32

/-- Two products, their sum, a third summand and the maximum with a fourth array, read at one index from what each
    array is there. -/
theorem combine_apply {s : Shape} (A B C D E Z : FVec Ideal s .f32) (i : s.Idx) (a b c d e : EReal)
    (hA : A i = a) (hB : B i = b) (hC : C i = c) (hD : D i = d) (hE : E i = e) (hZ : Z i = 0) :
    maximumf (addf (addf (mulf A B) (mulf C D)) E) Z i = max (a * b + c * d + e) 0 := by
  show max (A i * B i + C i * D i + E i) (Z i) = _
  rw [hA, hB, hC, hD, hE, hZ]

/-- Entry `(p, n, h)` of the rectified first layer: `layerIn` of row `p` of the θ0 block on point `n` of row `p`. -/
theorem pay18_apply (v52 : FVec Ideal S64x240 .f32) (v117 : FVec Ideal S64x256x2 .f32) (p : Fin 64) (n : Fin 256) (h : Fin 80) :
    k0_pay18 (F := Ideal) v52 v117 (ix3 p n h)
      = layerIn (fun j => v52 (ix2 p j)) (fun d => v117 (ix3 p n d)) h := by
  unfold k0_pay18
  -- each of the six arrays read at (p, n, h): the two coordinates of the point, rows 0 and 1 of the matrix, the bias, zero
  refine (combine_apply _ _ _ _ _ _ _ _ _ _ _ _
    (coord_apply v117 0 (by omega) _ _ p n h)
    ((tile256_apply _ _ p n h).trans (row_apply v52 0 (by omega) _ _ _ p 0 h))
    (coord_apply v117 1 (by omega) _ _ p n h)
    ((tile256_apply _ _ p n h).trans (row_apply v52 1 (by omega) _ _ _ p 0 h))
    ((tile256_apply _ _ p n h).trans (bias_apply v52 _ _ p 0 h))
    ((broadcast_apply _ _).trans scalar_zero_f32)).trans ?_
  -- the sum over the two coordinates, written out
  unfold layerIn relu
  rw [Fin.sum_univ_two]
  rfl

end Cert.KernelIdeal.Bridge

end
-- ==== Proof.KLayers.lean ====
/-
  The kernel's second, third and last layers at one point of one block row, over the first layer's output: two
  batched matrix products (batch = the block row, contraction over the 80 hidden units), each with its bias repeated
  along the points and rectified, then the last layer as two lane sums of products with the two columns of the 80×2
  matrix, joined along the last axis, plus the bias repeated along the points.
-/
import proofs.«419183_j88055419503310_4_alg».proof.Proof.Gen.KernelIdeal.Skeleton
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.HyperMlp Idealize.ShloMosaic Idealize.ShloMosaic.ValueIdx

/-! ## The batched product at an index -/

/-- The batched product's dimension numbers: batch axis 0 of both operands, the left operand's axis 2 contracted with
    the right operand's axis 1. -/
abbrev bdot := dot_S64x256x80_S64x80x80_S64x256x80_2_1_1_2_0_0

/-- The left operand's index on the batch axis is the output's. -/
theorem bdot_lhs_0 (i : S64x256x80.Idx) (q : bdot.contr.Idx) : (bdot.lhsIdx i q 0).val = (i 0).val := by
  unfold DotDims.lhsIdx
  rw [dif_pos (show (0 : Fin S64x256x80.rank) ∈ bdot.lhsBatch by decide)]
  rfl
/-- The left operand's index on its free axis (the points) is the output's. -/
theorem bdot_lhs_1 (i : S64x256x80.Idx) (q : bdot.contr.Idx) : (bdot.lhsIdx i q 1).val = (i 1).val := by
  unfold DotDims.lhsIdx
  rw [dif_neg (show ¬(1 : Fin S64x256x80.rank) ∈ bdot.lhsBatch by decide),
    dif_pos (show (1 : Fin S64x256x80.rank) ∈ bdot.lhsNonContracting by decide)]
  rfl
/-- The left operand's index on its contracted axis is the contraction index. -/
theorem bdot_lhs_2 (i : S64x256x80.Idx) (q : bdot.contr.Idx) : (bdot.lhsIdx i q 2).val = (q ⟨0, by decide⟩).val :=
  bdot.lhsIdx_val_of_single rfl i q
/-- The right operand's index on the batch axis is the output's. -/
theorem bdot_rhs_0 (i : S64x256x80.Idx) (q : bdot.contr.Idx) : (bdot.rhsIdx i q 0).val = (i 0).val := by
  unfold DotDims.rhsIdx
  rw [dif_pos (show (0 : Fin S64x80x80.rank) ∈ bdot.rhsBatch by decide)]
  rfl
/-- The right operand's index on its contracted axis is the contraction index. -/
theorem bdot_rhs_1 (i : S64x256x80.Idx) (q : bdot.contr.Idx) : (bdot.rhsIdx i q 1).val = (q ⟨0, by decide⟩).val :=
  bdot.rhsIdx_val_of_single rfl i q
/-- The right operand's index on its free axis (the output unit) is the output's last coordinate. -/
theorem bdot_rhs_2 (i : S64x256x80.Idx) (q : bdot.contr.Idx) : (bdot.rhsIdx i q 2).val = (i 2).val := by
  unfold DotDims.rhsIdx
  rw [dif_neg (show ¬(2 : Fin S64x80x80.rank) ∈ bdot.rhsBatch by decide),
    dif_pos (show (2 : Fin S64x80x80.rank) ∈ bdot.rhsNonContracting by decide)]
  rfl

/-- The batched product into the zero splat at `(p, n, k)`: `∑ h, x (p, n, h) · w (p, h, k)`. -/
theorem bmm_apply (x : FVec Ideal S64x256x80 .bf16) (w : FVec Ideal S64x80x80 .bf16) (p : Fin 64) (n : Fin 256) (k : Fin 80) :
    matmul bdot none x w (constant S64x256x80 .f32 0x00000000#32) (ix3 p n k)
      = ∑ h : Fin 80, x (ix3 p n h) * w (ix3 p h k) := by
  refine (Ideal.matmul_constant_zero_apply bdot none x w (ix3 p n k)).trans ?_
  rw [← Equiv.sum_comp (ValueIdx.contrEquiv1 bdot 80 rfl rfl).symm]
  refine Finset.sum_congr rfl fun h _ => ?_
  have hk := ValueIdx.contrEquiv1_symm_val bdot 80 rfl rfl h
  have el : bdot.lhsIdx (ix3 p n k) ((ValueIdx.contrEquiv1 bdot 80 rfl rfl).symm h) = ix3 p n h :=
    funext fun a => Fin.ext (by
      match a with
      | ⟨0, _⟩ => exact bdot_lhs_0 _ _
      | ⟨1, _⟩ => exact bdot_lhs_1 _ _
      | ⟨2, _⟩ => exact (bdot_lhs_2 _ _).trans hk)
  have er : bdot.rhsIdx (ix3 p n k) ((ValueIdx.contrEquiv1 bdot 80 rfl rfl).symm h) = ix3 p h k :=
    funext fun a => Fin.ext (by
      match a with
      | ⟨0, _⟩ => exact bdot_rhs_0 _ _
      | ⟨1, _⟩ => exact (bdot_rhs_1 _ _).trans hk
      | ⟨2, _⟩ => exact bdot_rhs_2 _ _)
  rw [el, er]

/-! ## Rows laid along the points, lane sums, columns, and the join along the last axis -/

/-- 256 copies of one [64, 1, 80] piece along axis 1, read at `(p, n, h)`: the piece at `(p, 0, h)`, whatever `n`. -/
theorem tile80_apply (v : FVec Ideal S64x1x80 .f32)
    (hc : Shape.Concatenates ((List.replicate 256 (⟨S64x1x80, v⟩ : (s : Shape) × (s.Idx → Ideal .f32))).map (·.1)) S64x256x80 1)
    (p : Fin 64) (n : Fin 256) (h : Fin 80) :
    concatenate S64x256x80 1 (List.replicate 256 ⟨S64x1x80, v⟩) hc (ix3 p n h) = v (ix3 p (0 : Fin 1) h) := by
  refine concatenate_replicate_apply (t := S64x256x80) (s₁ := S64x1x80) 1 256 v hc rfl (ix3 p n h) (ix3 p (0 : Fin 1) h) ?_ ?_
  · -- the position along the axis, modulo the piece's extent 1, is 0
    show (0 : Nat) = n.val % 1
    omega
  · intro b hb
    match b with
    | ⟨0, _⟩ => rfl
    | ⟨1, _⟩ => exact absurd rfl hb
    | ⟨2, _⟩ => rfl

/-- 256 copies of one [64, 1, 2] piece along axis 1, read at `(p, n, o)`: the piece at `(p, 0, o)`. -/
theorem tile2_apply (v : FVec Ideal S64x1x2 .f32)
    (hc : Shape.Concatenates ((List.replicate 256 (⟨S64x1x2, v⟩ : (s : Shape) × (s.Idx → Ideal .f32))).map (·.1)) S64x256x2 1)
    (p : Fin 64) (n : Fin 256) (o : Fin 2) :
    concatenate S64x256x2 1 (List.replicate 256 ⟨S64x1x2, v⟩) hc (ix3 p n o) = v (ix3 p (0 : Fin 1) o) := by
  refine concatenate_replicate_apply (t := S64x256x2) (s₁ := S64x1x2) 1 256 v hc rfl (ix3 p n o) (ix3 p (0 : Fin 1) o) ?_ ?_
  · show (0 : Nat) = n.val % 1
    omega
  · intro b hb
    match b with
    | ⟨0, _⟩ => rfl
    | ⟨1, _⟩ => exact absurd rfl hb
    | ⟨2, _⟩ => rfl

/-- The sum over the last axis from the zero literal, read at `(p, n)`: `∑ k, src (p, n, k)`. -/
theorem lanesum_apply (src : FVec Ideal S64x256x80 .f32) (hr : S64x256x80.Reduces [2] S64x256) (hφ : FKind.Formats .f32)
    (hacc : (0x00000000#32 : BitVec 32) = FKind.add.neutral .f32 hφ) (p : Fin 64) (n : Fin 256) :
    multiReduction (F := Ideal) .add [2] S64x256 src 0x00000000#32 hr hφ hacc (ix2 p n) = ∑ k : Fin 80, src (ix3 p n k) := by
  refine (Ideal.multiReduction_add_single src 0x00000000#32 hr hφ hacc _).trans ?_
  refine Finset.sum_congr rfl fun k _ => congrArg src ?_
  -- the reduced index with `k` inserted on axis 2 is `(p, n, k)`
  funext a
  apply Fin.ext
  match a with
  | ⟨0, _⟩ => rfl
  | ⟨1, _⟩ => rfl
  | ⟨2, _⟩ => rfl

/-- Column `c` of an 80×2 block (the last-axis slice at offset `c`), reshaped [64,80,1] → [64,80] → [64,1,80] and read
    at `(p, 0, h)`: the block at `(p, h, c)`. The three arrays share row-major positions `p·80 + h`. -/
theorem col_apply (w : FVec Ideal S64x80x2 .f32) (c : Nat) (hs : S64x80x2.Slices ![0, 0, c] S64x80x1)
    (h1 : S64x80x1.ShapeCasts S64x80) (h2 : S64x80.ShapeCasts S64x1x80) (p : Fin 64) (h : Fin 80) (o : Fin 2) (hc : o.val = c) :
    shapeCast S64x1x80 (shapeCast S64x80 (extractStridedSlice S64x80x1 ![0, 0, c] w hs) h1) h2 (ix3 p (0 : Fin 1) h)
      = w (ix3 p h o) := by
  refine (shapeCast_apply _ h2 (ix3 p (0 : Fin 1) h) (ix2 p h) ?_).trans ?_
  · rw [Shape.rowMajor_val_two, Shape.rowMajor_val_three]
    show p.val * 80 + h.val = (p.val * 1 + 0) * 80 + h.val
    omega
  refine (shapeCast_apply _ h1 (ix2 p h) (ix3 p h (0 : Fin 1)) ?_).trans ?_
  · rw [Shape.rowMajor_val_two, Shape.rowMajor_val_three]
    show (p.val * 80 + h.val) * 1 + 0 = p.val * 80 + h.val
    omega
  refine extractStridedSlice_apply _ w hs (ix3 p h (0 : Fin 1)) (ix3 p h o) ?_
  intro a
  match a with
  | ⟨0, _⟩ => show p.val = 0 + p.val; omega
  | ⟨1, _⟩ => show h.val = 0 + h.val; omega
  | ⟨2, _⟩ => show o.val = c + 0; omega

/-- A [64, 256] array given a unit last axis, read at `(p, n, 0)`: the array at `(p, n)`. -/
theorem unit_apply (v : FVec Ideal S64x256 .f32) (hc : S64x256.ShapeCasts S64x256x1) (p : Fin 64) (n : Fin 256) :
    shapeCast S64x256x1 v hc (ix3 p n (0 : Fin 1)) = v (ix2 p n) := by
  refine shapeCast_apply _ hc (ix3 p n (0 : Fin 1)) (ix2 p n) ?_
  rw [Shape.rowMajor_val_two, Shape.rowMajor_val_three]
  show p.val * 256 + n.val = (p.val * 256 + n.val) * 1 + 0
  omega

/-- Two [64, 256, 1] pieces joined along the last axis, read at `(p, n, 0)`: the first piece at `(p, n, 0)`. -/
theorem join_left (a b : FVec Ideal S64x256x1 .f32) (hc : Shape.Concatenates [S64x256x1, S64x256x1] S64x256x2 2)
    (p : Fin 64) (n : Fin 256) :
    concatenate S64x256x2 2 [⟨S64x256x1, a⟩, ⟨S64x256x1, b⟩] hc (ix3 p n (0 : Fin 2)) = a (ix3 p n (0 : Fin 1)) := by
  refine concatenate_pair_apply_left (t := S64x256x2) 2 a b hc (ix3 p n (0 : Fin 2)) rfl (ix3 p n (0 : Fin 1)) ?_
  intro c
  match c with
  | ⟨0, _⟩ => rfl
  | ⟨1, _⟩ => rfl
  | ⟨2, _⟩ => rfl

/-- … and read at `(p, n, 1)`: the second piece at `(p, n, 0)`. -/
theorem join_right (a b : FVec Ideal S64x256x1 .f32) (hc : Shape.Concatenates [S64x256x1, S64x256x1] S64x256x2 2)
    (p : Fin 64) (n : Fin 256) :
    concatenate S64x256x2 2 [⟨S64x256x1, a⟩, ⟨S64x256x1, b⟩] hc (ix3 p n (1 : Fin 2)) = b (ix3 p n (0 : Fin 1)) := by
  refine concatenate_pair_apply_right (t := S64x256x2) 2 a b hc (ix3 p n (1 : Fin 2)) rfl rfl (ix3 p n (0 : Fin 1)) ?_ ?_
  · intro c hcne
    match c with
    | ⟨0, _⟩ => rfl
    | ⟨1, _⟩ => rfl
    | ⟨2, _⟩ => exact absurd rfl hcne
  · rfl

/-! ## The layers -/

/-- One hidden layer of the kernel at `(p, n, k)`: the batched product of the activations with the row's 80×80 block,
    plus the row's bias laid along the points, rectified against the zero splat, is `layerHid θ` of the activations at
    `(p, n, ·)` when row `p` of the block and of the bias hold `θ`'s matrix and bias parts. -/
theorem hid_apply (x : FVec Ideal S64x256x80 .f32) (w : FVec Ideal S64x80x80 .bf16) (b : FVec Ideal S64x1x80 .f32)
    (hlt : FTy.bits .bf16 < FTy.bits .f32)
    (hc : Shape.Concatenates ((List.replicate 256 (⟨S64x1x80, b⟩ : (s : Shape) × (s.Idx → Ideal .f32))).map (·.1)) S64x256x80 1)
    (θ : Fin 6480 → EReal) (p : Fin 64)
    (hm : ∀ h k : Fin 80, w (ix3 p h k) = θ ⟨h.val * 80 + k.val, by have := h.isLt; have := k.isLt; omega⟩)
    (hb : ∀ k : Fin 80, b (ix3 p (0 : Fin 1) k) = θ ⟨6400 + k.val, by have := k.isLt; omega⟩)
    (n : Fin 256) (k : Fin 80) :
    maximumf (addf (matmul bdot none (truncf .bf16 x hlt) w (constant S64x256x80 .f32 0x00000000#32))
        (concatenate S64x256x80 1 (List.replicate 256 ⟨S64x1x80, b⟩) hc))
      (broadcast S64x256x80 (Scalar.ofBits (F := Ideal) .f32 0x00000000#32)) (ix3 p n k)
      = layerHid θ (fun h => x (ix3 p n h)) k := by
  show max (matmul bdot none (truncf .bf16 x hlt) w (constant S64x256x80 .f32 0x00000000#32) (ix3 p n k)
      + concatenate S64x256x80 1 (List.replicate 256 ⟨S64x1x80, b⟩) hc (ix3 p n k)) (Ideal.ofBits .f32 0x00000000#32)
    = max ((∑ h : Fin 80, x (ix3 p n h) * θ ⟨h.val * 80 + k.val, by have := h.isLt; have := k.isLt; omega⟩)
      + θ ⟨6400 + k.val, by have := k.isLt; omega⟩) 0
  rw [bmm_apply, tile80_apply, Ideal.ofBits_zero_f32, hb]
  refine congrArg (fun s => max (s + _) 0) (Finset.sum_congr rfl fun h _ => ?_)
  rw [hm]
  rfl

/-- A row laid 256 times along the points, multiplied into the activations and summed over the 80 lanes, with a unit
    last axis: at `(p, n, 0)` the sum over `h` of the activation at `(p, n, h)` times the row at `(p, 0, h)`. -/
theorem lane_apply (H : FVec Ideal S64x256x80 .f32) (r : FVec Ideal S64x1x80 .f32)
    (hc : Shape.Concatenates ((List.replicate 256 (⟨S64x1x80, r⟩ : (s : Shape) × (s.Idx → Ideal .f32))).map (·.1)) S64x256x80 1)
    (hr : S64x256x80.Reduces [2] S64x256) (hφ : FKind.Formats .f32)
    (hacc : (0x00000000#32 : BitVec 32) = FKind.add.neutral .f32 hφ) (hu : S64x256.ShapeCasts S64x256x1)
    (p : Fin 64) (n : Fin 256) :
    shapeCast S64x256x1 (multiReduction (F := Ideal) .add [2] S64x256
        (mulf H (concatenate S64x256x80 1 (List.replicate 256 ⟨S64x1x80, r⟩) hc)) 0x00000000#32 hr hφ hacc) hu
        (ix3 p n (0 : Fin 1))
      = ∑ h : Fin 80, H (ix3 p n h) * r (ix3 p (0 : Fin 1) h) := by
  refine (unit_apply _ hu p n).trans ?_
  refine (lanesum_apply _ hr hφ hacc p n).trans ?_
  refine Finset.sum_congr rfl fun h _ => ?_
  exact congrArg (H (ix3 p n h) * ·) (tile80_apply r hc p n h)

/-- The last layer of the kernel at `(p, n, o)`: the two lane sums of the activations against the two columns of the
    80×2 block, joined along the last axis, plus the [64, 1, 2] bias laid along the points, is
    `(∑ h, H (p, n, h) · w5 (p, h, o)) + b5 (p, 0, o)`. -/
theorem out_apply (H : FVec Ideal S64x256x80 .f32) (w5 : FVec Ideal S64x80x2 .f32) (b5 : FVec Ideal S64x1x2 .f32)
    (hs0 : S64x80x2.Slices ![0, 0, 0] S64x80x1) (hs1 : S64x80x2.Slices ![0, 0, 1] S64x80x1)
    (h1 : S64x80x1.ShapeCasts S64x80) (h2 : S64x80.ShapeCasts S64x1x80)
    (hc0 : Shape.Concatenates ((List.replicate 256 (⟨S64x1x80, shapeCast S64x1x80 (shapeCast S64x80
      (extractStridedSlice S64x80x1 ![0, 0, 0] w5 hs0) h1) h2⟩ : (s : Shape) × (s.Idx → Ideal .f32))).map (·.1)) S64x256x80 1)
    (hc1 : Shape.Concatenates ((List.replicate 256 (⟨S64x1x80, shapeCast S64x1x80 (shapeCast S64x80
      (extractStridedSlice S64x80x1 ![0, 0, 1] w5 hs1) h1) h2⟩ : (s : Shape) × (s.Idx → Ideal .f32))).map (·.1)) S64x256x80 1)
    (hr : S64x256x80.Reduces [2] S64x256) (hφ : FKind.Formats .f32)
    (hacc : (0x00000000#32 : BitVec 32) = FKind.add.neutral .f32 hφ) (hu : S64x256.ShapeCasts S64x256x1)
    (hj : Shape.Concatenates [S64x256x1, S64x256x1] S64x256x2 2)
    (hcb : Shape.Concatenates ((List.replicate 256 (⟨S64x1x2, b5⟩ : (s : Shape) × (s.Idx → Ideal .f32))).map (·.1)) S64x256x2 1)
    (p : Fin 64) (n : Fin 256) (o : Fin 2) :
    addf (concatenate S64x256x2 2
        [⟨S64x256x1, shapeCast S64x256x1 (multiReduction (F := Ideal) .add [2] S64x256
          (mulf H (concatenate S64x256x80 1 (List.replicate 256 ⟨S64x1x80, shapeCast S64x1x80 (shapeCast S64x80
            (extractStridedSlice S64x80x1 ![0, 0, 0] w5 hs0) h1) h2⟩) hc0)) 0x00000000#32 hr hφ hacc) hu⟩,
         ⟨S64x256x1, shapeCast S64x256x1 (multiReduction (F := Ideal) .add [2] S64x256
          (mulf H (concatenate S64x256x80 1 (List.replicate 256 ⟨S64x1x80, shapeCast S64x1x80 (shapeCast S64x80
            (extractStridedSlice S64x80x1 ![0, 0, 1] w5 hs1) h1) h2⟩) hc1)) 0x00000000#32 hr hφ hacc) hu⟩] hj)
      (concatenate S64x256x2 1 (List.replicate 256 ⟨S64x1x2, b5⟩) hcb) (ix3 p n o)
      = (∑ h : Fin 80, H (ix3 p n h) * w5 (ix3 p h o)) + b5 (ix3 p (0 : Fin 1) o) := by
  refine congrArg₂ (· + ·) ?_ (tile2_apply b5 hcb p n o)
  match o with
  | ⟨0, _⟩ =>
    refine (join_left _ _ hj p n).trans ?_
    refine (lane_apply H _ hc0 hr hφ hacc hu p n).trans ?_
    exact Finset.sum_congr rfl fun h _ => congrArg (H (ix3 p n h) * ·) (col_apply w5 0 hs0 h1 h2 p h ⟨0, by omega⟩ rfl)
  | ⟨1, _⟩ =>
    refine (join_right _ _ hj p n).trans ?_
    refine (lane_apply H _ hc1 hr hφ hacc hu p n).trans ?_
    exact Finset.sum_congr rfl fun h _ => congrArg (H (ix3 p n h) * ·) (col_apply w5 1 hs1 h1 h2 p h ⟨1, by omega⟩ rfl)

/-- Entry `(p, n, o)` of the kernel's result block, given what row `p` of each parameter block holds (`θ1`, `θ2`, `θ5`
    laid out as matrix then bias): the last three layers of the per-row network on the first layer's output at
    `(p, n)`. -/
theorem pay1_apply (v105 : FVec Ideal S64x80x80 .bf16) (v107 : FVec Ideal S64x1x80 .f32) (v110 : FVec Ideal S64x80x80 .bf16)
    (v112 : FVec Ideal S64x1x80 .f32) (v114 : FVec Ideal S64x80x2 .f32) (v116 : FVec Ideal S64x1x2 .f32)
    (v132 : FVec Ideal S64x256x80 .f32) (θ1 θ2 : Fin 6480 → EReal) (θ5 : Fin 162 → EReal) (p : Fin 64)
    (h1m : ∀ h k : Fin 80, v105 (ix3 p h k) = θ1 ⟨h.val * 80 + k.val, by have := h.isLt; have := k.isLt; omega⟩)
    (h1b : ∀ k : Fin 80, v107 (ix3 p (0 : Fin 1) k) = θ1 ⟨6400 + k.val, by have := k.isLt; omega⟩)
    (h2m : ∀ h k : Fin 80, v110 (ix3 p h k) = θ2 ⟨h.val * 80 + k.val, by have := h.isLt; have := k.isLt; omega⟩)
    (h2b : ∀ k : Fin 80, v112 (ix3 p (0 : Fin 1) k) = θ2 ⟨6400 + k.val, by have := k.isLt; omega⟩)
    (h5m : ∀ (h : Fin 80) (o : Fin 2), v114 (ix3 p h o) = θ5 ⟨h.val * 2 + o.val, by have := h.isLt; have := o.isLt; omega⟩)
    (h5b : ∀ o : Fin 2, v116 (ix3 p (0 : Fin 1) o) = θ5 ⟨160 + o.val, by have := o.isLt; omega⟩)
    (n : Fin 256) (o : Fin 2) :
    k0_pay1 (F := Ideal) v105 v107 v110 v112 v114 v116 v132 (ix3 p n o)
      = layerOut θ5 (layerHid θ2 (layerHid θ1 (fun h => v132 (ix3 p n h)))) o := by
  unfold k0_pay1
  -- the last layer over the second hidden layer's activations (a 256-element list repeating one piece is 256 copies of that piece)
  refine (out_apply _ v114 v116 _ _ _ _ _ _ _ _ _ _ _ _ p n o).trans ?_
  show (∑ h : Fin 80, _ * v114 (ix3 p h o)) + v116 (ix3 p (0 : Fin 1) o)
    = (∑ h : Fin 80, layerHid θ2 (layerHid θ1 fun h => v132 (ix3 p n h)) h
        * θ5 ⟨h.val * 2 + o.val, by have := h.isLt; have := o.isLt; omega⟩) + θ5 ⟨160 + o.val, by have := o.isLt; omega⟩
  rw [h5b]
  refine congrArg (· + _) (Finset.sum_congr rfl fun h _ => ?_)
  rw [h5m]
  refine congrArg (· * _) ?_
  -- the second hidden layer over the first's activations, then the first over the input activations
  refine (hid_apply _ v110 v112 _ _ θ2 p h2m h2b n h).trans ?_
  refine congrArg (fun f => layerHid θ2 f h) (funext fun k => ?_)
  exact hid_apply v132 v105 v107 _ _ θ1 p h1m h1b n k

end Cert.KernelIdeal.Bridge

end
-- ==== Proof.KRot.lean ====
/-
  The kernel's second result at one block row: `w` regrouped as 8 pairs, the pairs' first and second entries
  combined with the two halves of `a`, and the two combinations interleaved again.
-/
import proofs.«419183_j88055419503310_4_alg».proof.Proof.Gen.KernelIdeal.Skeleton
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Cert.KernelIdeal Cert.KernelIdeal.Gen Cert.HyperMlp Idealize.ShloMosaic Idealize.ShloMosaic.ValueIdx

/-! ### Reshapes, slices and the two-piece concatenation read at an index -/

/-- An `[m, 1, n]` array reshaped to `[m, n]` reads, at `(p, q)`, the array at `(p, 0, q)`. -/
private theorem cast_m1n_mn_apply {α : Type} {m n : Nat} (x : (⟨3, ![m, 1, n]⟩ : Shape).Idx → α)
    (hc : (⟨3, ![m, 1, n]⟩ : Shape).ShapeCasts ⟨2, ![m, n]⟩) (p : Fin m) (q : Fin n) :
    shapeCast ⟨2, ![m, n]⟩ x hc (ix2 p q) = x (ix3 p (0 : Fin 1) q) :=
  shapeCast_apply x hc _ _ (by
    rw [Shape.rowMajor_val_three, Shape.rowMajor_val_two]
    show (p.val * 1 + 0) * n + q.val = p.val * n + q.val
    rw [Nat.mul_one, Nat.add_zero])

/-- An `[m, n]` array reshaped to `[m, 1, n]` reads, at `(p, u, q)`, the array at `(p, q)`. -/
private theorem cast_mn_m1n_apply {α : Type} {m n : Nat} (x : (⟨2, ![m, n]⟩ : Shape).Idx → α)
    (hc : (⟨2, ![m, n]⟩ : Shape).ShapeCasts ⟨3, ![m, 1, n]⟩) (p : Fin m) (u : Fin 1) (q : Fin n) :
    shapeCast ⟨3, ![m, 1, n]⟩ x hc (ix3 p u q) = x (ix2 p q) :=
  shapeCast_apply x hc _ _ (by
    have hu : u.val = 0 := by omega
    rw [Shape.rowMajor_val_two, Shape.rowMajor_val_three]
    show p.val * n + q.val = (p.val * 1 + u.val) * n + q.val
    rw [hu, Nat.mul_one, Nat.add_zero])

/-- An `[m, a · b]` array reshaped row-major to `[m, a, b]` reads, at `(p, i, r)`, the array at `(p, i · b + r)`. -/
private theorem cast_split_apply {α : Type} {m n a b : Nat} (x : (⟨2, ![m, n]⟩ : Shape).Idx → α)
    (hc : (⟨2, ![m, n]⟩ : Shape).ShapeCasts ⟨3, ![m, a, b]⟩) (hn : n = a * b) (p : Fin m) (i : Fin a) (r : Fin b)
    (hlt : i.val * b + r.val < n) :
    shapeCast ⟨3, ![m, a, b]⟩ x hc (ix3 p i r) = x (ix2 p ⟨i.val * b + r.val, hlt⟩) :=
  shapeCast_apply x hc _ _ (by
    rw [Shape.rowMajor_val_two, Shape.rowMajor_val_three]
    show p.val * n + (i.val * b + r.val) = (p.val * a + i.val) * b + r.val
    rw [hn, Nat.add_mul, Nat.mul_assoc, Nat.add_assoc])

/-- An `[m, a, b]` array reshaped row-major to `[m, a · b]` reads, at `(p, i · b + r)`, the array at `(p, i, r)`. -/
private theorem cast_merge_apply {α : Type} {m n a b : Nat} (x : (⟨3, ![m, a, b]⟩ : Shape).Idx → α)
    (hc : (⟨3, ![m, a, b]⟩ : Shape).ShapeCasts ⟨2, ![m, n]⟩) (hn : n = a * b) (p : Fin m) (i : Fin a) (r : Fin b)
    (hlt : i.val * b + r.val < n) :
    shapeCast ⟨2, ![m, n]⟩ x hc (ix2 p ⟨i.val * b + r.val, hlt⟩) = x (ix3 p i r) :=
  shapeCast_apply x hc _ _ (by
    rw [Shape.rowMajor_val_three, Shape.rowMajor_val_two]
    show (p.val * a + i.val) * b + r.val = p.val * n + (i.val * b + r.val)
    rw [hn, Nat.add_mul, Nat.mul_assoc, Nat.add_assoc])

/-- An `[m, a, 1]` array reshaped to `[m, a]` reads, at `(p, i)`, the array at `(p, i, 0)`. -/
private theorem cast_ma1_ma_apply {α : Type} {m a : Nat} (x : (⟨3, ![m, a, 1]⟩ : Shape).Idx → α)
    (hc : (⟨3, ![m, a, 1]⟩ : Shape).ShapeCasts ⟨2, ![m, a]⟩) (p : Fin m) (i : Fin a) :
    shapeCast ⟨2, ![m, a]⟩ x hc (ix2 p i) = x (ix3 p i (0 : Fin 1)) :=
  shapeCast_apply x hc _ _ (by
    rw [Shape.rowMajor_val_three, Shape.rowMajor_val_two]
    show (p.val * a + i.val) * 1 + 0 = p.val * a + i.val
    rw [Nat.mul_one, Nat.add_zero])

/-- An `[m, a]` array reshaped to `[m, a, 1]` reads, at `(p, i, u)`, the array at `(p, i)`. -/
private theorem cast_ma_ma1_apply {α : Type} {m a : Nat} (x : (⟨2, ![m, a]⟩ : Shape).Idx → α)
    (hc : (⟨2, ![m, a]⟩ : Shape).ShapeCasts ⟨3, ![m, a, 1]⟩) (p : Fin m) (i : Fin a) (u : Fin 1) :
    shapeCast ⟨3, ![m, a, 1]⟩ x hc (ix3 p i u) = x (ix2 p i) :=
  shapeCast_apply x hc _ _ (by
    have hu : u.val = 0 := by omega
    rw [Shape.rowMajor_val_two, Shape.rowMajor_val_three]
    show p.val * a + i.val = (p.val * a + i.val) * 1 + u.val
    rw [hu, Nat.mul_one, Nat.add_zero])

/-- A slice of columns `c … c + w - 1` of an `[m, n]` array reads, at `(p, q)`, the array at `(p, c + q)`. -/
private theorem sliceCols_apply {α : Type} {m n w : Nat} (c : Nat) (x : (⟨2, ![m, n]⟩ : Shape).Idx → α)
    (hs : (⟨2, ![m, n]⟩ : Shape).Slices ![0, c] ⟨2, ![m, w]⟩) (p : Fin m) (q : Fin w) (hlt : c + q.val < n) :
    extractStridedSlice ⟨2, ![m, w]⟩ ![0, c] x hs (ix2 p q) = x (ix2 p ⟨c + q.val, hlt⟩) :=
  extractStridedSlice_apply _ x hs _ _ fun a => match a with
    | ⟨0, _⟩ => by show p.val = 0 + p.val; omega
    | ⟨1, _⟩ => by show c + q.val = c + q.val; rfl

/-- The slice of an `[m, a, b]` array that keeps entry `c` of the last axis reads, at `(p, i, u)`, the array at `(p, i, c)`. -/
private theorem sliceLast_apply {α : Type} {m a b : Nat} (c : Nat) (hc : c < b) (x : (⟨3, ![m, a, b]⟩ : Shape).Idx → α)
    (hs : (⟨3, ![m, a, b]⟩ : Shape).Slices ![0, 0, c] ⟨3, ![m, a, 1]⟩) (p : Fin m) (i : Fin a) (u : Fin 1) :
    extractStridedSlice ⟨3, ![m, a, 1]⟩ ![0, 0, c] x hs (ix3 p i u) = x (ix3 p i ⟨c, hc⟩) :=
  extractStridedSlice_apply _ x hs _ _ fun d => match d with
    | ⟨0, _⟩ => by show p.val = 0 + p.val; omega
    | ⟨1, _⟩ => by show i.val = 0 + i.val; omega
    | ⟨2, _⟩ => by have hu : u.val = 0 := by omega
                   show c = c + u.val; omega

/-- Two `[m, a, 1]` arrays joined along the last axis: entry `(p, i, 0)` is the first array's `(p, i, 0)`. -/
private theorem concatLast_fst {α : Type} {m a : Nat} (x₁ x₂ : (⟨3, ![m, a, 1]⟩ : Shape).Idx → α)
    (h : Shape.Concatenates [(⟨3, ![m, a, 1]⟩ : Shape), ⟨3, ![m, a, 1]⟩] ⟨3, ![m, a, 2]⟩ (2 : Fin 3))
    (p : Fin m) (i : Fin a) :
    concatenate ⟨3, ![m, a, 2]⟩ (2 : Fin 3) [⟨⟨3, ![m, a, 1]⟩, x₁⟩, ⟨⟨3, ![m, a, 1]⟩, x₂⟩] h (ix3 p i (0 : Fin 2))
      = x₁ (ix3 p i (0 : Fin 1)) :=
  concatenate_pair_apply_left (t := ⟨3, ![m, a, 2]⟩) (s₁ := ⟨3, ![m, a, 1]⟩) (s₂ := ⟨3, ![m, a, 1]⟩) (2 : Fin 3) x₁ x₂ h
    (ix3 p i (0 : Fin 2)) rfl (ix3 p i (0 : Fin 1)) fun b => match b with
    | ⟨0, _⟩ => rfl
    | ⟨1, _⟩ => rfl
    | ⟨2, _⟩ => rfl

/-- Two `[m, a, 1]` arrays joined along the last axis: entry `(p, i, 1)` is the second array's `(p, i, 0)`. -/
private theorem concatLast_snd {α : Type} {m a : Nat} (x₁ x₂ : (⟨3, ![m, a, 1]⟩ : Shape).Idx → α)
    (h : Shape.Concatenates [(⟨3, ![m, a, 1]⟩ : Shape), ⟨3, ![m, a, 1]⟩] ⟨3, ![m, a, 2]⟩ (2 : Fin 3))
    (p : Fin m) (i : Fin a) :
    concatenate ⟨3, ![m, a, 2]⟩ (2 : Fin 3) [⟨⟨3, ![m, a, 1]⟩, x₁⟩, ⟨⟨3, ![m, a, 1]⟩, x₂⟩] h (ix3 p i (1 : Fin 2))
      = x₂ (ix3 p i (0 : Fin 1)) :=
  concatenate_pair_apply_right (t := ⟨3, ![m, a, 2]⟩) (s₁ := ⟨3, ![m, a, 1]⟩) (s₂ := ⟨3, ![m, a, 1]⟩) (2 : Fin 3) x₁ x₂ h
    (ix3 p i (1 : Fin 2)) rfl rfl (ix3 p i (0 : Fin 1))
    (fun b => match b with
      | ⟨0, _⟩ => fun _ => rfl
      | ⟨1, _⟩ => fun _ => rfl
      | ⟨2, _⟩ => fun hb => absurd rfl hb)
    rfl

/-! ### The kernel's computation at one block row -/

/-- Entry `c` (`0` or `1`) of pair `i` of row `p` of a `[64, 1, 16]` block, as the kernel extracts it: the block's
    entry `(p, 0, 2 i + c)`. -/
private theorem pairEntry_apply (v0 : FVec Ideal S64x1x16 .f32) (h0 : S64x1x16.ShapeCasts S64x16)
    (h1 : S64x16.ShapeCasts S64x8x2) (c : Nat) (hc : c < 2) (h2 : S64x8x2.Slices ![0, 0, c] S64x8x1)
    (h3 : S64x8x1.ShapeCasts S64x8) (p : Fin 64) (i : Fin 8) :
    shapeCast S64x8 (extractStridedSlice S64x8x1 ![0, 0, c] (shapeCast S64x8x2 (shapeCast S64x16 v0 h0) h1) h2) h3 (ix2 p i)
      = v0 (ix3 p (0 : Fin 1) ⟨i.val * 2 + c, by have := i.isLt; omega⟩) := by
  refine (cast_ma1_ma_apply _ _ p i).trans ?_
  refine (sliceLast_apply c hc _ _ p i 0).trans ?_
  refine (cast_split_apply _ _ rfl p i ⟨c, hc⟩ (by have := i.isLt; show i.val * 2 + c < 16; omega)).trans ?_
  exact cast_m1n_mn_apply _ _ p _

/-- Entry `i` of the half of row `p` of a `[64, 1, 16]` block that starts at column `c`: the block's entry `(p, 0, c + i)`. -/
private theorem halfEntry_apply (v2 : FVec Ideal S64x1x16 .f32) (h0 : S64x1x16.ShapeCasts S64x16) (c : Nat)
    (h1 : S64x16.Slices ![0, c] S64x8) (p : Fin 64) (i : Fin 8) (hlt : c + i.val < 16) :
    extractStridedSlice S64x8 ![0, c] (shapeCast S64x16 v2 h0) h1 (ix2 p i) = v2 (ix3 p (0 : Fin 1) ⟨c + i.val, hlt⟩) := by
  refine (sliceCols_apply c _ _ p i hlt).trans ?_
  exact cast_m1n_mn_apply _ _ p _

/-- The two reshapes that end the computation: entry `(p, 0, 2 i + r)` of the result is entry `(p, i, r)` of the
    `[64, 8, 2]` array they start from. -/
private theorem interleaved_apply (x : FVec Ideal S64x8x2 .f32) (h1 : S64x8x2.ShapeCasts S64x16)
    (h2 : S64x16.ShapeCasts S64x1x16) (p : Fin 64) (i : Fin 8) (r : Fin 2) (hlt : i.val * 2 + r.val < 16) :
    shapeCast S64x1x16 (shapeCast S64x16 x h1) h2 (ix3 p (0 : Fin 1) ⟨i.val * 2 + r.val, hlt⟩) = x (ix3 p i r) := by
  refine (cast_mn_m1n_apply _ _ p 0 _).trans ?_
  exact cast_merge_apply _ _ rfl p i r hlt

/-- An even entry `2 i` of the result row: `w₂ᵢ · aᵢ + w₂ᵢ₊₁ · a₈₊ᵢ`. -/
private theorem pay3_even (v0 v2 : FVec Ideal S64x1x16 .f32) (p : Fin 64) (i : Fin 8) :
    k0_pay3 (F := Ideal) v0 v2 (ix3 p (0 : Fin 1) ⟨i.val * 2 + (0 : Fin 2).val, by have := i.isLt; show i.val * 2 + 0 < 16; omega⟩)
      = v0 (ix3 p (0 : Fin 1) ⟨i.val * 2 + 0, by have := i.isLt; omega⟩) * v2 (ix3 p (0 : Fin 1) ⟨0 + i.val, by have := i.isLt; omega⟩)
        + v0 (ix3 p (0 : Fin 1) ⟨i.val * 2 + 1, by have := i.isLt; omega⟩) * v2 (ix3 p (0 : Fin 1) ⟨8 + i.val, by have := i.isLt; omega⟩) := by
  unfold k0_pay3 k0_pay2
  refine (interleaved_apply _ _ _ p i 0 _).trans ?_
  refine (concatLast_fst _ _ _ p i).trans ?_
  refine (cast_ma_ma1_apply _ _ p i 0).trans ?_
  refine (addf_apply _ _ _).trans ?_
  refine congrArg₂ (· + ·) ?_ ?_
  · refine (mulf_apply _ _ _).trans ?_
    exact congrArg₂ (· * ·) (pairEntry_apply v0 _ _ 0 (by omega) _ _ p i) (halfEntry_apply v2 _ 0 _ p i _)
  · refine (mulf_apply _ _ _).trans ?_
    exact congrArg₂ (· * ·) (pairEntry_apply v0 _ _ 1 (by omega) _ _ p i) (halfEntry_apply v2 _ 8 _ p i _)

/-- An odd entry `2 i + 1` of the result row: `w₂ᵢ₊₁ · aᵢ - w₂ᵢ · a₈₊ᵢ`. -/
private theorem pay3_odd (v0 v2 : FVec Ideal S64x1x16 .f32) (p : Fin 64) (i : Fin 8) :
    k0_pay3 (F := Ideal) v0 v2 (ix3 p (0 : Fin 1) ⟨i.val * 2 + (1 : Fin 2).val, by have := i.isLt; show i.val * 2 + 1 < 16; omega⟩)
      = v0 (ix3 p (0 : Fin 1) ⟨i.val * 2 + 1, by have := i.isLt; omega⟩) * v2 (ix3 p (0 : Fin 1) ⟨0 + i.val, by have := i.isLt; omega⟩)
        - v0 (ix3 p (0 : Fin 1) ⟨i.val * 2 + 0, by have := i.isLt; omega⟩) * v2 (ix3 p (0 : Fin 1) ⟨8 + i.val, by have := i.isLt; omega⟩) := by
  unfold k0_pay3 k0_pay2
  refine (interleaved_apply _ _ _ p i 1 _).trans ?_
  refine (concatLast_snd _ _ _ p i).trans ?_
  refine (cast_ma_ma1_apply _ _ p i 0).trans ?_
  refine (subf_apply _ _ _).trans ?_
  refine congrArg₂ (· - ·) ?_ ?_
  · refine (mulf_apply _ _ _).trans ?_
    exact congrArg₂ (· * ·) (pairEntry_apply v0 _ _ 1 (by omega) _ _ p i) (halfEntry_apply v2 _ 0 _ p i _)
  · refine (mulf_apply _ _ _).trans ?_
    exact congrArg₂ (· * ·) (pairEntry_apply v0 _ _ 0 (by omega) _ _ p i) (halfEntry_apply v2 _ 8 _ p i _)

/-- An even entry of the result row is the real part of the product. -/
private theorem pay3_re (v0 v2 : FVec Ideal S64x1x16 .f32) (p : Fin 64) (i : Fin 8) (j : Fin 16) (hji : j.val = i.val * 2) :
    k0_pay3 (F := Ideal) v0 v2 (ix3 p (0 : Fin 1) j)
      = rotRe (fun k => v0 (ix3 p (0 : Fin 1) k)) (fun k => v2 (ix3 p (0 : Fin 1) k)) i := by
  have hi := i.isLt
  have hb : i.val * 2 + (0 : Fin 2).val < 16 := by show i.val * 2 + 0 < 16; omega
  have e : j = ⟨i.val * 2 + (0 : Fin 2).val, hb⟩ := Fin.ext (by show j.val = i.val * 2 + 0; omega)
  rw [e]
  refine (pay3_even v0 v2 p i).trans ?_
  unfold rotRe
  refine congrArg₂ (· + ·) (congrArg₂ (· * ·) ?_ ?_) (congrArg₂ (· * ·) ?_ ?_)
  · exact congrArg v0 (congrArg (ix3 p (0 : Fin 1)) (Fin.ext (show i.val * 2 + 0 = 2 * i.val by omega)))
  · exact congrArg v2 (congrArg (ix3 p (0 : Fin 1)) (Fin.ext (show 0 + i.val = i.val by omega)))
  · exact congrArg v0 (congrArg (ix3 p (0 : Fin 1)) (Fin.ext (show i.val * 2 + 1 = 2 * i.val + 1 by omega)))
  · exact congrArg v2 (congrArg (ix3 p (0 : Fin 1)) (Fin.ext (show 8 + i.val = 8 + i.val from rfl)))

/-- An odd entry of the result row is the imaginary part of the product. -/
private theorem pay3_im (v0 v2 : FVec Ideal S64x1x16 .f32) (p : Fin 64) (i : Fin 8) (j : Fin 16) (hji : j.val = i.val * 2 + 1) :
    k0_pay3 (F := Ideal) v0 v2 (ix3 p (0 : Fin 1) j)
      = rotIm (fun k => v0 (ix3 p (0 : Fin 1) k)) (fun k => v2 (ix3 p (0 : Fin 1) k)) i := by
  have hi := i.isLt
  have hb : i.val * 2 + (1 : Fin 2).val < 16 := by show i.val * 2 + 1 < 16; omega
  have e : j = ⟨i.val * 2 + (1 : Fin 2).val, hb⟩ := Fin.ext (by show j.val = i.val * 2 + 1; omega)
  rw [e]
  refine (pay3_odd v0 v2 p i).trans ?_
  unfold rotIm
  refine congrArg₂ (· - ·) (congrArg₂ (· * ·) ?_ ?_) (congrArg₂ (· * ·) ?_ ?_)
  · exact congrArg v0 (congrArg (ix3 p (0 : Fin 1)) (Fin.ext (show i.val * 2 + 1 = 2 * i.val + 1 by omega)))
  · exact congrArg v2 (congrArg (ix3 p (0 : Fin 1)) (Fin.ext (show 0 + i.val = i.val by omega)))
  · exact congrArg v0 (congrArg (ix3 p (0 : Fin 1)) (Fin.ext (show i.val * 2 + 0 = 2 * i.val by omega)))
  · exact congrArg v2 (congrArg (ix3 p (0 : Fin 1)) (Fin.ext (show 8 + i.val = 8 + i.val from rfl)))

/-- Entry `(p, 0, j)` of the kernel's second result block: `dw` of row `p` of the `w` and `a` blocks. -/
theorem pay3_apply (v0 v2 : FVec Ideal S64x1x16 .f32) (p : Fin 64) (j : Fin 16) :
    k0_pay3 (F := Ideal) v0 v2 (ix3 p (0 : Fin 1) j)
      = dw (fun k => v0 (ix3 p (0 : Fin 1) k)) (fun k => v2 (ix3 p (0 : Fin 1) k)) j := by
  have hj := j.isLt
  unfold dw
  by_cases hpar : j.val % 2 = 0
  · -- `j = 2 i`: the real part
    rw [if_pos hpar]
    exact pay3_re v0 v2 p ⟨j.val / 2, by omega⟩ j (by show j.val = j.val / 2 * 2; omega)
  · -- `j = 2 i + 1`: the imaginary part
    rw [if_neg hpar]
    exact pay3_im v0 v2 p ⟨j.val / 2, by omega⟩ j (by show j.val = j.val / 2 * 2 + 1; omega)

end Cert.KernelIdeal.Bridge

end
-- ==== Proof.KOut.lean ====
/-
  One block of the kernel's two results, entry by entry, as the specification's functions of the block's inputs:
  the first result at (row p, point n, coordinate o) is `dy` of the weights, row p of the `w` block and point n of
  row p of the point block; the second at (row p, entry j) is `dw` of row p of the `w` and `a` blocks.
-/
import proofs.«419183_j88055419503310_4_alg».proof.Proof.Gen.KernelIdeal.Frame
import proofs.«419183_j88055419503310_4_alg».proof.Proof.KEnc
import proofs.«419183_j88055419503310_4_alg».proof.Proof.KHeadsOne
import proofs.«419183_j88055419503310_4_alg».proof.Proof.KHeadsTwo
import proofs.«419183_j88055419503310_4_alg».proof.Proof.KParams
import proofs.«419183_j88055419503310_4_alg».proof.Proof.KLayerIn
import proofs.«419183_j88055419503310_4_alg».proof.Proof.KLayers
import proofs.«419183_j88055419503310_4_alg».proof.Proof.KRot

noncomputable section

namespace Cert.KernelIdeal.Bridge

open Cert.KernelIdeal Cert.KernelIdeal.Gen Cert.HyperMlp Idealize.ShloMosaic Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The hypernetwork's weights as the sixteen weight arrays hold them (matrices and bias vectors). -/
def kW (x3 : FVec Ideal S16x50 .bf16) (x4 : FVec Ideal S50 .f32) (x5 : FVec Ideal S50x200 .bf16) (x6 : FVec Ideal S200 .f32) (x7 : FVec Ideal S50x240 .bf16) (x8 : FVec Ideal S240 .f32) (x9 : FVec Ideal S50x50 .bf16) (x10 : FVec Ideal S50 .f32) (x11 : FVec Ideal S50x6480 .bf16) (x12 : FVec Ideal S6480 .f32) (x13 : FVec Ideal S50x50 .bf16) (x14 : FVec Ideal S50 .f32) (x15 : FVec Ideal S50x6480 .bf16) (x16 : FVec Ideal S6480 .f32) (x17 : FVec Ideal S50x162 .bf16) (x18 : FVec Ideal S162 .f32) : Weights where
  encW1 := mat x3
  encb1 := vec x4
  encW2 := mat x5
  encb2 := vec x6
  e0W := mat x7
  e0b := vec x8
  e1W1 := mat x9
  e1b1 := vec x10
  e1W2 := mat x11
  e1b2 := vec x12
  e2W1 := mat x13
  e2b1 := vec x14
  e2W2 := mat x15
  e2b2 := vec x16
  e5W := mat x17
  e5b := vec x18

/-- The first result's block at `(p, n, o)`. -/
theorem out19_apply (x0 : FVec Ideal S64x256x2 .f32) (x1 : FVec Ideal S64x1x16 .f32) (x2 : FVec Ideal S64x1x16 .f32) (x3 : FVec Ideal S16x50 .bf16) (x4 : FVec Ideal S50 .f32) (x5 : FVec Ideal S50x200 .bf16) (x6 : FVec Ideal S200 .f32) (x7 : FVec Ideal S50x240 .bf16) (x8 : FVec Ideal S240 .f32) (x9 : FVec Ideal S50x50 .bf16) (x10 : FVec Ideal S50 .f32) (x11 : FVec Ideal S50x6480 .bf16) (x12 : FVec Ideal S6480 .f32) (x13 : FVec Ideal S50x50 .bf16) (x14 : FVec Ideal S50 .f32) (x15 : FVec Ideal S50x6480 .bf16) (x16 : FVec Ideal S6480 .f32) (x17 : FVec Ideal S50x162 .bf16) (x18 : FVec Ideal S162 .f32) (p : Fin 64) (n : Fin 256) (o : Fin 2) :
    out0_19 (F := Ideal) x0 x1 x2 x3 x4 x5 x6 x7 x8 x9 x10 x11 x12 x13 x14 x15 x16 x17 x18 (ix3 p n o)
      = dy (kW x3 x4 x5 x6 x7 x8 x9 x10 x11 x12 x13 x14 x15 x16 x17 x18) (fun k => x1 (ix3 p (0 : Fin 1) k)) (fun d => x0 (ix3 p n d)) o := by
  unfold out0_19
  rw [View.canon_unit_zero hz3]
  simp only [View.ld_unit_zero (S := S64x1x16) hz3, View.ld_unit_zero (S := S64x256x2) hz3, View.ld_unit_zero (S := S16x50) hz2,
    View.ld_unit_zero (S := S50x200) hz2, View.ld_unit_zero (S := S50x240) hz2, View.ld_unit_zero (S := S50x50) hz2,
    View.ld_unit_zero (S := S50x6480) hz2, View.ld_unit_zero (S := S50x162) hz2, View.ld_unit_zero (S := S50) hz1,
    View.ld_unit_zero (S := S200) hz1, View.ld_unit_zero (S := S240) hz1, View.ld_unit_zero (S := S6480) hz1,
    View.ld_unit_zero (S := S162) hz1]
  -- the row's code, then each parameter vector as a head of it
  have hc : (fun k : Fin 200 => k0_pay6 (F := Ideal) (k0_pay4 (F := Ideal) x1 x3 x4 x5) (k0_pay5 (F := Ideal) x6) (ix2 p k))
      = code (kW x3 x4 x5 x6 x7 x8 x9 x10 x11 x12 x13 x14 x15 x16 x17 x18) (fun k => x1 (ix3 p (0 : Fin 1) k)) :=
    funext fun k => enc_apply x1 x3 x4 x5 x6 p k
  have h0 : (fun j : Fin 240 => k0_pay7 (F := Ideal) (k0_pay4 (F := Ideal) x1 x3 x4 x5) (k0_pay5 (F := Ideal) x6) x7 x8 (ix2 p j))
      = head1 (mat x7) (vec x8) (code (kW x3 x4 x5 x6 x7 x8 x9 x10 x11 x12 x13 x14 x15 x16 x17 x18) (fun k => x1 (ix3 p (0 : Fin 1) k))) 0 (by omega) :=
    funext fun j => (th0_apply _ _ x7 x8 p j).trans (by rw [hc])
  have h1 : ∀ j : Fin 6480, k0_pay8 (F := Ideal) (k0_pay4 (F := Ideal) x1 x3 x4 x5) (k0_pay5 (F := Ideal) x6) x9 x10 x11 x12 (ix2 p j)
      = head2 (mat x9) (vec x10) (mat x11) (vec x12) (code (kW x3 x4 x5 x6 x7 x8 x9 x10 x11 x12 x13 x14 x15 x16 x17 x18) (fun k => x1 (ix3 p (0 : Fin 1) k))) 50 (by omega) j :=
    fun j => (th1_apply _ _ x9 x10 x11 x12 p j).trans (by rw [hc])
  have h2 : ∀ j : Fin 6480, k0_pay10 (F := Ideal) (k0_pay9 (F := Ideal) (k0_pay4 (F := Ideal) x1 x3 x4 x5) (k0_pay5 (F := Ideal) x6) x13 x14) x15 x16 (ix2 p j)
      = head2 (mat x13) (vec x14) (mat x15) (vec x16) (code (kW x3 x4 x5 x6 x7 x8 x9 x10 x11 x12 x13 x14 x15 x16 x17 x18) (fun k => x1 (ix3 p (0 : Fin 1) k))) 100 (by omega) j :=
    fun j => (th2_apply _ _ x13 x14 x15 x16 p j).trans (by rw [hc])
  have h5 : ∀ j : Fin 162, k0_pay11 (F := Ideal) (k0_pay6 (F := Ideal) (k0_pay4 (F := Ideal) x1 x3 x4 x5) (k0_pay5 (F := Ideal) x6)) x17 x18 (ix2 p j)
      = head1 (mat x17) (vec x18) (code (kW x3 x4 x5 x6 x7 x8 x9 x10 x11 x12 x13 x14 x15 x16 x17 x18) (fun k => x1 (ix3 p (0 : Fin 1) k))) 150 (by omega) j :=
    fun j => (th5_apply _ x17 x18 p j).trans (by rw [hc])
  refine (pay1_apply _ _ _ _ _ _ _ _ _ _ p
    (fun h k => (pay12_apply _ p h k).trans (h1 _)) (fun k => (pay13_apply _ p k).trans (h1 _))
    (fun h k => (pay14_apply _ x15 x16 p h k).trans (h2 _)) (fun k => (pay15_apply _ x15 x16 p k).trans (h2 _))
    (fun h o => (pay16_apply _ x17 x18 p h o).trans (h5 _)) (fun o => (pay17_apply _ x17 x18 p o).trans (h5 _)) n o).trans ?_
  have hin : (fun h : Fin 80 => k0_pay18 (F := Ideal) (k0_pay7 (F := Ideal) (k0_pay4 (F := Ideal) x1 x3 x4 x5) (k0_pay5 (F := Ideal) x6) x7 x8) x0 (ix3 p n h))
      = layerIn (head1 (mat x7) (vec x8) (code (kW x3 x4 x5 x6 x7 x8 x9 x10 x11 x12 x13 x14 x15 x16 x17 x18) (fun k => x1 (ix3 p (0 : Fin 1) k))) 0 (by omega)) (fun d => x0 (ix3 p n d)) :=
    funext fun h => (pay18_apply _ x0 p n h).trans (by rw [h0])
  rw [hin]
  rfl

/-- The second result's block at `(p, 0, j)`. -/
theorem out20_apply (x0 : FVec Ideal S64x256x2 .f32) (x1 : FVec Ideal S64x1x16 .f32) (x2 : FVec Ideal S64x1x16 .f32) (x3 : FVec Ideal S16x50 .bf16) (x4 : FVec Ideal S50 .f32) (x5 : FVec Ideal S50x200 .bf16) (x6 : FVec Ideal S200 .f32) (x7 : FVec Ideal S50x240 .bf16) (x8 : FVec Ideal S240 .f32) (x9 : FVec Ideal S50x50 .bf16) (x10 : FVec Ideal S50 .f32) (x11 : FVec Ideal S50x6480 .bf16) (x12 : FVec Ideal S6480 .f32) (x13 : FVec Ideal S50x50 .bf16) (x14 : FVec Ideal S50 .f32) (x15 : FVec Ideal S50x6480 .bf16) (x16 : FVec Ideal S6480 .f32) (x17 : FVec Ideal S50x162 .bf16) (x18 : FVec Ideal S162 .f32) (p : Fin 64) (j : Fin 16) :
    out0_20 (F := Ideal) x0 x1 x2 x3 x4 x5 x6 x7 x8 x9 x10 x11 x12 x13 x14 x15 x16 x17 x18 (ix3 p (0 : Fin 1) j)
      = dw (fun k => x1 (ix3 p (0 : Fin 1) k)) (fun k => x2 (ix3 p (0 : Fin 1) k)) j := by
  unfold out0_20
  rw [View.canon_unit_zero hz3]
  simp only [View.ld_unit_zero (S := S64x1x16) hz3]
  exact pay3_apply x1 x2 p j

end Cert.KernelIdeal.Bridge

end
-- ==== Proof.KRun.lean ====
/-
  The kernel's run with its results named. What point t writes back is block t of the whole-array functions
  `dyArr` / `dwArr` of the arguments (entry by entry: the block's payload is the specification's function of the
  block's inputs, and the block's inputs are rows 64 t … 64 t + 63 of the arguments and the whole weight arrays);
  the 64 blocks tile each result, so each result array ends at that function. The third result is written by the
  host after the region from a zero literal alone.
-/
import proofs.«419183_j88055419503310_4_alg».proof.Proof.KBlocks
import proofs.«419183_j88055419503310_4_alg».proof.Proof.KOut

set_option maxRecDepth 16384

noncomputable section

namespace Cert.KernelIdeal.Bridge

open Cert.KernelIdeal Cert.KernelIdeal.Gen Cert.HyperMlp Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The weights every point's blocks hold are the launched weights. -/
theorem kW_blocks (c : Dev nD) (t : Fin cfg0.N) : kW (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) = argP m c := by
  rw [blk3_eq m c t, blk4_eq m c t, blk5_eq m c t, blk6_eq m c t, blk7_eq m c t, blk8_eq m c t, blk9_eq m c t, blk10_eq m c t,
    blk11_eq m c t, blk12_eq m c t, blk13_eq m c t, blk14_eq m c t, blk15_eq m c t, blk16_eq m c t, blk17_eq m c t, blk18_eq m c t]
  rfl

/-- What point t writes back to the first result is block t of `dyArr` of the arguments. -/
theorem flushed19_eq (c : Dev nD) (t : Fin cfg0.N) :
    (dats m 0 c).flushed 19 t = ((cfg0.win 19).blk t).view.read (Elt Ideal) (dyArr (argP m c) (argW m c) (argY m c)) := by
  show (cfg0.win 19).cut (grid0.coords t) ((dats m 0 c).after 19 t) = _
  rw [after0_19]
  funext y
  obtain ⟨p, n, o, rfl⟩ : ∃ (p : Fin 64) (n : Fin 256) (o : Fin 2), y = ix3 p n o := ⟨y 0, y 1, y 2, eq_ix3 y⟩
  have hb : 64 * t.val + p.val < 4096 := by have := t_lt t; have := p.isLt; omega
  rw [View.read_apply, emb19 t p n o ⟨64 * t.val + p.val, hb⟩ rfl, dyArr_ix3]
  show out0_19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 p n o) = _
  refine (out19_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p n o).trans ?_
  have hw : (fun k : Fin 16 => (iblk m c 1 t : FVec Ideal S64x1x16 .f32) (ix3 p (0 : Fin 1) k))
      = fun k => argW m c (ix3 (⟨64 * t.val + p.val, hb⟩ : Fin 4096) (0 : Fin 1) k) :=
    funext fun k => blkW_apply m c t p k _ rfl
  have hy : (fun d : Fin 2 => (iblk m c 0 t : FVec Ideal S64x256x2 .f32) (ix3 p n d))
      = fun d => argY m c (ix3 (⟨64 * t.val + p.val, hb⟩ : Fin 4096) n d) :=
    funext fun d => blkY_apply m c t p n d _ rfl
  rw [kW_blocks m c t, hw, hy]
  rfl

/-- What point t writes back to the second result is block t of `dwArr` of the arguments. -/
theorem flushed20_eq (c : Dev nD) (t : Fin cfg0.N) :
    (dats m 0 c).flushed 20 t = ((cfg0.win 20).blk t).view.read (Elt Ideal) (dwArr (argW m c) (argA m c)) := by
  show (cfg0.win 20).cut (grid0.coords t) ((dats m 0 c).after 20 t) = _
  rw [after0_20]
  funext y
  obtain ⟨p, z, j, rfl⟩ : ∃ (p : Fin 64) (z : Fin 1) (j : Fin 16), y = ix3 p z j := ⟨y 0, y 1, y 2, eq_ix3 y⟩
  obtain rfl : z = 0 := Subsingleton.elim _ _
  have hb : 64 * t.val + p.val < 4096 := by have := t_lt t; have := p.isLt; omega
  rw [View.read_apply, emb20 t p j ⟨64 * t.val + p.val, hb⟩ rfl, dwArr_ix3]
  show out0_20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (ix3 p (0 : Fin 1) j) = _
  refine (out20_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) p j).trans ?_
  have hw : (fun k : Fin 16 => (iblk m c 1 t : FVec Ideal S64x1x16 .f32) (ix3 p (0 : Fin 1) k))
      = fun k => argW m c (ix3 (⟨64 * t.val + p.val, hb⟩ : Fin 4096) (0 : Fin 1) k) :=
    funext fun k => blkW_apply m c t p k _ rfl
  have ha : (fun k : Fin 16 => (iblk m c 2 t : FVec Ideal S64x1x16 .f32) (ix3 p (0 : Fin 1) k))
      = fun k => argA m c (ix3 (⟨64 * t.val + p.val, hb⟩ : Fin 4096) (0 : Fin 1) k) :=
    funext fun k => blkA_apply m c t p k _ rfl
  rw [hw, ha]
  rfl

/-- The first result after the run. -/
theorem final19 (c : Dev nD) : (dats m 0 c).arrAt 19 cfg0.N = dyArr (argP m c) (argW m c) (argY m c) :=
  (dats m 0 c).arrAt_eq_of_cover 19 _ (fun t _ => flushed19_eq m c t) cover19

/-- The second result after the run. -/
theorem final20 (c : Dev nD) : (dats m 0 c).arrAt 20 cfg0.N = dwArr (argW m c) (argA m c) :=
  (dats m 0 c).arrAt_eq_of_cover 20 _ (fun t _ => flushed20_eq m c t) cover20

/-- The third result: the host's broadcast of the zero literal, whatever the region left. -/
theorem tail_zeros (c : Dev nD) :
    Pipeline.afterTail₀ cfgs (dats m) 0 (V0 m) [hostOps1] c main_v9
      = broadcastInDim S4096x1x16 ![] bcast_S_S4096x1x16 (constant (F := Ideal) S_ .f32 0x00000000#32) := by
  unfold Pipeline.afterTail₀
  show StableHlo.after hostOps1 _ (Proc.devRef .tc main_v9) = _
  after_results

/-- Every weakly fair execution of the kernel's program terminates with the three results at `dyArr`, `dwArr` of the
    arguments and the zero array, the arguments unchanged. -/
theorem run : θ_run defs (onTc (τ := τ) (main (F := Ideal))) ⟨m, fun _ => 0, ρ⟩ (fun r => ∀ c : Dev nD,
      r.2.mem ((c.tc : Thread nD τ).loc main_v8_0) = dyArr (argP m c) (argW m c) (argY m c)
      ∧ r.2.mem ((c.tc : Thread nD τ).loc main_v8_1) = dwArr (argW m c) (argA m c)
      ∧ r.2.mem ((c.tc : Thread nD τ).loc main_v9) = broadcastInDim S4096x1x16 ![] bcast_S_S4096x1x16 (constant (F := Ideal) S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨((h c).1 19).trans (final19 m c), ((h c).1 20).trans (final20 m c),
      ((h c).2 main_v9 (Pipeline.mem_restRefs_of main_v9 (by decide) (by decide))).trans (tail_zeros m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c))),
      ((h c).2 main_arg6 (Pipeline.mem_restRefs_of main_arg6 (by decide) (by decide))).trans (W_main_arg6 m (dats m) c),
      ((h c).1 6).trans (((dats m 0 c).arrAt_in 6 rfl _).trans ((A_eq m c 6).trans (V_main_arg7 m c))),
      ((h c).2 main_arg8 (Pipeline.mem_restRefs_of main_arg8 (by decide) (by decide))).trans (W_main_arg8 m (dats m) c),
      ((h c).1 8).trans (((dats m 0 c).arrAt_in 8 rfl _).trans ((A_eq m c 8).trans (V_main_arg9 m c))),
      ((h c).2 main_arg10 (Pipeline.mem_restRefs_of main_arg10 (by decide) (by decide))).trans (W_main_arg10 m (dats m) c),
      ((h c).1 10).trans (((dats m 0 c).arrAt_in 10 rfl _).trans ((A_eq m c 10).trans (V_main_arg11 m c))),
      ((h c).2 main_arg12 (Pipeline.mem_restRefs_of main_arg12 (by decide) (by decide))).trans (W_main_arg12 m (dats m) c),
      ((h c).1 12).trans (((dats m 0 c).arrAt_in 12 rfl _).trans ((A_eq m c 12).trans (V_main_arg13 m c))),
      ((h c).2 main_arg14 (Pipeline.mem_restRefs_of main_arg14 (by decide) (by decide))).trans (W_main_arg14 m (dats m) c),
      ((h c).1 14).trans (((dats m 0 c).arrAt_in 14 rfl _).trans ((A_eq m c 14).trans (V_main_arg15 m c))),
      ((h c).2 main_arg16 (Pipeline.mem_restRefs_of main_arg16 (by decide) (by decide))).trans (W_main_arg16 m (dats m) c),
      ((h c).1 16).trans (((dats m 0 c).arrAt_in 16 rfl _).trans ((A_eq m c 16).trans (V_main_arg17 m c))),
      ((h c).2 main_arg18 (Pipeline.mem_restRefs_of main_arg18 (by decide) (by decide))).trans (W_main_arg18 m (dats m) c),
      ((h c).1 18).trans (((dats m 0 c).arrAt_in 18 rfl _).trans ((A_eq m c 18).trans (V_main_arg19 m c)))⟩) (run_main m ρ)

end Cert.KernelIdeal.Bridge

end
-- ==== Proof.REnc.lean ====
/-
  The reference's encoder at one row: its code stage is the specification's `enc` of the row's `w`.
-/
import proofs.«419183_j88055419503310_4_alg».proof.Proof.Gen.ReferenceIdeal.Read
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.Bridge

open Cert.ReferenceIdeal Cert.ReferenceIdeal.Read Cert.HyperMlp Idealize.ShloMosaic Idealize.ShloMosaic.ValueIdx

variable (x1 : FVec Ideal S4096x256x2 .f32) (x2 x3 : FVec Ideal S4096x1x16 .f32) (x4 : FVec Ideal S16x50 .f32)
  (x5 : FVec Ideal S50 .f32) (x6 : FVec Ideal S50x200 .f32) (x7 : FVec Ideal S200 .f32) (x8 : FVec Ideal S50x240 .f32)
  (x9 : FVec Ideal S240 .f32) (x10 : FVec Ideal S50x50 .f32) (x11 : FVec Ideal S50 .f32) (x12 : FVec Ideal S50x6480 .f32)
  (x13 : FVec Ideal S6480 .f32) (x14 : FVec Ideal S50x50 .f32) (x15 : FVec Ideal S50 .f32) (x16 : FVec Ideal S50x6480 .f32)
  (x17 : FVec Ideal S6480 .f32) (x18 : FVec Ideal S50x162 .f32) (x19 : FVec Ideal S162 .f32)

/-- Dropping the middle axis of size one: entry `(b, m)` of the flattened rows is entry `(b, 0, m)` of the rows,
    since `(16 b + m) / 16 = b` and `(16 b + m) % 16 = m` for `m < 16`. -/
theorem rows_apply (b : Fin 4096) (m : Fin 16) :
    val_main_v17 (F := Ideal) x2 (ix2 b m) = x2 (ix3 b (0 : Fin 1) m) := by
  rw [val_main_v17_apply]
  refine congrArg x2 (funext fun a => ?_)
  match a with
  | ⟨0, _⟩ => exact Fin.ext (by show (b.val * 16 + m.val) / 16 = b.val; have := m.isLt; omega)
  | ⟨1, _⟩ => rfl
  | ⟨2, _⟩ => exact Fin.ext (by show (b.val * 16 + m.val) % 16 = m.val; have := m.isLt; omega)

/-- The first product: entry `(b, k)` is `∑ m, w_b m · W1 m k`. -/
theorem prod1_apply (b : Fin 4096) (k : Fin 50) :
    val_main_v18 (F := Ideal) x2 x4 (ix2 b k) = ∑ m : Fin 16, x2 (ix3 b (0 : Fin 1) m) * mat x4 m k := by
  rw [val_main_v18_apply]
  refine Finset.sum_congr rfl fun m _ => ?_
  have el : lidx_main_v18 (ix2 b k) m = ix2 b m :=
    funext fun a => Fin.ext (by match a with | ⟨0, _⟩ => rfl | ⟨1, _⟩ => rfl)
  have er : ridx_main_v18 (ix2 b k) m = ix2 m k :=
    funext fun a => Fin.ext (by match a with | ⟨0, _⟩ => rfl | ⟨1, _⟩ => rfl)
  rw [el, er, rows_apply]
  rfl

/-- The first bias, repeated along the rows: entry `(b, k)` is `b1 k`. -/
theorem bias1_apply (b : Fin 4096) (k : Fin 50) : val_main_v20 (F := Ideal) x5 (ix2 b k) = vec x5 k := by
  rw [val_main_v20_apply, val_main_v19_apply]
  exact congrArg x5 (funext fun a => by match a with | ⟨0, _⟩ => rfl)

/-- The hidden layer before its activation: entry `(b, k)` is `(w_b · W1 + b1) k`. -/
theorem hidden_apply (b : Fin 4096) (k : Fin 50) :
    val_main_v21 (F := Ideal) x2 x4 x5 (ix2 b k)
      = aff (mat x4) (vec x5) (fun m => x2 (ix3 b (0 : Fin 1) m)) k := by
  rw [val_main_v21_apply, prod1_apply, bias1_apply]
  rfl

/-- The activation: `x · (1 / (1 + e^(-x)))`, written out with the constant one, is `silu x`. -/
theorem act_apply (i : S4096x50.Idx) :
    val_main_v22 (F := Ideal) x2 x4 x5 i = silu (val_main_v21 (F := Ideal) x2 x4 x5 i) := by
  rw [val_main_v22_apply, val_main_call0_v5_apply, val_main_call0_v4_apply, val_main_call0_cst_0_apply,
    val_main_call0_v3_apply, val_main_call0_v2_apply, val_main_call0_cst_apply, val_main_call0_v1_apply,
    val_main_call0_v0_apply]
  simp only [Ideal.mulf_def, Ideal.hostDivf_def, Ideal.addf_def, Ideal.hostUnary_exp_def, Ideal.hostNegf_def,
    Ideal.negf_def, Ideal.ofBits_def, Ideal.ofBits_one_f32]
  rfl

/-- The second product: entry `(b, j)` is `∑ k, h_b k · W2 k j` over the activated hidden layer `h_b`. -/
theorem prod2_apply (b : Fin 4096) (j : Fin 200) :
    val_main_v23 (F := Ideal) x2 x4 x5 x6 (ix2 b j)
      = ∑ k : Fin 50, val_main_v22 (F := Ideal) x2 x4 x5 (ix2 b k) * mat x6 k j := by
  rw [val_main_v23_apply]
  refine Finset.sum_congr rfl fun k _ => ?_
  have el : lidx_main_v23 (ix2 b j) k = ix2 b k :=
    funext fun a => Fin.ext (by match a with | ⟨0, _⟩ => rfl | ⟨1, _⟩ => rfl)
  have er : ridx_main_v23 (ix2 b j) k = ix2 k j :=
    funext fun a => Fin.ext (by match a with | ⟨0, _⟩ => rfl | ⟨1, _⟩ => rfl)
  rw [el, er]
  rfl

/-- The second bias, repeated along the rows: entry `(b, j)` is `b2 j`. -/
theorem bias2_apply (b : Fin 4096) (j : Fin 200) : val_main_v25 (F := Ideal) x7 (ix2 b j) = vec x7 j := by
  rw [val_main_v25_apply, val_main_v24_apply]
  exact congrArg x7 (funext fun a => by match a with | ⟨0, _⟩ => rfl)

/-- Entry `(b, j)` of the reference's code array. -/
theorem enc_apply (b : Fin 4096) (j : Fin 200) :
    val_main_v26 (F := Ideal) x2 x4 x5 x6 x7 (ix2 b j)
      = enc (mat x4) (vec x5) (mat x6) (vec x7) (fun k => x2 (ix3 b (0 : Fin 1) k)) j := by
  rw [val_main_v26_apply, prod2_apply, bias2_apply]
  simp only [act_apply, hidden_apply]
  rfl

end Cert.ReferenceIdeal.Bridge

end
-- ==== Proof.RHeads.lean ====
/-
  The reference's four heads at one row: each is the specification's head of the row's code on its quarter.
-/
import proofs.«419183_j88055419503310_4_alg».proof.Proof.Gen.ReferenceIdeal.Read
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.Bridge

open Cert.ReferenceIdeal Cert.ReferenceIdeal.Read Cert.HyperMlp Idealize.ShloMosaic Idealize.ShloMosaic.ValueIdx

variable (x1 : FVec Ideal S4096x256x2 .f32) (x2 x3 : FVec Ideal S4096x1x16 .f32) (x4 : FVec Ideal S16x50 .f32)
  (x5 : FVec Ideal S50 .f32) (x6 : FVec Ideal S50x200 .f32) (x7 : FVec Ideal S200 .f32) (x8 : FVec Ideal S50x240 .f32)
  (x9 : FVec Ideal S240 .f32) (x10 : FVec Ideal S50x50 .f32) (x11 : FVec Ideal S50 .f32) (x12 : FVec Ideal S50x6480 .f32)
  (x13 : FVec Ideal S6480 .f32) (x14 : FVec Ideal S50x50 .f32) (x15 : FVec Ideal S50 .f32) (x16 : FVec Ideal S50x6480 .f32)
  (x17 : FVec Ideal S6480 .f32) (x18 : FVec Ideal S50x162 .f32) (x19 : FVec Ideal S162 .f32)

/-- The activation written out with the constant one, `y · (1 / (1 + e^(-y)))`, is `silu y`. -/
theorem silu_expand (y : EReal) :
    y * Ideal.div (Ideal.ofBits .f32 0x3F800000#32) (Ideal.ofBits .f32 0x3F800000#32 + Ideal.exp (-y)) = silu y := by
  rw [Ideal.ofBits_one_f32]
  rfl

/-! ### θ0: one layer on the first quarter of the code -/

/-- Columns `0 … 49` of the code's row `b` are its first quarter. -/
theorem q0_apply (b : Fin 4096) (k : Fin 50) :
    val_main_v27 (F := Ideal) x2 x4 x5 x6 x7 (ix2 b k)
      = seg (fun k => val_main_v26 (F := Ideal) x2 x4 x5 x6 x7 (ix2 b k)) 0 (by omega) k := by
  rw [val_main_v27_apply]
  show val_main_v26 (F := Ideal) x2 x4 x5 x6 x7 _ = val_main_v26 (F := Ideal) x2 x4 x5 x6 x7 _
  refine congrArg (val_main_v26 (F := Ideal) x2 x4 x5 x6 x7) (funext fun a => ?_)
  match a with
  | ⟨0, _⟩ => rfl
  | ⟨1, _⟩ => exact Fin.ext (by show k.val = 0 + k.val; omega)

/-- The product of the first quarter with `W`: entry `(b, j)` is `∑ k, c_b k · W k j`. -/
theorem th0_prod_apply (b : Fin 4096) (j : Fin 240) :
    val_main_v28 (F := Ideal) x2 x4 x5 x6 x7 x8 (ix2 b j)
      = ∑ k : Fin 50, seg (fun k => val_main_v26 (F := Ideal) x2 x4 x5 x6 x7 (ix2 b k)) 0 (by omega) k * mat x8 k j := by
  rw [val_main_v28_apply]
  refine Finset.sum_congr rfl fun k _ => ?_
  have el : lidx_main_v28 (ix2 b j) k = ix2 b k :=
    funext fun a => Fin.ext (by match a with | ⟨0, _⟩ => rfl | ⟨1, _⟩ => rfl)
  have er : ridx_main_v28 (ix2 b j) k = ix2 k j :=
    funext fun a => Fin.ext (by match a with | ⟨0, _⟩ => rfl | ⟨1, _⟩ => rfl)
  rw [el, er, q0_apply]
  rfl

/-- The bias repeated along the rows: entry `(b, j)` is `bias j`. -/
theorem th0_bias_apply (b : Fin 4096) (j : Fin 240) : val_main_v30 (F := Ideal) x9 (ix2 b j) = vec x9 j := by
  rw [val_main_v30_apply, val_main_v29_apply]
  exact congrArg x9 (funext fun a => by match a with | ⟨0, _⟩ => rfl)

/-- The activation of the affine stage is its `silu`, entry by entry. -/
theorem th0_act_apply (i : S4096x240.Idx) :
    val_main_v32 (F := Ideal) x2 x4 x5 x6 x7 x8 x9 i = silu (val_main_v31 (F := Ideal) x2 x4 x5 x6 x7 x8 x9 i) := by
  rw [val_main_v32_apply, val_main_call1_v5_apply, val_main_call1_v4_apply, val_main_call1_cst_0_apply,
    val_main_call1_v3_apply, val_main_call1_v2_apply, val_main_call1_cst_apply, val_main_call1_v1_apply,
    val_main_call1_v0_apply]
  exact silu_expand _

/-! ### θ1: two layers on the second quarter of the code -/

/-- Columns `50 … 99` of the code's row `b` are its second quarter. -/
theorem q1_apply (b : Fin 4096) (k : Fin 50) :
    val_main_v33 (F := Ideal) x2 x4 x5 x6 x7 (ix2 b k)
      = seg (fun k => val_main_v26 (F := Ideal) x2 x4 x5 x6 x7 (ix2 b k)) 50 (by omega) k := by
  rw [val_main_v33_apply]
  show val_main_v26 (F := Ideal) x2 x4 x5 x6 x7 _ = val_main_v26 (F := Ideal) x2 x4 x5 x6 x7 _
  refine congrArg (val_main_v26 (F := Ideal) x2 x4 x5 x6 x7) (funext fun a => ?_)
  match a with
  | ⟨0, _⟩ => rfl
  | ⟨1, _⟩ => rfl

/-- The first product: entry `(b, k)` is `∑ m, c_b m · W1 m k` over the second quarter `c_b`. -/
theorem th1_prod1_apply (b : Fin 4096) (k : Fin 50) :
    val_main_v34 (F := Ideal) x2 x4 x5 x6 x7 x10 (ix2 b k)
      = ∑ m : Fin 50, seg (fun k => val_main_v26 (F := Ideal) x2 x4 x5 x6 x7 (ix2 b k)) 50 (by omega) m * mat x10 m k := by
  rw [val_main_v34_apply]
  refine Finset.sum_congr rfl fun m _ => ?_
  have el : lidx_main_v34 (ix2 b k) m = ix2 b m :=
    funext fun a => Fin.ext (by match a with | ⟨0, _⟩ => rfl | ⟨1, _⟩ => rfl)
  have er : ridx_main_v34 (ix2 b k) m = ix2 m k :=
    funext fun a => Fin.ext (by match a with | ⟨0, _⟩ => rfl | ⟨1, _⟩ => rfl)
  rw [el, er, q1_apply]
  rfl

/-- The first bias repeated along the rows: entry `(b, k)` is `b1 k`. -/
theorem th1_bias1_apply (b : Fin 4096) (k : Fin 50) : val_main_v36 (F := Ideal) x11 (ix2 b k) = vec x11 k := by
  rw [val_main_v36_apply, val_main_v35_apply]
  exact congrArg x11 (funext fun a => by match a with | ⟨0, _⟩ => rfl)

/-- The hidden layer before its activation: entry `(b, k)` is `(c_b · W1 + b1) k`. -/
theorem th1_hidden_apply (b : Fin 4096) (k : Fin 50) :
    val_main_v37 (F := Ideal) x2 x4 x5 x6 x7 x10 x11 (ix2 b k)
      = aff (mat x10) (vec x11) (seg (fun k => val_main_v26 (F := Ideal) x2 x4 x5 x6 x7 (ix2 b k)) 50 (by omega)) k := by
  rw [val_main_v37_apply, th1_prod1_apply, th1_bias1_apply]
  rfl

/-- The activation of the hidden layer is its `silu`, entry by entry. -/
theorem th1_act_apply (i : S4096x50.Idx) :
    val_main_v38 (F := Ideal) x2 x4 x5 x6 x7 x10 x11 i = silu (val_main_v37 (F := Ideal) x2 x4 x5 x6 x7 x10 x11 i) := by
  rw [val_main_v38_apply, val_main_call2_v5_apply, val_main_call2_v4_apply, val_main_call2_cst_0_apply,
    val_main_call2_v3_apply, val_main_call2_v2_apply, val_main_call2_cst_apply, val_main_call2_v1_apply,
    val_main_call2_v0_apply]
  exact silu_expand _

/-- The second product: entry `(b, j)` is `∑ k, h_b k · W2 k j` over the activated hidden layer `h_b`. -/
theorem th1_prod2_apply (b : Fin 4096) (j : Fin 6480) :
    val_main_v39 (F := Ideal) x2 x4 x5 x6 x7 x10 x11 x12 (ix2 b j)
      = ∑ k : Fin 50, val_main_v38 (F := Ideal) x2 x4 x5 x6 x7 x10 x11 (ix2 b k) * mat x12 k j := by
  rw [val_main_v39_apply]
  refine Finset.sum_congr rfl fun k _ => ?_
  have el : lidx_main_v39 (ix2 b j) k = ix2 b k :=
    funext fun a => Fin.ext (by match a with | ⟨0, _⟩ => rfl | ⟨1, _⟩ => rfl)
  have er : ridx_main_v39 (ix2 b j) k = ix2 k j :=
    funext fun a => Fin.ext (by match a with | ⟨0, _⟩ => rfl | ⟨1, _⟩ => rfl)
  rw [el, er]
  rfl

/-- The second bias repeated along the rows: entry `(b, j)` is `b2 j`. -/
theorem th1_bias2_apply (b : Fin 4096) (j : Fin 6480) : val_main_v41 (F := Ideal) x13 (ix2 b j) = vec x13 j := by
  rw [val_main_v41_apply, val_main_v40_apply]
  exact congrArg x13 (funext fun a => by match a with | ⟨0, _⟩ => rfl)

/-! ### θ2: two layers on the third quarter of the code -/

/-- Columns `100 … 149` of the code's row `b` are its third quarter. -/
theorem q2_apply (b : Fin 4096) (k : Fin 50) :
    val_main_v43 (F := Ideal) x2 x4 x5 x6 x7 (ix2 b k)
      = seg (fun k => val_main_v26 (F := Ideal) x2 x4 x5 x6 x7 (ix2 b k)) 100 (by omega) k := by
  rw [val_main_v43_apply]
  show val_main_v26 (F := Ideal) x2 x4 x5 x6 x7 _ = val_main_v26 (F := Ideal) x2 x4 x5 x6 x7 _
  refine congrArg (val_main_v26 (F := Ideal) x2 x4 x5 x6 x7) (funext fun a => ?_)
  match a with
  | ⟨0, _⟩ => rfl
  | ⟨1, _⟩ => rfl

/-- The first product: entry `(b, k)` is `∑ m, c_b m · W1 m k` over the third quarter `c_b`. -/
theorem th2_prod1_apply (b : Fin 4096) (k : Fin 50) :
    val_main_v44 (F := Ideal) x2 x4 x5 x6 x7 x14 (ix2 b k)
      = ∑ m : Fin 50, seg (fun k => val_main_v26 (F := Ideal) x2 x4 x5 x6 x7 (ix2 b k)) 100 (by omega) m * mat x14 m k := by
  rw [val_main_v44_apply]
  refine Finset.sum_congr rfl fun m _ => ?_
  have el : lidx_main_v44 (ix2 b k) m = ix2 b m :=
    funext fun a => Fin.ext (by match a with | ⟨0, _⟩ => rfl | ⟨1, _⟩ => rfl)
  have er : ridx_main_v44 (ix2 b k) m = ix2 m k :=
    funext fun a => Fin.ext (by match a with | ⟨0, _⟩ => rfl | ⟨1, _⟩ => rfl)
  rw [el, er, q2_apply]
  rfl

/-- The first bias repeated along the rows: entry `(b, k)` is `b1 k`. -/
theorem th2_bias1_apply (b : Fin 4096) (k : Fin 50) : val_main_v46 (F := Ideal) x15 (ix2 b k) = vec x15 k := by
  rw [val_main_v46_apply, val_main_v45_apply]
  exact congrArg x15 (funext fun a => by match a with | ⟨0, _⟩ => rfl)

/-- The hidden layer before its activation: entry `(b, k)` is `(c_b · W1 + b1) k`. -/
theorem th2_hidden_apply (b : Fin 4096) (k : Fin 50) :
    val_main_v47 (F := Ideal) x2 x4 x5 x6 x7 x14 x15 (ix2 b k)
      = aff (mat x14) (vec x15) (seg (fun k => val_main_v26 (F := Ideal) x2 x4 x5 x6 x7 (ix2 b k)) 100 (by omega)) k := by
  rw [val_main_v47_apply, th2_prod1_apply, th2_bias1_apply]
  rfl

/-- The activation of the hidden layer is its `silu`, entry by entry. -/
theorem th2_act_apply (i : S4096x50.Idx) :
    val_main_v48 (F := Ideal) x2 x4 x5 x6 x7 x14 x15 i = silu (val_main_v47 (F := Ideal) x2 x4 x5 x6 x7 x14 x15 i) := by
  rw [val_main_v48_apply, val_main_call3_v5_apply, val_main_call3_v4_apply, val_main_call3_cst_0_apply,
    val_main_call3_v3_apply, val_main_call3_v2_apply, val_main_call3_cst_apply, val_main_call3_v1_apply,
    val_main_call3_v0_apply]
  exact silu_expand _

/-- The second product: entry `(b, j)` is `∑ k, h_b k · W2 k j` over the activated hidden layer `h_b`. -/
theorem th2_prod2_apply (b : Fin 4096) (j : Fin 6480) :
    val_main_v49 (F := Ideal) x2 x4 x5 x6 x7 x14 x15 x16 (ix2 b j)
      = ∑ k : Fin 50, val_main_v48 (F := Ideal) x2 x4 x5 x6 x7 x14 x15 (ix2 b k) * mat x16 k j := by
  rw [val_main_v49_apply]
  refine Finset.sum_congr rfl fun k _ => ?_
  have el : lidx_main_v49 (ix2 b j) k = ix2 b k :=
    funext fun a => Fin.ext (by match a with | ⟨0, _⟩ => rfl | ⟨1, _⟩ => rfl)
  have er : ridx_main_v49 (ix2 b j) k = ix2 k j :=
    funext fun a => Fin.ext (by match a with | ⟨0, _⟩ => rfl | ⟨1, _⟩ => rfl)
  rw [el, er]
  rfl

/-- The second bias repeated along the rows: entry `(b, j)` is `b2 j`. -/
theorem th2_bias2_apply (b : Fin 4096) (j : Fin 6480) : val_main_v51 (F := Ideal) x17 (ix2 b j) = vec x17 j := by
  rw [val_main_v51_apply, val_main_v50_apply]
  exact congrArg x17 (funext fun a => by match a with | ⟨0, _⟩ => rfl)

/-! ### θ5: one layer on the last quarter of the code -/

/-- Columns `150 … 199` of the code's row `b` are its last quarter. -/
theorem q3_apply (b : Fin 4096) (k : Fin 50) :
    val_main_v53 (F := Ideal) x2 x4 x5 x6 x7 (ix2 b k)
      = seg (fun k => val_main_v26 (F := Ideal) x2 x4 x5 x6 x7 (ix2 b k)) 150 (by omega) k := by
  rw [val_main_v53_apply]
  show val_main_v26 (F := Ideal) x2 x4 x5 x6 x7 _ = val_main_v26 (F := Ideal) x2 x4 x5 x6 x7 _
  refine congrArg (val_main_v26 (F := Ideal) x2 x4 x5 x6 x7) (funext fun a => ?_)
  match a with
  | ⟨0, _⟩ => rfl
  | ⟨1, _⟩ => rfl

/-- The product of the last quarter with `W`: entry `(b, j)` is `∑ k, c_b k · W k j`. -/
theorem th5_prod_apply (b : Fin 4096) (j : Fin 162) :
    val_main_v54 (F := Ideal) x2 x4 x5 x6 x7 x18 (ix2 b j)
      = ∑ k : Fin 50, seg (fun k => val_main_v26 (F := Ideal) x2 x4 x5 x6 x7 (ix2 b k)) 150 (by omega) k * mat x18 k j := by
  rw [val_main_v54_apply]
  refine Finset.sum_congr rfl fun k _ => ?_
  have el : lidx_main_v54 (ix2 b j) k = ix2 b k :=
    funext fun a => Fin.ext (by match a with | ⟨0, _⟩ => rfl | ⟨1, _⟩ => rfl)
  have er : ridx_main_v54 (ix2 b j) k = ix2 k j :=
    funext fun a => Fin.ext (by match a with | ⟨0, _⟩ => rfl | ⟨1, _⟩ => rfl)
  rw [el, er, q3_apply]
  rfl

/-- The bias repeated along the rows: entry `(b, j)` is `bias j`. -/
theorem th5_bias_apply (b : Fin 4096) (j : Fin 162) : val_main_v56 (F := Ideal) x19 (ix2 b j) = vec x19 j := by
  rw [val_main_v56_apply, val_main_v55_apply]
  exact congrArg x19 (funext fun a => by match a with | ⟨0, _⟩ => rfl)

/-- The activation of the affine stage is its `silu`, entry by entry. -/
theorem th5_act_apply (i : S4096x162.Idx) :
    val_main_v58 (F := Ideal) x2 x4 x5 x6 x7 x18 x19 i = silu (val_main_v57 (F := Ideal) x2 x4 x5 x6 x7 x18 x19 i) := by
  rw [val_main_v58_apply, val_main_call4_v5_apply, val_main_call4_v4_apply, val_main_call4_cst_0_apply,
    val_main_call4_v3_apply, val_main_call4_v2_apply, val_main_call4_cst_apply, val_main_call4_v1_apply,
    val_main_call4_v0_apply]
  exact silu_expand _

/-- θ0 of row `b`. -/
theorem th0_apply (b : Fin 4096) (j : Fin 240) :
    val_main_v32 (F := Ideal) x2 x4 x5 x6 x7 x8 x9 (ix2 b j) = head1 (mat x8) (vec x9) (fun k => val_main_v26 (F := Ideal) x2 x4 x5 x6 x7 (ix2 b k)) 0 (by omega) j := by
  rw [th0_act_apply, val_main_v31_apply, th0_prod_apply, th0_bias_apply]
  rfl

/-- θ1 of row `b`. -/
theorem th1_apply (b : Fin 4096) (j : Fin 6480) :
    val_main_v42 (F := Ideal) x2 x4 x5 x6 x7 x10 x11 x12 x13 (ix2 b j)
      = head2 (mat x10) (vec x11) (mat x12) (vec x13) (fun k => val_main_v26 (F := Ideal) x2 x4 x5 x6 x7 (ix2 b k)) 50 (by omega) j := by
  rw [val_main_v42_apply, th1_prod2_apply, th1_bias2_apply]
  simp only [th1_act_apply, th1_hidden_apply]
  rfl

/-- θ2 of row `b`. -/
theorem th2_apply (b : Fin 4096) (j : Fin 6480) :
    val_main_v52 (F := Ideal) x2 x4 x5 x6 x7 x14 x15 x16 x17 (ix2 b j)
      = head2 (mat x14) (vec x15) (mat x16) (vec x17) (fun k => val_main_v26 (F := Ideal) x2 x4 x5 x6 x7 (ix2 b k)) 100 (by omega) j := by
  rw [val_main_v52_apply, th2_prod2_apply, th2_bias2_apply]
  simp only [th2_act_apply, th2_hidden_apply]
  rfl

/-- θ5 of row `b`. -/
theorem th5_apply (b : Fin 4096) (j : Fin 162) :
    val_main_v58 (F := Ideal) x2 x4 x5 x6 x7 x18 x19 (ix2 b j) = head1 (mat x18) (vec x19) (fun k => val_main_v26 (F := Ideal) x2 x4 x5 x6 x7 (ix2 b k)) 150 (by omega) j := by
  rw [th5_act_apply, val_main_v57_apply, th5_prod_apply, th5_bias_apply]
  rfl

end Cert.ReferenceIdeal.Bridge

end
-- ==== Proof.RParams.lean ====
/-
  How the reference cuts a row's parameters: the four heads' outputs are laid side by side into one vector of
  13362 entries (θ0 at 0, θ1 at 240, θ2 at 6720, θ5 at 13200) and the per-row network's matrices and biases are
  column slices of that vector, reshaped row-major. Read at an index, each is an entry of one head's output.
-/
import proofs.«419183_j88055419503310_4_alg».proof.Proof.Gen.ReferenceIdeal.Read
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Cert.ReferenceIdeal Cert.ReferenceIdeal.Read Cert.HyperMlp Idealize.ShloMosaic Idealize.ShloMosaic.ValueIdx

variable (x1 : FVec Ideal S4096x256x2 .f32) (x2 x3 : FVec Ideal S4096x1x16 .f32) (x4 : FVec Ideal S16x50 .f32)
  (x5 : FVec Ideal S50 .f32) (x6 : FVec Ideal S50x200 .f32) (x7 : FVec Ideal S200 .f32) (x8 : FVec Ideal S50x240 .f32)
  (x9 : FVec Ideal S240 .f32) (x10 : FVec Ideal S50x50 .f32) (x11 : FVec Ideal S50 .f32) (x12 : FVec Ideal S50x6480 .f32)
  (x13 : FVec Ideal S6480 .f32) (x14 : FVec Ideal S50x50 .f32) (x15 : FVec Ideal S50 .f32) (x16 : FVec Ideal S50x6480 .f32)
  (x17 : FVec Ideal S6480 .f32) (x18 : FVec Ideal S50x162 .f32) (x19 : FVec Ideal S162 .f32)

/-- The four heads' outputs side by side, read at a column inside the first head's span (which starts at column 0):
    that head's output at the column less 0. -/
theorem v59_p0 (b : Fin 4096) (c : Fin 13362) (j : Fin 240) (hcj : c.val = 0 + j.val) :
    val_main_v59 (F := Ideal) x2 x4 x5 x6 x7 x8 x9 x10 x11 x12 x13 x14 x15 x16 x17 x18 x19 (ix2 b c)
      = val_main_v32 (F := Ideal) x2 x4 x5 x6 x7 x8 x9 (ix2 b j) := by
  unfold val_main_v59
  exact concatenate_apply_piece (t := S4096x13362) (1 : Fin S4096x13362.rank) _ _ (ix2 b c) 0 (by show (0 : Nat) < 4; omega)
    S4096x240 _ rfl rfl 0 rfl (ix2 b j)
    (fun a => match a with
      | ⟨0, _⟩ => fun _ => rfl
      | ⟨1, _⟩ => fun hne => absurd (Fin.ext rfl) hne)
    (by show 0 + j.val = c.val; omega)

/-- The four heads' outputs side by side, read at a column inside the second head's span (which starts at column 240):
    that head's output at the column less 240. -/
theorem v59_p1 (b : Fin 4096) (c : Fin 13362) (j : Fin 6480) (hcj : c.val = 240 + j.val) :
    val_main_v59 (F := Ideal) x2 x4 x5 x6 x7 x8 x9 x10 x11 x12 x13 x14 x15 x16 x17 x18 x19 (ix2 b c)
      = val_main_v42 (F := Ideal) x2 x4 x5 x6 x7 x10 x11 x12 x13 (ix2 b j) := by
  unfold val_main_v59
  exact concatenate_apply_piece (t := S4096x13362) (1 : Fin S4096x13362.rank) _ _ (ix2 b c) 1 (by show (1 : Nat) < 4; omega)
    S4096x6480 _ rfl rfl 240 rfl (ix2 b j)
    (fun a => match a with
      | ⟨0, _⟩ => fun _ => rfl
      | ⟨1, _⟩ => fun hne => absurd (Fin.ext rfl) hne)
    (by show 240 + j.val = c.val; omega)

/-- The four heads' outputs side by side, read at a column inside the third head's span (which starts at column 6720):
    that head's output at the column less 6720. -/
theorem v59_p2 (b : Fin 4096) (c : Fin 13362) (j : Fin 6480) (hcj : c.val = 6720 + j.val) :
    val_main_v59 (F := Ideal) x2 x4 x5 x6 x7 x8 x9 x10 x11 x12 x13 x14 x15 x16 x17 x18 x19 (ix2 b c)
      = val_main_v52 (F := Ideal) x2 x4 x5 x6 x7 x14 x15 x16 x17 (ix2 b j) := by
  unfold val_main_v59
  exact concatenate_apply_piece (t := S4096x13362) (1 : Fin S4096x13362.rank) _ _ (ix2 b c) 2 (by show (2 : Nat) < 4; omega)
    S4096x6480 _ rfl rfl 6720 rfl (ix2 b j)
    (fun a => match a with
      | ⟨0, _⟩ => fun _ => rfl
      | ⟨1, _⟩ => fun hne => absurd (Fin.ext rfl) hne)
    (by show 6720 + j.val = c.val; omega)

/-- The four heads' outputs side by side, read at a column inside the fourth head's span (which starts at column 13200):
    that head's output at the column less 13200. -/
theorem v59_p3 (b : Fin 4096) (c : Fin 13362) (j : Fin 162) (hcj : c.val = 13200 + j.val) :
    val_main_v59 (F := Ideal) x2 x4 x5 x6 x7 x8 x9 x10 x11 x12 x13 x14 x15 x16 x17 x18 x19 (ix2 b c)
      = val_main_v58 (F := Ideal) x2 x4 x5 x6 x7 x18 x19 (ix2 b j) := by
  unfold val_main_v59
  exact concatenate_apply_piece (t := S4096x13362) (1 : Fin S4096x13362.rank) _ _ (ix2 b c) 3 (by show (3 : Nat) < 4; omega)
    S4096x162 _ rfl rfl 13200 rfl (ix2 b j)
    (fun a => match a with
      | ⟨0, _⟩ => fun _ => rfl
      | ⟨1, _⟩ => fun hne => absurd (Fin.ext rfl) hne)
    (by show 13200 + j.val = c.val; omega)

/-- Layer 1's matrix, entry `(d, h)`: θ0's entry `80 d + h`. -/
theorem w0_apply (b : Fin 4096) (d : Fin 2) (h : Fin 80) :
    val_main_v61 (F := Ideal) x2 x4 x5 x6 x7 x8 x9 x10 x11 x12 x13 x14 x15 x16 x17 x18 x19 (ix3 b d h) = val_main_v32 (F := Ideal) x2 x4 x5 x6 x7 x8 x9 (ix2 b ⟨d.val * 80 + h.val, by have := d.isLt; have := h.isLt; omega⟩) := by
  have hb := b.isLt; have hd := d.isLt; have hh := h.isLt
  refine (val_main_v61_apply (F := Ideal) x2 x4 x5 x6 x7 x8 x9 x10 x11 x12 x13 x14 x15 x16 x17 x18 x19 _).trans ?_
  refine (val_main_v60_apply (F := Ideal) x2 x4 x5 x6 x7 x8 x9 x10 x11 x12 x13 x14 x15 x16 x17 x18 x19 _).trans ?_
  have e : idx_main_v60 (idx_main_v61 (ix3 b d h))
      = ix2 b (⟨((b.val * 2 + d.val) * 80 + h.val) % 160, by omega⟩ : Fin 13362) := by
    funext a; refine Fin.ext ?_
    match a with
    | ⟨0, _⟩ => show ((b.val * 2 + d.val) * 80 + h.val) / 160 = b.val; omega
    | ⟨1, _⟩ => rfl
  refine (congrArg (val_main_v59 (F := Ideal) x2 x4 x5 x6 x7 x8 x9 x10 x11 x12 x13 x14 x15 x16 x17 x18 x19) e).trans ?_
  exact v59_p0 x2 x4 x5 x6 x7 x8 x9 x10 x11 x12 x13 x14 x15 x16 x17 x18 x19 b _ _ (by show ((b.val * 2 + d.val) * 80 + h.val) % 160 = 0 + (d.val * 80 + h.val); omega)

/-- Layer 1's bias `h`: θ0's entry `160 + h`. -/
theorem b0_apply (b : Fin 4096) (h : Fin 80) :
    val_main_v63 (F := Ideal) x2 x4 x5 x6 x7 x8 x9 x10 x11 x12 x13 x14 x15 x16 x17 x18 x19 (ix3 b (0 : Fin 1) h) = val_main_v32 (F := Ideal) x2 x4 x5 x6 x7 x8 x9 (ix2 b ⟨160 + h.val, by have := h.isLt; omega⟩) := by
  have hb := b.isLt; have hh := h.isLt
  refine (val_main_v63_apply (F := Ideal) x2 x4 x5 x6 x7 x8 x9 x10 x11 x12 x13 x14 x15 x16 x17 x18 x19 _).trans ?_
  refine (val_main_v62_apply (F := Ideal) x2 x4 x5 x6 x7 x8 x9 x10 x11 x12 x13 x14 x15 x16 x17 x18 x19 _).trans ?_
  have e : idx_main_v62 (idx_main_v63 (ix3 b (0 : Fin 1) h))
      = ix2 b (⟨160 + ((b.val * 1 + 0) * 80 + h.val) % 80, by omega⟩ : Fin 13362) := by
    funext a; refine Fin.ext ?_
    match a with
    | ⟨0, _⟩ => show ((b.val * 1 + 0) * 80 + h.val) / 80 = b.val; omega
    | ⟨1, _⟩ => rfl
  refine (congrArg (val_main_v59 (F := Ideal) x2 x4 x5 x6 x7 x8 x9 x10 x11 x12 x13 x14 x15 x16 x17 x18 x19) e).trans ?_
  exact v59_p0 x2 x4 x5 x6 x7 x8 x9 x10 x11 x12 x13 x14 x15 x16 x17 x18 x19 b _ _ (by show 160 + ((b.val * 1 + 0) * 80 + h.val) % 80 = 0 + (160 + h.val); omega)

/-- Layer 2's matrix, entry `(h, k)`: θ1's entry `80 h + k`. -/
theorem w1_apply (b : Fin 4096) (h k : Fin 80) :
    val_main_v65 (F := Ideal) x2 x4 x5 x6 x7 x8 x9 x10 x11 x12 x13 x14 x15 x16 x17 x18 x19 (ix3 b h k) = val_main_v42 (F := Ideal) x2 x4 x5 x6 x7 x10 x11 x12 x13 (ix2 b ⟨h.val * 80 + k.val, by have := h.isLt; have := k.isLt; omega⟩) := by
  have hb := b.isLt; have hh := h.isLt; have hk := k.isLt
  refine (val_main_v65_apply (F := Ideal) x2 x4 x5 x6 x7 x8 x9 x10 x11 x12 x13 x14 x15 x16 x17 x18 x19 _).trans ?_
  refine (val_main_v64_apply (F := Ideal) x2 x4 x5 x6 x7 x8 x9 x10 x11 x12 x13 x14 x15 x16 x17 x18 x19 _).trans ?_
  have e : idx_main_v64 (idx_main_v65 (ix3 b h k))
      = ix2 b (⟨240 + ((b.val * 80 + h.val) * 80 + k.val) % 6400, by omega⟩ : Fin 13362) := by
    funext a; refine Fin.ext ?_
    match a with
    | ⟨0, _⟩ => show ((b.val * 80 + h.val) * 80 + k.val) / 6400 = b.val; omega
    | ⟨1, _⟩ => rfl
  refine (congrArg (val_main_v59 (F := Ideal) x2 x4 x5 x6 x7 x8 x9 x10 x11 x12 x13 x14 x15 x16 x17 x18 x19) e).trans ?_
  exact v59_p1 x2 x4 x5 x6 x7 x8 x9 x10 x11 x12 x13 x14 x15 x16 x17 x18 x19 b _ _ (by show 240 + ((b.val * 80 + h.val) * 80 + k.val) % 6400 = 240 + (h.val * 80 + k.val); omega)

/-- Layer 2's bias `k`: θ1's entry `6400 + k`. -/
theorem b1_apply (b : Fin 4096) (k : Fin 80) :
    val_main_v67 (F := Ideal) x2 x4 x5 x6 x7 x8 x9 x10 x11 x12 x13 x14 x15 x16 x17 x18 x19 (ix3 b (0 : Fin 1) k) = val_main_v42 (F := Ideal) x2 x4 x5 x6 x7 x10 x11 x12 x13 (ix2 b ⟨6400 + k.val, by have := k.isLt; omega⟩) := by
  have hb := b.isLt; have hk := k.isLt
  refine (val_main_v67_apply (F := Ideal) x2 x4 x5 x6 x7 x8 x9 x10 x11 x12 x13 x14 x15 x16 x17 x18 x19 _).trans ?_
  refine (val_main_v66_apply (F := Ideal) x2 x4 x5 x6 x7 x8 x9 x10 x11 x12 x13 x14 x15 x16 x17 x18 x19 _).trans ?_
  have e : idx_main_v66 (idx_main_v67 (ix3 b (0 : Fin 1) k))
      = ix2 b (⟨6640 + ((b.val * 1 + 0) * 80 + k.val) % 80, by omega⟩ : Fin 13362) := by
    funext a; refine Fin.ext ?_
    match a with
    | ⟨0, _⟩ => show ((b.val * 1 + 0) * 80 + k.val) / 80 = b.val; omega
    | ⟨1, _⟩ => rfl
  refine (congrArg (val_main_v59 (F := Ideal) x2 x4 x5 x6 x7 x8 x9 x10 x11 x12 x13 x14 x15 x16 x17 x18 x19) e).trans ?_
  exact v59_p1 x2 x4 x5 x6 x7 x8 x9 x10 x11 x12 x13 x14 x15 x16 x17 x18 x19 b _ _ (by show 6640 + ((b.val * 1 + 0) * 80 + k.val) % 80 = 240 + (6400 + k.val); omega)

/-- Layer 3's matrix, entry `(h, k)`: θ2's entry `80 h + k`. -/
theorem w2_apply (b : Fin 4096) (h k : Fin 80) :
    val_main_v69 (F := Ideal) x2 x4 x5 x6 x7 x8 x9 x10 x11 x12 x13 x14 x15 x16 x17 x18 x19 (ix3 b h k) = val_main_v52 (F := Ideal) x2 x4 x5 x6 x7 x14 x15 x16 x17 (ix2 b ⟨h.val * 80 + k.val, by have := h.isLt; have := k.isLt; omega⟩) := by
  have hb := b.isLt; have hh := h.isLt; have hk := k.isLt
  refine (val_main_v69_apply (F := Ideal) x2 x4 x5 x6 x7 x8 x9 x10 x11 x12 x13 x14 x15 x16 x17 x18 x19 _).trans ?_
  refine (val_main_v68_apply (F := Ideal) x2 x4 x5 x6 x7 x8 x9 x10 x11 x12 x13 x14 x15 x16 x17 x18 x19 _).trans ?_
  have e : idx_main_v68 (idx_main_v69 (ix3 b h k))
      = ix2 b (⟨6720 + ((b.val * 80 + h.val) * 80 + k.val) % 6400, by omega⟩ : Fin 13362) := by
    funext a; refine Fin.ext ?_
    match a with
    | ⟨0, _⟩ => show ((b.val * 80 + h.val) * 80 + k.val) / 6400 = b.val; omega
    | ⟨1, _⟩ => rfl
  refine (congrArg (val_main_v59 (F := Ideal) x2 x4 x5 x6 x7 x8 x9 x10 x11 x12 x13 x14 x15 x16 x17 x18 x19) e).trans ?_
  exact v59_p2 x2 x4 x5 x6 x7 x8 x9 x10 x11 x12 x13 x14 x15 x16 x17 x18 x19 b _ _ (by show 6720 + ((b.val * 80 + h.val) * 80 + k.val) % 6400 = 6720 + (h.val * 80 + k.val); omega)

/-- Layer 3's bias `k`: θ2's entry `6400 + k`. -/
theorem b2_apply (b : Fin 4096) (k : Fin 80) :
    val_main_v71 (F := Ideal) x2 x4 x5 x6 x7 x8 x9 x10 x11 x12 x13 x14 x15 x16 x17 x18 x19 (ix3 b (0 : Fin 1) k) = val_main_v52 (F := Ideal) x2 x4 x5 x6 x7 x14 x15 x16 x17 (ix2 b ⟨6400 + k.val, by have := k.isLt; omega⟩) := by
  have hb := b.isLt; have hk := k.isLt
  refine (val_main_v71_apply (F := Ideal) x2 x4 x5 x6 x7 x8 x9 x10 x11 x12 x13 x14 x15 x16 x17 x18 x19 _).trans ?_
  refine (val_main_v70_apply (F := Ideal) x2 x4 x5 x6 x7 x8 x9 x10 x11 x12 x13 x14 x15 x16 x17 x18 x19 _).trans ?_
  have e : idx_main_v70 (idx_main_v71 (ix3 b (0 : Fin 1) k))
      = ix2 b (⟨13120 + ((b.val * 1 + 0) * 80 + k.val) % 80, by omega⟩ : Fin 13362) := by
    funext a; refine Fin.ext ?_
    match a with
    | ⟨0, _⟩ => show ((b.val * 1 + 0) * 80 + k.val) / 80 = b.val; omega
    | ⟨1, _⟩ => rfl
  refine (congrArg (val_main_v59 (F := Ideal) x2 x4 x5 x6 x7 x8 x9 x10 x11 x12 x13 x14 x15 x16 x17 x18 x19) e).trans ?_
  exact v59_p2 x2 x4 x5 x6 x7 x8 x9 x10 x11 x12 x13 x14 x15 x16 x17 x18 x19 b _ _ (by show 13120 + ((b.val * 1 + 0) * 80 + k.val) % 80 = 6720 + (6400 + k.val); omega)

/-- The last layer's matrix, entry `(h, o)`: θ5's entry `2 h + o`. -/
theorem w3_apply (b : Fin 4096) (h : Fin 80) (o : Fin 2) :
    val_main_v73 (F := Ideal) x2 x4 x5 x6 x7 x8 x9 x10 x11 x12 x13 x14 x15 x16 x17 x18 x19 (ix3 b h o) = val_main_v58 (F := Ideal) x2 x4 x5 x6 x7 x18 x19 (ix2 b ⟨h.val * 2 + o.val, by have := h.isLt; have := o.isLt; omega⟩) := by
  have hb := b.isLt; have hh := h.isLt; have ho := o.isLt
  refine (val_main_v73_apply (F := Ideal) x2 x4 x5 x6 x7 x8 x9 x10 x11 x12 x13 x14 x15 x16 x17 x18 x19 _).trans ?_
  refine (val_main_v72_apply (F := Ideal) x2 x4 x5 x6 x7 x8 x9 x10 x11 x12 x13 x14 x15 x16 x17 x18 x19 _).trans ?_
  have e : idx_main_v72 (idx_main_v73 (ix3 b h o))
      = ix2 b (⟨13200 + ((b.val * 80 + h.val) * 2 + o.val) % 160, by omega⟩ : Fin 13362) := by
    funext a; refine Fin.ext ?_
    match a with
    | ⟨0, _⟩ => show ((b.val * 80 + h.val) * 2 + o.val) / 160 = b.val; omega
    | ⟨1, _⟩ => rfl
  refine (congrArg (val_main_v59 (F := Ideal) x2 x4 x5 x6 x7 x8 x9 x10 x11 x12 x13 x14 x15 x16 x17 x18 x19) e).trans ?_
  exact v59_p3 x2 x4 x5 x6 x7 x8 x9 x10 x11 x12 x13 x14 x15 x16 x17 x18 x19 b _ _ (by show 13200 + ((b.val * 80 + h.val) * 2 + o.val) % 160 = 13200 + (h.val * 2 + o.val); omega)

/-- The last layer's bias `o`: θ5's entry `160 + o`. -/
theorem b3_apply (b : Fin 4096) (o : Fin 2) :
    val_main_v75 (F := Ideal) x2 x4 x5 x6 x7 x8 x9 x10 x11 x12 x13 x14 x15 x16 x17 x18 x19 (ix3 b (0 : Fin 1) o) = val_main_v58 (F := Ideal) x2 x4 x5 x6 x7 x18 x19 (ix2 b ⟨160 + o.val, by have := o.isLt; omega⟩) := by
  have hb := b.isLt; have ho := o.isLt
  refine (val_main_v75_apply (F := Ideal) x2 x4 x5 x6 x7 x8 x9 x10 x11 x12 x13 x14 x15 x16 x17 x18 x19 _).trans ?_
  refine (val_main_v74_apply (F := Ideal) x2 x4 x5 x6 x7 x8 x9 x10 x11 x12 x13 x14 x15 x16 x17 x18 x19 _).trans ?_
  have e : idx_main_v74 (idx_main_v75 (ix3 b (0 : Fin 1) o))
      = ix2 b (⟨13360 + ((b.val * 1 + 0) * 2 + o.val) % 2, by omega⟩ : Fin 13362) := by
    funext a; refine Fin.ext ?_
    match a with
    | ⟨0, _⟩ => show ((b.val * 1 + 0) * 2 + o.val) / 2 = b.val; omega
    | ⟨1, _⟩ => rfl
  refine (congrArg (val_main_v59 (F := Ideal) x2 x4 x5 x6 x7 x8 x9 x10 x11 x12 x13 x14 x15 x16 x17 x18 x19) e).trans ?_
  exact v59_p3 x2 x4 x5 x6 x7 x8 x9 x10 x11 x12 x13 x14 x15 x16 x17 x18 x19 b _ _ (by show 13360 + ((b.val * 1 + 0) * 2 + o.val) % 2 = 13200 + (160 + o.val); omega)

end Cert.ReferenceIdeal.Bridge

end
-- ==== Proof.RLayers.lean ====
/-
  The reference's per-row network at one point of one row: four batched contractions (batch = the row) with
  broadcast biases, rectified between them, over whatever the row's parameter arrays hold.
-/
import proofs.«419183_j88055419503310_4_alg».proof.Proof.Gen.ReferenceIdeal.Read
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Cert.ReferenceIdeal Cert.ReferenceIdeal.Read Cert.HyperMlp Idealize.ShloMosaic Idealize.ShloMosaic.ValueIdx

variable (x1 : FVec Ideal S4096x256x2 .f32) (x2 x3 : FVec Ideal S4096x1x16 .f32) (x4 : FVec Ideal S16x50 .f32)
  (x5 : FVec Ideal S50 .f32) (x6 : FVec Ideal S50x200 .f32) (x7 : FVec Ideal S200 .f32) (x8 : FVec Ideal S50x240 .f32)
  (x9 : FVec Ideal S240 .f32) (x10 : FVec Ideal S50x50 .f32) (x11 : FVec Ideal S50 .f32) (x12 : FVec Ideal S50x6480 .f32)
  (x13 : FVec Ideal S6480 .f32) (x14 : FVec Ideal S50x50 .f32) (x15 : FVec Ideal S50 .f32) (x16 : FVec Ideal S50x6480 .f32)
  (x17 : FVec Ideal S6480 .f32) (x18 : FVec Ideal S50x162 .f32) (x19 : FVec Ideal S162 .f32)

/-- Summand `k` of the contraction at entry `(b, n, j)` reads its left operand at `(b, n, k)`. -/
theorem lidx76_ix3 (b : Fin 4096) (n : Fin 256) (j : Fin 80) (k : Fin 2) :
    lidx_main_v76 (ix3 b n j) k = ix3 b n k := by
  funext a; match a with | ⟨0, _⟩ => rfl | ⟨1, _⟩ => rfl | ⟨2, _⟩ => rfl
/-- Summand `k` of the contraction at entry `(b, n, j)` reads its right operand at `(b, k, j)`. -/
theorem ridx76_ix3 (b : Fin 4096) (n : Fin 256) (j : Fin 80) (k : Fin 2) :
    ridx_main_v76 (ix3 b n j) k = ix3 b k j := by
  funext a; match a with | ⟨0, _⟩ => rfl | ⟨1, _⟩ => rfl | ⟨2, _⟩ => rfl
/-- The bias broadcast along the points reads its source at `(b, 0, j)`. -/
theorem idx77_ix3 (b : Fin 4096) (n : Fin 256) (j : Fin 80) :
    idx_main_v77 (ix3 b n j) = ix3 b (0 : Fin 1) j := by
  funext a; match a with | ⟨0, _⟩ => rfl | ⟨1, _⟩ => rfl | ⟨2, _⟩ => rfl

/-- Summand `k` of the contraction at entry `(b, n, j)` reads its left operand at `(b, n, k)`. -/
theorem lidx80_ix3 (b : Fin 4096) (n : Fin 256) (j : Fin 80) (k : Fin 80) :
    lidx_main_v80 (ix3 b n j) k = ix3 b n k := by
  funext a; match a with | ⟨0, _⟩ => rfl | ⟨1, _⟩ => rfl | ⟨2, _⟩ => rfl
/-- Summand `k` of the contraction at entry `(b, n, j)` reads its right operand at `(b, k, j)`. -/
theorem ridx80_ix3 (b : Fin 4096) (n : Fin 256) (j : Fin 80) (k : Fin 80) :
    ridx_main_v80 (ix3 b n j) k = ix3 b k j := by
  funext a; match a with | ⟨0, _⟩ => rfl | ⟨1, _⟩ => rfl | ⟨2, _⟩ => rfl
/-- The bias broadcast along the points reads its source at `(b, 0, j)`. -/
theorem idx81_ix3 (b : Fin 4096) (n : Fin 256) (j : Fin 80) :
    idx_main_v81 (ix3 b n j) = ix3 b (0 : Fin 1) j := by
  funext a; match a with | ⟨0, _⟩ => rfl | ⟨1, _⟩ => rfl | ⟨2, _⟩ => rfl

/-- Summand `k` of the contraction at entry `(b, n, j)` reads its left operand at `(b, n, k)`. -/
theorem lidx84_ix3 (b : Fin 4096) (n : Fin 256) (j : Fin 80) (k : Fin 80) :
    lidx_main_v84 (ix3 b n j) k = ix3 b n k := by
  funext a; match a with | ⟨0, _⟩ => rfl | ⟨1, _⟩ => rfl | ⟨2, _⟩ => rfl
/-- Summand `k` of the contraction at entry `(b, n, j)` reads its right operand at `(b, k, j)`. -/
theorem ridx84_ix3 (b : Fin 4096) (n : Fin 256) (j : Fin 80) (k : Fin 80) :
    ridx_main_v84 (ix3 b n j) k = ix3 b k j := by
  funext a; match a with | ⟨0, _⟩ => rfl | ⟨1, _⟩ => rfl | ⟨2, _⟩ => rfl
/-- The bias broadcast along the points reads its source at `(b, 0, j)`. -/
theorem idx85_ix3 (b : Fin 4096) (n : Fin 256) (j : Fin 80) :
    idx_main_v85 (ix3 b n j) = ix3 b (0 : Fin 1) j := by
  funext a; match a with | ⟨0, _⟩ => rfl | ⟨1, _⟩ => rfl | ⟨2, _⟩ => rfl

/-- Summand `k` of the contraction at entry `(b, n, j)` reads its left operand at `(b, n, k)`. -/
theorem lidx88_ix3 (b : Fin 4096) (n : Fin 256) (j : Fin 2) (k : Fin 80) :
    lidx_main_v88 (ix3 b n j) k = ix3 b n k := by
  funext a; match a with | ⟨0, _⟩ => rfl | ⟨1, _⟩ => rfl | ⟨2, _⟩ => rfl
/-- Summand `k` of the contraction at entry `(b, n, j)` reads its right operand at `(b, k, j)`. -/
theorem ridx88_ix3 (b : Fin 4096) (n : Fin 256) (j : Fin 2) (k : Fin 80) :
    ridx_main_v88 (ix3 b n j) k = ix3 b k j := by
  funext a; match a with | ⟨0, _⟩ => rfl | ⟨1, _⟩ => rfl | ⟨2, _⟩ => rfl
/-- The bias broadcast along the points reads its source at `(b, 0, j)`. -/
theorem idx89_ix3 (b : Fin 4096) (n : Fin 256) (j : Fin 2) :
    idx_main_v89 (ix3 b n j) = ix3 b (0 : Fin 1) j := by
  funext a; match a with | ⟨0, _⟩ => rfl | ⟨1, _⟩ => rfl | ⟨2, _⟩ => rfl

/-- The first rectified stage at `(b, n, h)`: the specification's first layer on point `n` of row `b`. -/
theorem layer1_apply (θ0 : Fin 240 → EReal) (b : Fin 4096)
    (h0m : ∀ (d : Fin 2) (h : Fin 80), val_main_v61 (F := Ideal) x2 x4 x5 x6 x7 x8 x9 x10 x11 x12 x13 x14 x15 x16 x17 x18 x19 (ix3 b d h) = θ0 ⟨d.val * 80 + h.val, by have := d.isLt; have := h.isLt; omega⟩)
    (h0b : ∀ h : Fin 80, val_main_v63 (F := Ideal) x2 x4 x5 x6 x7 x8 x9 x10 x11 x12 x13 x14 x15 x16 x17 x18 x19 (ix3 b (0 : Fin 1) h) = θ0 ⟨160 + h.val, by have := h.isLt; omega⟩)
    (n : Fin 256) (h : Fin 80) :
    val_main_v79 (F := Ideal) x1 x2 x4 x5 x6 x7 x8 x9 x10 x11 x12 x13 x14 x15 x16 x17 x18 x19 (ix3 b n h) = layerIn θ0 (fun d => x1 (ix3 b n d)) h := by
  rw [val_main_v79_apply, val_main_v78_apply, val_main_v76_apply, val_main_v77_apply, val_main_call5_v0_apply,
    val_main_call5_cst_apply, idx77_ix3, h0b]
  rw [Ideal.maximumf_def, Ideal.addf_def, Ideal.ofBits_def, Ideal.ofBits_zero_f32]
  unfold layerIn relu
  refine congrArg (fun s => max (s + _) 0) (Finset.sum_congr rfl fun d _ => ?_)
  rw [lidx76_ix3, ridx76_ix3, h0m]

/-- The second rectified stage at `(b, n, k)`: the specification's hidden layer on the first layer's output. -/
theorem layer2_apply (θ0 : Fin 240 → EReal) (θ1 θ2 : Fin 6480 → EReal) (b : Fin 4096)
    (h0m : ∀ (d : Fin 2) (h : Fin 80), val_main_v61 (F := Ideal) x2 x4 x5 x6 x7 x8 x9 x10 x11 x12 x13 x14 x15 x16 x17 x18 x19 (ix3 b d h) = θ0 ⟨d.val * 80 + h.val, by have := d.isLt; have := h.isLt; omega⟩)
    (h0b : ∀ h : Fin 80, val_main_v63 (F := Ideal) x2 x4 x5 x6 x7 x8 x9 x10 x11 x12 x13 x14 x15 x16 x17 x18 x19 (ix3 b (0 : Fin 1) h) = θ0 ⟨160 + h.val, by have := h.isLt; omega⟩)
    (h1m : ∀ h k : Fin 80, val_main_v65 (F := Ideal) x2 x4 x5 x6 x7 x8 x9 x10 x11 x12 x13 x14 x15 x16 x17 x18 x19 (ix3 b h k) = θ1 ⟨h.val * 80 + k.val, by have := h.isLt; have := k.isLt; omega⟩)
    (h1b : ∀ k : Fin 80, val_main_v67 (F := Ideal) x2 x4 x5 x6 x7 x8 x9 x10 x11 x12 x13 x14 x15 x16 x17 x18 x19 (ix3 b (0 : Fin 1) k) = θ1 ⟨6400 + k.val, by have := k.isLt; omega⟩)
    (n : Fin 256) (k : Fin 80) :
    val_main_v83 (F := Ideal) x1 x2 x4 x5 x6 x7 x8 x9 x10 x11 x12 x13 x14 x15 x16 x17 x18 x19 (ix3 b n k) = layerHid θ1 (layerIn θ0 (fun d => x1 (ix3 b n d))) k := by
  rw [val_main_v83_apply, val_main_v82_apply, val_main_v80_apply, val_main_v81_apply, val_main_call6_v0_apply,
    val_main_call6_cst_apply, idx81_ix3, h1b]
  rw [Ideal.maximumf_def, Ideal.addf_def, Ideal.ofBits_def, Ideal.ofBits_zero_f32]
  unfold layerHid relu
  refine congrArg (fun s => max (s + _) 0) (Finset.sum_congr rfl fun h _ => ?_)
  rw [lidx80_ix3, ridx80_ix3, h1m, layer1_apply x1 x2 x4 x5 x6 x7 x8 x9 x10 x11 x12 x13 x14 x15 x16 x17 x18 x19 θ0 b h0m h0b n h]

/-- The third rectified stage at `(b, n, k)`: the specification's hidden layer on the second layer's output. -/
theorem layer3_apply (θ0 : Fin 240 → EReal) (θ1 θ2 : Fin 6480 → EReal) (b : Fin 4096)
    (h0m : ∀ (d : Fin 2) (h : Fin 80), val_main_v61 (F := Ideal) x2 x4 x5 x6 x7 x8 x9 x10 x11 x12 x13 x14 x15 x16 x17 x18 x19 (ix3 b d h) = θ0 ⟨d.val * 80 + h.val, by have := d.isLt; have := h.isLt; omega⟩)
    (h0b : ∀ h : Fin 80, val_main_v63 (F := Ideal) x2 x4 x5 x6 x7 x8 x9 x10 x11 x12 x13 x14 x15 x16 x17 x18 x19 (ix3 b (0 : Fin 1) h) = θ0 ⟨160 + h.val, by have := h.isLt; omega⟩)
    (h1m : ∀ h k : Fin 80, val_main_v65 (F := Ideal) x2 x4 x5 x6 x7 x8 x9 x10 x11 x12 x13 x14 x15 x16 x17 x18 x19 (ix3 b h k) = θ1 ⟨h.val * 80 + k.val, by have := h.isLt; have := k.isLt; omega⟩)
    (h1b : ∀ k : Fin 80, val_main_v67 (F := Ideal) x2 x4 x5 x6 x7 x8 x9 x10 x11 x12 x13 x14 x15 x16 x17 x18 x19 (ix3 b (0 : Fin 1) k) = θ1 ⟨6400 + k.val, by have := k.isLt; omega⟩)
    (h2m : ∀ h k : Fin 80, val_main_v69 (F := Ideal) x2 x4 x5 x6 x7 x8 x9 x10 x11 x12 x13 x14 x15 x16 x17 x18 x19 (ix3 b h k) = θ2 ⟨h.val * 80 + k.val, by have := h.isLt; have := k.isLt; omega⟩)
    (h2b : ∀ k : Fin 80, val_main_v71 (F := Ideal) x2 x4 x5 x6 x7 x8 x9 x10 x11 x12 x13 x14 x15 x16 x17 x18 x19 (ix3 b (0 : Fin 1) k) = θ2 ⟨6400 + k.val, by have := k.isLt; omega⟩)
    (n : Fin 256) (k : Fin 80) :
    val_main_v87 (F := Ideal) x1 x2 x4 x5 x6 x7 x8 x9 x10 x11 x12 x13 x14 x15 x16 x17 x18 x19 (ix3 b n k) = layerHid θ2 (layerHid θ1 (layerIn θ0 (fun d => x1 (ix3 b n d)))) k := by
  rw [val_main_v87_apply, val_main_v86_apply, val_main_v84_apply, val_main_v85_apply, val_main_call7_v0_apply,
    val_main_call7_cst_apply, idx85_ix3, h2b]
  rw [Ideal.maximumf_def, Ideal.addf_def, Ideal.ofBits_def, Ideal.ofBits_zero_f32]
  unfold layerHid relu
  refine congrArg (fun s => max (s + _) 0) (Finset.sum_congr rfl fun h _ => ?_)
  rw [lidx84_ix3, ridx84_ix3, h2m, layer2_apply x1 x2 x4 x5 x6 x7 x8 x9 x10 x11 x12 x13 x14 x15 x16 x17 x18 x19 θ0 θ1 θ2 b h0m h0b h1m h1b n h]
  -- both sides are the second layer's output at `h`, one of them written out
  rfl

/-- Entry `(b, n, o)` of the reference's first result, given what row `b` of each parameter array holds (`θ0`, `θ1`,
    `θ2`, `θ5` laid out as matrix then bias): the per-row network on point `n` of row `b`. -/
theorem mlp_apply (θ0 : Fin 240 → EReal) (θ1 θ2 : Fin 6480 → EReal) (θ5 : Fin 162 → EReal) (b : Fin 4096)
    (h0m : ∀ (d : Fin 2) (h : Fin 80), val_main_v61 (F := Ideal) x2 x4 x5 x6 x7 x8 x9 x10 x11 x12 x13 x14 x15 x16 x17 x18 x19 (ix3 b d h) = θ0 ⟨d.val * 80 + h.val, by have := d.isLt; have := h.isLt; omega⟩)
    (h0b : ∀ h : Fin 80, val_main_v63 (F := Ideal) x2 x4 x5 x6 x7 x8 x9 x10 x11 x12 x13 x14 x15 x16 x17 x18 x19 (ix3 b (0 : Fin 1) h) = θ0 ⟨160 + h.val, by have := h.isLt; omega⟩)
    (h1m : ∀ h k : Fin 80, val_main_v65 (F := Ideal) x2 x4 x5 x6 x7 x8 x9 x10 x11 x12 x13 x14 x15 x16 x17 x18 x19 (ix3 b h k) = θ1 ⟨h.val * 80 + k.val, by have := h.isLt; have := k.isLt; omega⟩)
    (h1b : ∀ k : Fin 80, val_main_v67 (F := Ideal) x2 x4 x5 x6 x7 x8 x9 x10 x11 x12 x13 x14 x15 x16 x17 x18 x19 (ix3 b (0 : Fin 1) k) = θ1 ⟨6400 + k.val, by have := k.isLt; omega⟩)
    (h2m : ∀ h k : Fin 80, val_main_v69 (F := Ideal) x2 x4 x5 x6 x7 x8 x9 x10 x11 x12 x13 x14 x15 x16 x17 x18 x19 (ix3 b h k) = θ2 ⟨h.val * 80 + k.val, by have := h.isLt; have := k.isLt; omega⟩)
    (h2b : ∀ k : Fin 80, val_main_v71 (F := Ideal) x2 x4 x5 x6 x7 x8 x9 x10 x11 x12 x13 x14 x15 x16 x17 x18 x19 (ix3 b (0 : Fin 1) k) = θ2 ⟨6400 + k.val, by have := k.isLt; omega⟩)
    (h5m : ∀ (h : Fin 80) (o : Fin 2), val_main_v73 (F := Ideal) x2 x4 x5 x6 x7 x8 x9 x10 x11 x12 x13 x14 x15 x16 x17 x18 x19 (ix3 b h o) = θ5 ⟨h.val * 2 + o.val, by have := h.isLt; have := o.isLt; omega⟩)
    (h5b : ∀ o : Fin 2, val_main_v75 (F := Ideal) x2 x4 x5 x6 x7 x8 x9 x10 x11 x12 x13 x14 x15 x16 x17 x18 x19 (ix3 b (0 : Fin 1) o) = θ5 ⟨160 + o.val, by have := o.isLt; omega⟩)
    (n : Fin 256) (o : Fin 2) :
    val_main_v90 (F := Ideal) x1 x2 x4 x5 x6 x7 x8 x9 x10 x11 x12 x13 x14 x15 x16 x17 x18 x19 (ix3 b n o) = mlp θ0 θ1 θ2 θ5 (fun d => x1 (ix3 b n d)) o := by
  rw [val_main_v90_apply, val_main_v88_apply, val_main_v89_apply, idx89_ix3, h5b, Ideal.addf_def]
  unfold mlp layerOut
  refine congrArg (fun s => s + _) (Finset.sum_congr rfl fun h _ => ?_)
  rw [lidx88_ix3, ridx88_ix3, h5m, layer3_apply x1 x2 x4 x5 x6 x7 x8 x9 x10 x11 x12 x13 x14 x15 x16 x17 x18 x19 θ0 θ1 θ2 b h0m h0b h1m h1b h2m h2b n h]

end Cert.ReferenceIdeal.Bridge

end
-- ==== Proof.RRot.lean ====
/-
  The reference's second result at one row: `w` regrouped as 8 pairs, combined with the two halves of `a`, and
  interleaved again.
-/
import proofs.«419183_j88055419503310_4_alg».proof.Proof.Gen.ReferenceIdeal.Read
import proofs.«419183_j88055419503310_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Cert.ReferenceIdeal Cert.ReferenceIdeal.Read Cert.HyperMlp Idealize.ShloMosaic Idealize.ShloMosaic.ValueIdx

variable (x1 : FVec Ideal S4096x256x2 .f32) (x2 x3 : FVec Ideal S4096x1x16 .f32) (x4 : FVec Ideal S16x50 .f32)
  (x5 : FVec Ideal S50 .f32) (x6 : FVec Ideal S50x200 .f32) (x7 : FVec Ideal S200 .f32) (x8 : FVec Ideal S50x240 .f32)
  (x9 : FVec Ideal S240 .f32) (x10 : FVec Ideal S50x50 .f32) (x11 : FVec Ideal S50 .f32) (x12 : FVec Ideal S50x6480 .f32)
  (x13 : FVec Ideal S6480 .f32) (x14 : FVec Ideal S50x50 .f32) (x15 : FVec Ideal S50 .f32) (x16 : FVec Ideal S50x6480 .f32)
  (x17 : FVec Ideal S6480 .f32) (x18 : FVec Ideal S50x162 .f32) (x19 : FVec Ideal S162 .f32)

/-- The first half of `a` at `(b, 0, i)`: entry `i` of row `b`. -/
theorem v0_ix (b : Fin 4096) (i : Fin 8) :
    val_main_v0 (F := Ideal) x3 (ix3 b (0 : Fin 1) i)
      = x3 (ix3 b (0 : Fin 1) ⟨i.val, by have := i.isLt; omega⟩) := by
  refine (val_main_v0_apply (F := Ideal) x3 _).trans ?_
  refine congrArg x3 (funext fun c => Fin.ext ?_)
  match c with
  | ⟨0, _⟩ => rfl
  | ⟨1, _⟩ => rfl
  | ⟨2, _⟩ => rfl

/-- The second half of `a` at `(b, 0, i)`: entry `8 + i` of row `b`. -/
theorem v1_ix (b : Fin 4096) (i : Fin 8) :
    val_main_v1 (F := Ideal) x3 (ix3 b (0 : Fin 1) i)
      = x3 (ix3 b (0 : Fin 1) ⟨8 + i.val, by have := i.isLt; omega⟩) := by
  refine (val_main_v1_apply (F := Ideal) x3 _).trans ?_
  refine congrArg x3 (funext fun c => Fin.ext ?_)
  match c with
  | ⟨0, _⟩ => rfl
  | ⟨1, _⟩ => rfl
  | ⟨2, _⟩ => rfl

/-- `w` regrouped as 8 pairs: pair `i`, member `p` is entry `2 i + p`. -/
theorem v2_ix (b : Fin 4096) (i : Fin 8) (p : Fin 2) :
    val_main_v2 (F := Ideal) x2 (ix4 b (0 : Fin 1) i p)
      = x2 (ix3 b (0 : Fin 1) ⟨2 * i.val + p.val, by have := i.isLt; have := p.isLt; omega⟩) := by
  refine (val_main_v2_apply (F := Ideal) x2 _).trans ?_
  refine congrArg x2 (funext fun c => Fin.ext ?_)
  have hb := b.isLt; have hi := i.isLt; have hp := p.isLt
  match c with
  | ⟨0, _⟩ => show (((b.val * 1 + 0) * 8 + i.val) * 2 + p.val) / 16 = b.val; omega
  | ⟨1, _⟩ => rfl
  | ⟨2, _⟩ => show (((b.val * 1 + 0) * 8 + i.val) * 2 + p.val) % 16 = 2 * i.val + p.val; omega

/-- The pairs' first members, still with the unit last axis. -/
theorem v3_ix (b : Fin 4096) (i : Fin 8) :
    val_main_v3 (F := Ideal) x2 (ix4 b (0 : Fin 1) i (0 : Fin 1))
      = val_main_v2 (F := Ideal) x2 (ix4 b (0 : Fin 1) i (0 : Fin 2)) := by
  refine (val_main_v3_apply (F := Ideal) x2 _).trans ?_
  refine congrArg (val_main_v2 (F := Ideal) x2) (funext fun c => Fin.ext ?_)
  match c with
  | ⟨0, _⟩ => rfl
  | ⟨1, _⟩ => rfl
  | ⟨2, _⟩ => rfl
  | ⟨3, _⟩ => rfl

/-- The pairs' second members, still with the unit last axis. -/
theorem v5_ix (b : Fin 4096) (i : Fin 8) :
    val_main_v5 (F := Ideal) x2 (ix4 b (0 : Fin 1) i (0 : Fin 1))
      = val_main_v2 (F := Ideal) x2 (ix4 b (0 : Fin 1) i (1 : Fin 2)) := by
  refine (val_main_v5_apply (F := Ideal) x2 _).trans ?_
  refine congrArg (val_main_v2 (F := Ideal) x2) (funext fun c => Fin.ext ?_)
  match c with
  | ⟨0, _⟩ => rfl
  | ⟨1, _⟩ => rfl
  | ⟨2, _⟩ => rfl
  | ⟨3, _⟩ => rfl

/-- The pairs' first members: `w`'s even entries. -/
theorem v4_ix (b : Fin 4096) (i : Fin 8) :
    val_main_v4 (F := Ideal) x2 (ix3 b (0 : Fin 1) i)
      = x2 (ix3 b (0 : Fin 1) ⟨2 * i.val, by have := i.isLt; omega⟩) := by
  have e : val_main_v4 (F := Ideal) x2 (ix3 b (0 : Fin 1) i)
      = val_main_v3 (F := Ideal) x2 (ix4 b (0 : Fin 1) i (0 : Fin 1)) := by
    refine (val_main_v4_apply (F := Ideal) x2 _).trans ?_
    refine congrArg (val_main_v3 (F := Ideal) x2) (funext fun c => Fin.ext ?_)
    have hb := b.isLt; have hi := i.isLt
    match c with
    | ⟨0, _⟩ => show ((b.val * 1 + 0) * 8 + i.val) / 8 = b.val; omega
    | ⟨1, _⟩ => rfl
    | ⟨2, _⟩ => show ((b.val * 1 + 0) * 8 + i.val) / 1 % 8 = i.val; omega
    | ⟨3, _⟩ => rfl
  exact e.trans ((v3_ix x2 b i).trans (v2_ix x2 b i (0 : Fin 2)))

/-- The pairs' second members: `w`'s odd entries. -/
theorem v6_ix (b : Fin 4096) (i : Fin 8) :
    val_main_v6 (F := Ideal) x2 (ix3 b (0 : Fin 1) i)
      = x2 (ix3 b (0 : Fin 1) ⟨2 * i.val + 1, by have := i.isLt; omega⟩) := by
  have e : val_main_v6 (F := Ideal) x2 (ix3 b (0 : Fin 1) i)
      = val_main_v5 (F := Ideal) x2 (ix4 b (0 : Fin 1) i (0 : Fin 1)) := by
    refine (val_main_v6_apply (F := Ideal) x2 _).trans ?_
    refine congrArg (val_main_v5 (F := Ideal) x2) (funext fun c => Fin.ext ?_)
    have hb := b.isLt; have hi := i.isLt
    match c with
    | ⟨0, _⟩ => show ((b.val * 1 + 0) * 8 + i.val) / 8 = b.val; omega
    | ⟨1, _⟩ => rfl
    | ⟨2, _⟩ => show ((b.val * 1 + 0) * 8 + i.val) / 1 % 8 = i.val; omega
    | ⟨3, _⟩ => rfl
  exact e.trans ((v5_ix x2 b i).trans (v2_ix x2 b i (1 : Fin 2)))

/-- The sum of products at pair `i` is the real part. -/
theorem re_ix (b : Fin 4096) (i : Fin 8) :
    val_main_v9 (F := Ideal) x2 x3 (ix3 b (0 : Fin 1) i)
      = rotRe (fun k => x2 (ix3 b (0 : Fin 1) k)) (fun k => x3 (ix3 b (0 : Fin 1) k)) i := by
  show val_main_v4 (F := Ideal) x2 (ix3 b (0 : Fin 1) i) * val_main_v0 (F := Ideal) x3 (ix3 b (0 : Fin 1) i)
      + val_main_v6 (F := Ideal) x2 (ix3 b (0 : Fin 1) i) * val_main_v1 (F := Ideal) x3 (ix3 b (0 : Fin 1) i) = _
  rw [v4_ix, v0_ix, v6_ix, v1_ix]
  rfl

/-- The difference of products at pair `i` is the imaginary part. -/
theorem im_ix (b : Fin 4096) (i : Fin 8) :
    val_main_v12 (F := Ideal) x2 x3 (ix3 b (0 : Fin 1) i)
      = rotIm (fun k => x2 (ix3 b (0 : Fin 1) k)) (fun k => x3 (ix3 b (0 : Fin 1) k)) i := by
  show val_main_v6 (F := Ideal) x2 (ix3 b (0 : Fin 1) i) * val_main_v0 (F := Ideal) x3 (ix3 b (0 : Fin 1) i)
      - val_main_v4 (F := Ideal) x2 (ix3 b (0 : Fin 1) i) * val_main_v1 (F := Ideal) x3 (ix3 b (0 : Fin 1) i) = _
  rw [v4_ix, v0_ix, v6_ix, v1_ix]
  rfl

/-- The real parts with a unit last axis added. -/
theorem v13_ix (b : Fin 4096) (i : Fin 8) :
    val_main_v13 (F := Ideal) x2 x3 (ix4 b (0 : Fin 1) i (0 : Fin 1))
      = val_main_v9 (F := Ideal) x2 x3 (ix3 b (0 : Fin 1) i) := by
  refine (val_main_v13_apply (F := Ideal) x2 x3 _).trans ?_
  refine congrArg (val_main_v9 (F := Ideal) x2 x3) (funext fun c => Fin.ext ?_)
  match c with
  | ⟨0, _⟩ => rfl
  | ⟨1, _⟩ => rfl
  | ⟨2, _⟩ => rfl

/-- The imaginary parts with a unit last axis added. -/
theorem v14_ix (b : Fin 4096) (i : Fin 8) :
    val_main_v14 (F := Ideal) x2 x3 (ix4 b (0 : Fin 1) i (0 : Fin 1))
      = val_main_v12 (F := Ideal) x2 x3 (ix3 b (0 : Fin 1) i) := by
  refine (val_main_v14_apply (F := Ideal) x2 x3 _).trans ?_
  refine congrArg (val_main_v12 (F := Ideal) x2 x3) (funext fun c => Fin.ext ?_)
  match c with
  | ⟨0, _⟩ => rfl
  | ⟨1, _⟩ => rfl
  | ⟨2, _⟩ => rfl

/-- The two joined along the last axis, read at member 0: the real parts. -/
theorem v15_left (b : Fin 4096) (i : Fin 8) (p : Fin 2) (hp : p.val = 0) :
    val_main_v15 (F := Ideal) x2 x3 (ix4 b (0 : Fin 1) i p)
      = val_main_v13 (F := Ideal) x2 x3 (ix4 b (0 : Fin 1) i (0 : Fin 1)) := by
  unfold val_main_v15
  exact concatenate_pair_apply_left (t := S4096x1x8x2) (s₁ := S4096x1x8x1) (s₂ := S4096x1x8x1) (3 : Fin S4096x1x8x2.rank) _ _
    _ (ix4 b (0 : Fin 1) i p) rfl (ix4 b (0 : Fin 1) i (0 : Fin 1))
    (fun c => match c with
      | ⟨0, _⟩ => rfl
      | ⟨1, _⟩ => rfl
      | ⟨2, _⟩ => rfl
      | ⟨3, _⟩ => hp.symm)

/-- The two joined along the last axis, read at member 1: the imaginary parts. -/
theorem v15_right (b : Fin 4096) (i : Fin 8) (p : Fin 2) (hp : p.val = 1) :
    val_main_v15 (F := Ideal) x2 x3 (ix4 b (0 : Fin 1) i p)
      = val_main_v14 (F := Ideal) x2 x3 (ix4 b (0 : Fin 1) i (0 : Fin 1)) := by
  unfold val_main_v15
  exact concatenate_pair_apply_right (t := S4096x1x8x2) (s₁ := S4096x1x8x1) (s₂ := S4096x1x8x1) (3 : Fin S4096x1x8x2.rank) _ _
    _ (ix4 b (0 : Fin 1) i p) rfl rfl (ix4 b (0 : Fin 1) i (0 : Fin 1))
    (fun c => match c with
      | ⟨0, _⟩ => fun _ => rfl
      | ⟨1, _⟩ => fun _ => rfl
      | ⟨2, _⟩ => fun _ => rfl
      | ⟨3, _⟩ => fun hne => absurd (Fin.ext rfl) hne)
    (by show 0 + 1 = p.val; omega)

/-- The pairs laid out in a row again: entry `j` is pair `j / 2`, member `j % 2`. -/
theorem v16_ix (b : Fin 4096) (j : Fin 16) :
    val_main_v16 (F := Ideal) x2 x3 (ix3 b (0 : Fin 1) j)
      = val_main_v15 (F := Ideal) x2 x3 (ix4 b (0 : Fin 1) (⟨j.val / 2, by have := j.isLt; omega⟩ : Fin 8)
          (⟨j.val % 2, by omega⟩ : Fin 2)) := by
  refine (val_main_v16_apply (F := Ideal) x2 x3 _).trans ?_
  refine congrArg (val_main_v15 (F := Ideal) x2 x3) (funext fun c => Fin.ext ?_)
  have hb := b.isLt; have hj := j.isLt
  match c with
  | ⟨0, _⟩ => show ((b.val * 1 + 0) * 16 + j.val) / 16 = b.val; omega
  | ⟨1, _⟩ => rfl
  | ⟨2, _⟩ => show ((b.val * 1 + 0) * 16 + j.val) / 2 % 8 = j.val / 2; omega
  | ⟨3, _⟩ => show ((b.val * 1 + 0) * 16 + j.val) % 2 = j.val % 2; omega

/-- Entry `(b, 0, j)` of the reference's second result: `dw` of row `b` of `w` and `a`. -/
theorem rot_apply (b : Fin 4096) (j : Fin 16) :
    val_main_v16 (F := Ideal) x2 x3 (ix3 b (0 : Fin 1) j)
      = dw (fun k => x2 (ix3 b (0 : Fin 1) k)) (fun k => x3 (ix3 b (0 : Fin 1) k)) j := by
  have hj := j.isLt
  refine (v16_ix x2 x3 b j).trans ?_
  unfold dw
  by_cases h : j.val % 2 = 0
  · rw [if_pos h]
    exact (v15_left x2 x3 b _ _ h).trans ((v13_ix x2 x3 b _).trans (re_ix x2 x3 b _))
  · rw [if_neg h]
    exact (v15_right x2 x3 b _ _ (by show j.val % 2 = 1; omega)).trans ((v14_ix x2 x3 b _).trans (im_ix x2 x3 b _))

end Cert.ReferenceIdeal.Bridge

end
-- ==== Proof.RArr.lean ====
/-
  The reference's two results as whole arrays: the specification's `dyArr` and `dwArr` of the arguments. Row by
  row, the parameter arrays the reference cuts out of its concatenated vector are the four heads of the row's code,
  and its four batched contractions are the per-row network over them.
-/
import proofs.«419183_j88055419503310_4_alg».proof.Proof.Gen.ReferenceIdeal.Read
import proofs.«419183_j88055419503310_4_alg».proof.Proof.SpecArr
import proofs.«419183_j88055419503310_4_alg».proof.Proof.REnc
import proofs.«419183_j88055419503310_4_alg».proof.Proof.RHeads
import proofs.«419183_j88055419503310_4_alg».proof.Proof.RParams
import proofs.«419183_j88055419503310_4_alg».proof.Proof.RLayers
import proofs.«419183_j88055419503310_4_alg».proof.Proof.RRot
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Cert.ReferenceIdeal Cert.ReferenceIdeal.Read Cert.HyperMlp Idealize.ShloMosaic Idealize.ShloMosaic.ValueIdx

variable (x1 : FVec Ideal S4096x256x2 .f32) (x2 x3 : FVec Ideal S4096x1x16 .f32) (x4 : FVec Ideal S16x50 .f32)
  (x5 : FVec Ideal S50 .f32) (x6 : FVec Ideal S50x200 .f32) (x7 : FVec Ideal S200 .f32) (x8 : FVec Ideal S50x240 .f32)
  (x9 : FVec Ideal S240 .f32) (x10 : FVec Ideal S50x50 .f32) (x11 : FVec Ideal S50 .f32) (x12 : FVec Ideal S50x6480 .f32)
  (x13 : FVec Ideal S6480 .f32) (x14 : FVec Ideal S50x50 .f32) (x15 : FVec Ideal S50 .f32) (x16 : FVec Ideal S50x6480 .f32)
  (x17 : FVec Ideal S6480 .f32) (x18 : FVec Ideal S50x162 .f32) (x19 : FVec Ideal S162 .f32)

/-- The reference's first result is `dyArr` of the weights, `w` and `y`. -/
theorem v90_arr : val_main_v90 (F := Ideal) x1 x2 x4 x5 x6 x7 x8 x9 x10 x11 x12 x13 x14 x15 x16 x17 x18 x19 = dyArr (wts x4 x5 x6 x7 x8 x9 x10 x11 x12 x13 x14 x15 x16 x17 x18 x19) x2 x1 := by
  funext i
  obtain ⟨b, n, o, rfl⟩ : ∃ (b : Fin 4096) (n : Fin 256) (o : Fin 2), i = ix3 b n o := ⟨i 0, i 1, i 2, eq_ix3 i⟩
  rw [dyArr_ix3]
  -- the row's code, then each parameter vector as a head of it
  have hc : (fun k : Fin 200 => val_main_v26 (F := Ideal) x2 x4 x5 x6 x7 (ix2 b k)) = code (wts x4 x5 x6 x7 x8 x9 x10 x11 x12 x13 x14 x15 x16 x17 x18 x19) (fun k => x2 (ix3 b (0 : Fin 1) k)) :=
    funext fun k => enc_apply x2 x4 x5 x6 x7 b k
  have h0 : ∀ j : Fin 240, val_main_v32 (F := Ideal) x2 x4 x5 x6 x7 x8 x9 (ix2 b j) = head1 (mat x8) (vec x9) (code (wts x4 x5 x6 x7 x8 x9 x10 x11 x12 x13 x14 x15 x16 x17 x18 x19) (fun k => x2 (ix3 b (0 : Fin 1) k))) 0 (by omega) j :=
    fun j => (th0_apply x2 x4 x5 x6 x7 x8 x9 b j).trans (by rw [hc])
  have h1 : ∀ j : Fin 6480, val_main_v42 (F := Ideal) x2 x4 x5 x6 x7 x10 x11 x12 x13 (ix2 b j) = head2 (mat x10) (vec x11) (mat x12) (vec x13) (code (wts x4 x5 x6 x7 x8 x9 x10 x11 x12 x13 x14 x15 x16 x17 x18 x19) (fun k => x2 (ix3 b (0 : Fin 1) k))) 50 (by omega) j :=
    fun j => (th1_apply x2 x4 x5 x6 x7 x10 x11 x12 x13 b j).trans (by rw [hc])
  have h2 : ∀ j : Fin 6480, val_main_v52 (F := Ideal) x2 x4 x5 x6 x7 x14 x15 x16 x17 (ix2 b j) = head2 (mat x14) (vec x15) (mat x16) (vec x17) (code (wts x4 x5 x6 x7 x8 x9 x10 x11 x12 x13 x14 x15 x16 x17 x18 x19) (fun k => x2 (ix3 b (0 : Fin 1) k))) 100 (by omega) j :=
    fun j => (th2_apply x2 x4 x5 x6 x7 x14 x15 x16 x17 b j).trans (by rw [hc])
  have h5 : ∀ j : Fin 162, val_main_v58 (F := Ideal) x2 x4 x5 x6 x7 x18 x19 (ix2 b j) = head1 (mat x18) (vec x19) (code (wts x4 x5 x6 x7 x8 x9 x10 x11 x12 x13 x14 x15 x16 x17 x18 x19) (fun k => x2 (ix3 b (0 : Fin 1) k))) 150 (by omega) j :=
    fun j => (th5_apply x2 x4 x5 x6 x7 x18 x19 b j).trans (by rw [hc])
  refine (mlp_apply x1 x2 x4 x5 x6 x7 x8 x9 x10 x11 x12 x13 x14 x15 x16 x17 x18 x19 _ _ _ _ b
    (fun d h => (w0_apply x2 x4 x5 x6 x7 x8 x9 x10 x11 x12 x13 x14 x15 x16 x17 x18 x19 b d h).trans (h0 _)) (fun h => (b0_apply x2 x4 x5 x6 x7 x8 x9 x10 x11 x12 x13 x14 x15 x16 x17 x18 x19 b h).trans (h0 _))
    (fun h k => (w1_apply x2 x4 x5 x6 x7 x8 x9 x10 x11 x12 x13 x14 x15 x16 x17 x18 x19 b h k).trans (h1 _)) (fun k => (b1_apply x2 x4 x5 x6 x7 x8 x9 x10 x11 x12 x13 x14 x15 x16 x17 x18 x19 b k).trans (h1 _))
    (fun h k => (w2_apply x2 x4 x5 x6 x7 x8 x9 x10 x11 x12 x13 x14 x15 x16 x17 x18 x19 b h k).trans (h2 _)) (fun k => (b2_apply x2 x4 x5 x6 x7 x8 x9 x10 x11 x12 x13 x14 x15 x16 x17 x18 x19 b k).trans (h2 _))
    (fun h o => (w3_apply x2 x4 x5 x6 x7 x8 x9 x10 x11 x12 x13 x14 x15 x16 x17 x18 x19 b h o).trans (h5 _)) (fun o => (b3_apply x2 x4 x5 x6 x7 x8 x9 x10 x11 x12 x13 x14 x15 x16 x17 x18 x19 b o).trans (h5 _)) n o).trans ?_
  rfl

/-- The reference's second result is `dwArr` of `w` and `a`. -/
theorem v16_arr : val_main_v16 (F := Ideal) x2 x3 = dwArr x2 x3 := by
  funext i
  obtain ⟨b, z, j, rfl⟩ : ∃ (b : Fin 4096) (z : Fin 1) (j : Fin 16), i = ix3 b z j := ⟨i 0, i 1, i 2, eq_ix3 i⟩
  obtain rfl : z = 0 := Subsingleton.elim _ _
  rw [dwArr_ix3]
  exact rot_apply x2 x3 b j

end Cert.ReferenceIdeal.Bridge

end
-- ==== Proof.lean ====
/-
  The certificate. Both programs compute, for every batch row, a code of the row's `w` by a small shared network,
  four parameter vectors as heads of that code, a four-layer rectified network with those parameters on each of the
  row's 256 points, and the product of `w` read as 8 complex numbers with the conjugate of `a`'s; the third result is
  a zero array on both sides. The kernel does this 64 rows at a time, with the size-2 contraction of the first layer
  spelt as two products and the size-2 output of the last as two lane sums, each bias row laid along the points by
  repetition, and its sigmoid a single operation where the reference spells `1 / (1 + e^(-x))`: on the extended
  reals these are the same functions (a change of float format is the identity there, and only commutativity and
  associativity of finite sums are used, which hold with infinities), so the precondition is never opened.

  The kernel's run ends with its two result arrays at `dyArr` and `dwArr` of the arguments (Proof/KRun.lean: each
  block's payload is the specification's function of the block's inputs, and the blocks tile the arrays); the
  reference's run ends at the same two terms (Proof/RArr.lean over the reference's stages read at an index).
-/
import proofs.«419183_j88055419503310_4_alg».proof.Defs
import proofs.«419183_j88055419503310_4_alg».proof.Proof.Gen.Kernel
import proofs.«419183_j88055419503310_4_alg».proof.Proof.Gen.Kernel.Skeleton
import proofs.«419183_j88055419503310_4_alg».proof.Proof.Gen.Kernel.Launch
import proofs.«419183_j88055419503310_4_alg».proof.Proof.Gen.Kernel.Points
import proofs.«419183_j88055419503310_4_alg».proof.Proof.Gen.Kernel.Frame
import proofs.«419183_j88055419503310_4_alg».proof.Proof.Gen.KernelIdeal
import proofs.«419183_j88055419503310_4_alg».proof.Proof.Gen.KernelIdeal.Skeleton
import proofs.«419183_j88055419503310_4_alg».proof.Proof.Gen.KernelIdeal.Launch
import proofs.«419183_j88055419503310_4_alg».proof.Proof.Gen.KernelIdeal.Points
import proofs.«419183_j88055419503310_4_alg».proof.Proof.Gen.KernelIdeal.Frame
import proofs.«419183_j88055419503310_4_alg».proof.Proof.Gen.ReferenceIdeal
import proofs.«419183_j88055419503310_4_alg».proof.Proof.Gen.ReferenceIdeal.Run
import proofs.«419183_j88055419503310_4_alg».proof.Proof.Gen.ReferenceIdeal.Read
import proofs.«419183_j88055419503310_4_alg».proof.Proof.Gen.Pre_finite_inputs
import proofs.«419183_j88055419503310_4_alg».proof.Proof.KRun
import proofs.«419183_j88055419503310_4_alg».proof.Proof.RArr
import Idealize.ShloMosaic.Adequacy
import Idealize.ShloMosaic.Init

noncomputable section

namespace Cert.Proof

open Idealize.ShloMosaic Idealize.SL.Sem Cert.HyperMlp

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference has no kernel: its frame is its run with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The one rewrite of the idealization: narrowing to a shorter float format and widening back is the identity on
    the extended reals. -/
theorem preserves : Cert.preserves_Kernel_KernelIdeal := IdealRules.truncf_extf.statement _ .f32 .bf16

/-- From memories agreeing on the arguments both runs end with the first result at `dyArr`, the second at `dwArr` of
    the arguments, and the third at the zero array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, _, Cert.KernelIdeal.Bridge.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15, a16, a17, a18, a19⟩ := hagree c
  refine ⟨(h c).1.trans ?_, (h c).2.1.trans ?_, (h c).2.2.1.trans ?_, (h c).2.2.2⟩
  · rw [Cert.ReferenceIdeal.Read.val_main_v90_eq, Cert.ReferenceIdeal.Bridge.v90_arr, a1, a2, a4, a5, a6, a7, a8, a9, a10, a11, a12, a13, a14, a15, a16, a17, a18, a19]
    rfl
  · show Cert.ReferenceIdeal.Read.val_main_v16 (F := Ideal) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = _
    rw [Cert.ReferenceIdeal.Bridge.v16_arr, a2, a3]
  · rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
